-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S50000 : Shape := ⟨1, ![50000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S50000 : S_.BroadcastsInDim S50000 (![] : Fin 0 → Fin S50000.rank)
  reducesTo_S50000_S_d0 : S50000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) (main_arg2 : IVec S4096 32) (main_arg3 : FVec F S50000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S50000 .f32 := Host.absf main_arg3
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 32000#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x32000 : Shape := ⟨2, ![4096, 32000]⟩
abbrev S4096 : Shape := ⟨1, ![4096]⟩
abbrev S50000 : Shape := ⟨1, ![50000]⟩
abbrev S4096x1 : Shape := ⟨2, ![4096, 1]⟩
abbrev S16x32000 : Shape := ⟨2, ![16, 32000]⟩
abbrev S64x32000 : Shape := ⟨2, ![64, 32000]⟩
abbrev S64x1 : Shape := ⟨2, ![64, 1]⟩
abbrev S8x32000 : Shape := ⟨2, ![8, 32000]⟩
abbrev S64 : Shape := ⟨1, ![64]⟩
abbrev S1x32000 : Shape := ⟨2, ![1, 32000]⟩
abbrev S32000 : Shape := ⟨1, ![32000]⟩
abbrev S2x8x32000 : Shape := ⟨3, ![2, 8, 32000]⟩
abbrev S2x1x32000 : Shape := ⟨3, ![2, 1, 32000]⟩
abbrev S2x32000 : Shape := ⟨2, ![2, 32000]⟩
abbrev S_ : Shape := ⟨0, ![]⟩
abbrev S4095 : Shape := ⟨1, ![4095]⟩
abbrev S1 : Shape := ⟨1, ![1]⟩

abbrev nBuf : Space → Nat
  | .hbm => 96
  | .vmem => 10
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096, .i32⟩
  | .hbm, ⟨3, _⟩ => ⟨S50000, .f32⟩
  | .hbm, ⟨4, _⟩ => ⟨S4096x1, .i32⟩
  | .hbm, ⟨5, _⟩ => ⟨S4096x1, .f32⟩
  | .hbm, ⟨6, _⟩ => ⟨S4096x1, .f32⟩
  | .hbm, ⟨7, _⟩ => ⟨S16x32000, .f32⟩
  | .hbm, ⟨8, _⟩ => ⟨S2x8x32000, .f32⟩
  | .hbm, ⟨9, _⟩ => ⟨S2x1x32000, .f32⟩
  | .hbm, ⟨10, _⟩ => ⟨S2x32000, .f32⟩
  | .hbm, ⟨11, _⟩ => ⟨S_, .f32⟩
  | .hbm, ⟨12, _⟩ => ⟨S32000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32000, .f32⟩
  | .hbm, ⟨20, _⟩ => ⟨S32000, .f32⟩
  | .hbm, ⟨21, _⟩ => ⟨S_, .f32⟩
  | .hbm, ⟨22, _⟩ => ⟨S32000, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S_, .f32⟩
  | .hbm, ⟨32, _⟩ => ⟨S4096, .f32⟩
  | .hbm, ⟨33, _⟩ => ⟨S32000, .f32⟩
  | .hbm, ⟨34, _⟩ => ⟨S_, .f32⟩
  | .hbm, ⟨35, _⟩ => ⟨S32000, .f32⟩
  | .hbm, ⟨36, _⟩ => ⟨S32000, .f32⟩
  | .hbm, ⟨37, _⟩ => ⟨S32000, .f32⟩
  | .hbm, ⟨38, _⟩ => ⟨S32000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S4095, .f32⟩
  | .hbm, ⟨45, _⟩ => ⟨S1, .f32⟩
  | .hbm, ⟨46, _⟩ => ⟨S4096, .f32⟩
  | .hbm, ⟨47, _⟩ => ⟨S4095, .i32⟩
  | .hbm, ⟨48, _⟩ => ⟨S1, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .i1⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S8x32000, .f32⟩
  | .local _ .vmem, ⟨9, _⟩ => ⟨S8x32000, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_call1_v0 : Ref sig .tc := ⟨.hbm, 47, rfl⟩
abbrev main_call1_v1 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_c_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩
abbrev main_v61 : Ref sig .tc := ⟨.hbm, 92, rfl⟩
abbrev main_cst_19 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  inb_S64x32000_S64x32000_0_0 : ∀ a, (![0, 0] : Fin 2 → Nat) a + S64x32000.size a ≤ S64x32000.size a
  h_S64x32000 : 0 < S64x32000.numel
  reduces_S64x32000_S64 : S64x32000.Reduces [1] S64
  shapeCasts_S64_S64x1 : S64.ShapeCasts S64x1
  broadcasts_S64x1_S64x32000 : S64x1.Broadcasts S64x32000
  iota_S1x32000_d1_w32 : S1x32000.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x32000_S64x32000 : S1x32000.Broadcasts S64x32000
  inb_S8x32000_S8x32000_0_0 : ∀ a, (![0, 0] : Fin 2 → Nat) a + S8x32000.size a ≤ S8x32000.size a
  h_S8x32000 : 0 < S8x32000.numel
  reduces_S64x32000_S32000 : S64x32000.Reduces [0] S32000
  shapeCasts_S32000_S1x32000 : S32000.ShapeCasts S1x32000
  inb_S8x32000_S1x32000_0_0 : ∀ a, (![0, 0] : Fin 2 → Nat) a + S1x32000.size a ≤ S8x32000.size a
  h_S1x32000 : 0 < S1x32000.numel
  shapeCasts_S1x32000_S1x32000 : S1x32000.ShapeCasts S1x32000
  shapeCasts_S16x32000_S2x8x32000 : S16x32000.ShapeCasts S2x8x32000
  slices_S2x8x32000_S2x1x32000_0_0_0 : S2x8x32000.Slices ![0, 0, 0] S2x1x32000
  shapeCasts_S2x1x32000_S2x32000 : S2x1x32000.ShapeCasts S2x32000
  reducesTo_S2x32000_S32000_d0 : S2x32000.ReducesTo [0] S32000
  h_S_ : 0 < S_.numel
  reducesTo_S4096x1_S_d0_1 : S4096x1.ReducesTo [0, 1] S_
  bcast_S_S32000 : S_.BroadcastsInDim S32000 (![] : Fin 0 → Fin S32000.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S32000_S_d0 : S32000.ReducesTo [0] S_
  shapeCasts_S4096x1_S4096 : S4096x1.ShapeCasts S4096
  slices_S4096_S4095_1 : S4096.Slices ![1] S4095
  slices_S4096_S1_0 : S4096.Slices ![0] S1
  concatenates_S4095_S1_S4096_d0 : Shape.Concatenates [S4095, S1] S4096 0
  reducesTo_S4096_S_d0 : S4096.ReducesTo [0] S_
  scatter_S32000_S4096x1_S4096_n_0_0_1_wf : ScatterDims.WF S32000 S4096x1 S4096 [] [0] [0] 1
  gather_S50000_S4096x1_S4096_n_0_n_n_0_1_1_wf : GatherDims.WF S50000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32000.size a ≤ S16x32000.size a
  hwx0_4 : ∀ i : grid0.Coords, EltTy.bits .f32 = 32 ∨ (Rect.block (s := S16x32000) S8x32000.size (cc0_transform_4 i) (hinb0_4 i)).WholeWords (EltTy.packing .f32)

variable [Facts₀]

def scatter_S32000_S4096x1_S4096_n_0_0_1 : ScatterDims S32000 S4096x1 S4096 where
  updateWindowDims := []
  insertedWindowDims := [0]
  scatterDimsToOperandDims := [0]
  indexVectorDim := 1
  wf := scatter_S32000_S4096x1_S4096_n_0_0_1_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S64x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x32000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S50000 : Shape := ⟨1, ![50000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S32000 : Shape := ⟨1, ![32000]⟩
abbrev S4095 : Shape := ⟨1, ![4095]⟩

abbrev nBuf : Space → Nat
  | .hbm => 129
  | .vmem => 0
  | .smem => 0
  | _ => 0

abbrev hbmTy0_0 (i : Nat) : BufTy := match i % 128 with
  | 0 => ⟨S4096x32000, .f32⟩
  | 1 => ⟨S4096, .i32⟩
  | 2 => ⟨S4096, .i32⟩
  | 3 => ⟨S50000, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x32000, .f32⟩
  | 11 => ⟨S4096x32000, .f32⟩
  | 12 => ⟨S4096x32000, .f32⟩
  | 13 => ⟨S_, .f32⟩
  | 14 => ⟨S4096, .f32⟩
  | 15 => ⟨S4096x1, .f32⟩
  | 16 => ⟨S4096x1, .f32⟩
  | 17 => ⟨S4096x32000, .f32⟩
  | 18 => ⟨S4096x32000, .f32⟩
  | 19 => ⟨S4096x1, .i32⟩
  | 20 => ⟨S_, .i32⟩
  | 21 => ⟨S4096x1, .i32⟩
  | 22 => ⟨S4096x1, .i1⟩
  | 23 => ⟨S_, .i32⟩
  | 24 => ⟨S4096x1, .i32⟩
  | 25 => ⟨S4096x1, .i32⟩
  | 26 => ⟨S4096x1, .i32⟩
  | 27 => ⟨S4096x1x1, .i32⟩
  | 28 => ⟨S1, .i32⟩
  | 29 => ⟨S_, .i32⟩
  | 30 => ⟨S4096x1x1, .i32⟩
  | 31 => ⟨S4096x1x1, .i1⟩
  | 32 => ⟨S1x1x1, .i32⟩
  | 33 => ⟨S4096x1x1, .i32⟩
  | 34 => ⟨S4096x1x1, .i1⟩
  | 35 => ⟨S4096x1x1, .i1⟩
  | 36 => ⟨S_, .i1⟩
  | 37 => ⟨S4096x1, .i1⟩
  | 38 => ⟨S4096x1, .f32⟩
  | 39 => ⟨S_, .f32⟩
  | 40 => ⟨S4096x1, .f32⟩
  | 41 => ⟨S4096x1, .f32⟩
  | 42 => ⟨S_, .f32⟩
  | 43 => ⟨S_, .f32⟩
  | 44 => ⟨S_, .f32⟩
  | 45 => ⟨S_, .f32⟩
  | 46 => ⟨S_, .f32⟩
  | 47 => ⟨S4096x32000, .f32⟩
  | 48 => ⟨S_, .f32⟩
  | 49 => ⟨S32000, .f32⟩
  | 50 => ⟨S_, .f32⟩
  | 51 => ⟨S32000, .f32⟩
  | 52 => ⟨S32000, .f32⟩
  | 53 => ⟨S_, .f32⟩
  | 54 => ⟨S32000, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S_, .f32⟩
  | 64 => ⟨S4096, .f32⟩
  | 65 => ⟨S32000, .f32⟩
  | 66 => ⟨S_, .f32⟩
  | 67 => ⟨S32000, .f32⟩
  | 68 => ⟨S32000, .f32⟩
  | 69 => ⟨S32000, .f32⟩
  | 70 => ⟨S32000, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S4095, .f32⟩
  | 78 => ⟨S1, .f32⟩
  | 79 => ⟨S4096, .f32⟩
  | 80 => ⟨S4095, .i32⟩
  | 81 => ⟨S1, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096, .f32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S4096, .f32⟩
  | 101 => ⟨S4096, .f32⟩
  | 102 => ⟨S4096, .f32⟩
  | 103 => ⟨S4096, .f32⟩
  | 104 => ⟨S4096, .f32⟩
  | 105 => ⟨S_, .f32⟩
  | 106 => ⟨S4096, .f32⟩
  | 107 => ⟨S4096, .i1⟩
  | 108 => ⟨S_, .f32⟩
  | 109 => ⟨S4096, .f32⟩
  | 110 => ⟨S4096, .f32⟩
  | 111 => ⟨S4096, .f32⟩
  | 112 => ⟨S4096, .f32⟩
  | 113 => ⟨S4096, .f32⟩
  | 114 => ⟨S4096, .f32⟩
  | 115 => ⟨S4096, .f32⟩
  | 116 => ⟨S_, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x32000, .f32⟩

abbrev hbmTy0_1 (i : Nat) : BufTy := match i % 128 with
  | 0 => ⟨S_, .f32⟩
  | _ => ⟨S4096x32000, .f32⟩

abbrev hbmTy (i : Nat) : BufTy := match i / 128 with
  | 0 => hbmTy0_0 i
  | 1 => hbmTy0_1 i
  | _ => ⟨S4096x32000, .f32⟩

abbrev bufTy : (tb : Table) → Fin (tcTables nBuf tb) → BufTy
  | .hbm, ⟨i, _⟩ => hbmTy i
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_cst_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst_1 : Ref sig .tc := ⟨.hbm, 48, rfl⟩
abbrev main_v7 : Ref sig .tc := ⟨.hbm, 49, rfl⟩
abbrev main_cst_2 : Ref sig .tc := ⟨.hbm, 50, rfl⟩
abbrev main_v8 : Ref sig .tc := ⟨.hbm, 51, rfl⟩
abbrev main_v9 : Ref sig .tc := ⟨.hbm, 52, rfl⟩
abbrev main_cst_3 : Ref sig .tc := ⟨.hbm, 53, rfl⟩
abbrev main_v10 : Ref sig .tc := ⟨.hbm, 54, rfl⟩
abbrev main_c : Ref sig .tc := ⟨.hbm, 55, rfl⟩
abbrev main_v11 : Ref sig .tc := ⟨.hbm, 56, rfl⟩
abbrev main_v12 : Ref sig .tc := ⟨.hbm, 57, rfl⟩
abbrev main_c_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_7 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_cst_9 : Ref sig .tc := ⟨.hbm, 75, rfl⟩
abbrev main_v25 : Ref sig .tc := ⟨.hbm, 76, rfl⟩
abbrev main_call2_v0 : Ref sig .tc := ⟨.hbm, 77, rfl⟩
abbrev main_call2_v1 : Ref sig .tc := ⟨.hbm, 78, rfl⟩
abbrev main_v26 : Ref sig .tc := ⟨.hbm, 79, rfl⟩
abbrev main_call3_v0 : Ref sig .tc := ⟨.hbm, 80, rfl⟩
abbrev main_call3_v1 : Ref sig .tc := ⟨.hbm, 81, rfl⟩
abbrev main_v27 : Ref sig .tc := ⟨.hbm, 82, rfl⟩
abbrev main_c_10 : Ref sig .tc := ⟨.hbm, 83, rfl⟩
abbrev main_v28 : Ref sig .tc := ⟨.hbm, 84, rfl⟩
abbrev main_v29 : Ref sig .tc := ⟨.hbm, 85, rfl⟩
abbrev main_c_11 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_c_12 : Ref sig .tc := ⟨.hbm, 92, rfl⟩
abbrev main_v35 : Ref sig .tc := ⟨.hbm, 93, rfl⟩
abbrev main_v36 : Ref sig .tc := ⟨.hbm, 94, rfl⟩
abbrev main_c_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_14 : Ref sig .tc := ⟨.hbm, 105, rfl⟩
abbrev main_v46 : Ref sig .tc := ⟨.hbm, 106, rfl⟩
abbrev main_v47 : Ref sig .tc := ⟨.hbm, 107, rfl⟩
abbrev main_cst_15 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_16 : Ref sig .tc := ⟨.hbm, 116, rfl⟩
abbrev main_v55 : Ref sig .tc := ⟨.hbm, 117, rfl⟩
abbrev main_v56 : Ref sig .tc := ⟨.hbm, 118, rfl⟩
abbrev main_cst_17 : Ref sig .tc := ⟨.hbm, 119, rfl⟩
abbrev main_v57 : Ref sig .tc := ⟨.hbm, 120, rfl⟩
abbrev main_cst_18 : Ref sig .tc := ⟨.hbm, 121, rfl⟩
abbrev main_v58 : Ref sig .tc := ⟨.hbm, 122, rfl⟩
abbrev main_cst_19 : Ref sig .tc := ⟨.hbm, 123, rfl⟩
abbrev main_v59 : Ref sig .tc := ⟨.hbm, 124, rfl⟩
abbrev main_v60 : Ref sig .tc := ⟨.hbm, 125, rfl⟩
abbrev main_cst_20 : Ref sig .tc := ⟨.hbm, 126, rfl⟩
abbrev main_v61 : Ref sig .tc := ⟨.hbm, 127, rfl⟩
abbrev main_v62 : Ref sig .tc := ⟨.hbm, 128, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x32000_S32000_d0 : S4096x32000.ReducesTo [0] S32000
  bcast_S_S32000 : S_.BroadcastsInDim S32000 (![] : Fin 0 → Fin S32000.rank)
  reducesTo_S32000_S_d0 : S32000.ReducesTo [0] S_
  slices_S4096_S4095_1 : S4096.Slices ![1] S4095
  slices_S4096_S1_0 : S4096.Slices ![0] S1
  concatenates_S4095_S1_S4096_d0 : Shape.Concatenates [S4095, S1] S4096 0
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]
  scatter_S32000_S4096x1_S4096_n_0_0_1_wf : ScatterDims.WF S32000 S4096x1 S4096 [] [0] [0] 1
  gather_S50000_S4096x1_S4096_n_0_n_n_0_1_1_wf : GatherDims.WF S50000 S4096x1 S4096 [] [0] [] [0] [] 1 ![1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def scatter_S32000_S4096x1_S4096_n_0_0_1 : ScatterDims S32000 S4096x1 S4096 where
  updateWindowDims := []
  insertedWindowDims := [0]
  scatterDimsToOperandDims := [0]
  indexVectorDim := 1
  wf := scatter_S32000_S4096x1_S4096_n_0_0_1_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf

class Facts : Prop extends Facts₀ where

variable [Facts]
-- ==== Proof.LibWrites.lean ====
/-
  Reading back a buffer after a list of unmasked writes over KNOWN contents.

  `View.writes f L` applies the pieces `L` (last write first) over contents `f`.  Where some piece's rectangle
  holds an index the read is the pieces' canonical overlay `View.canon L` there (the newest covering piece's payload);
  where none does, it is what `f` read.  So the result depends on the view and on `f` only through `v.read f`:
  `over (v.read f) L`.
-/
import Idealize.ShloMosaic.Lib.Pipeline.FrameBody
import Idealize.ShloMosaic.Lib.Pipeline.Frame

noncomputable section

namespace Cert.LibWrites

open Idealize.ShloMosaic

variable {sig : RefSig} {κ : Kind} {sp : Space} {s : Shape} {e : EltTy} {Val : EltTy → Type} [∀ e, Nonempty (Val e)]

open Classical in
/-- The contents `X` overlaid by the pieces `L` (last write first): the pieces' canon where one covers, `X` elsewhere. -/
def over (X : s.Idx → Val e) (L : List (View.Piece Val s e)) : s.Idx → Val e :=
  fun y => if (∃ p ∈ L, y ∈ p.1.set) then View.canon L y else X y

/-- A read of writes over `f` is `f`'s read overlaid by the pieces, index by index. -/
theorem read_writes_apply (v : View sig κ sp s e) (f : v.ty.Contents Val) (L : List (View.Piece Val s e)) (y : s.Idx) :
    v.read Val (v.writes Val f L) y = over (v.read Val f) L y := by
  by_cases h : ∃ p ∈ L, y ∈ p.1.set
  · -- some piece covers the index: both sides are the pieces' canon there
    simp only [over, if_pos h]
    exact View.read_writes_apply_eq_canon v f y L h
  · -- no piece covers the index: every write leaves the element alone
    simp only [over, if_neg h]
    exact View.read_writes_apply_of_forall_not_mem v f y L fun p hp hy => h ⟨p, hp, hy⟩

/-- The same as functions. -/
theorem read_writes (v : View sig κ sp s e) (f : v.ty.Contents Val) (L : List (View.Piece Val s e)) :
    v.read Val (v.writes Val f L) = over (v.read Val f) L :=
  funext fun y => read_writes_apply v f L y

/-- On a whole memref holding `X`: the writes `L` leave `over X L`. -/
theorem read_writes_unread {m : Memref sig κ sp s e} (h : m.IsWhole) (X : s.Idx → Val e) (L : List (View.Piece Val s e)) :
    m.view.read Val (m.view.writes Val (h.unread X) L) = over X L := by
  rw [read_writes, h.read_unread]

/-- Off every piece, the old contents. -/
theorem over_of_not_mem (X : s.Idx → Val e) (L : List (View.Piece Val s e)) (y : s.Idx) (hy : ¬ ∃ p ∈ L, y ∈ p.1.set) :
    over X L y = X y := by
  simp only [over, if_neg hy]

/-- Under some piece, the canon. -/
theorem over_of_mem (X : s.Idx → Val e) (L : List (View.Piece Val s e)) (y : s.Idx) (hy : ∃ p ∈ L, y ∈ p.1.set) :
    over X L y = View.canon L y := by
  simp only [over, if_pos hy]

/-- A covering list forgets the old contents. -/
theorem over_of_cover (X : s.Idx → Val e) (L : List (View.Piece Val s e)) (h : ∀ y, ∃ p ∈ L, y ∈ p.1.set) :
    over X L = View.canon L :=
  funext fun y => over_of_mem X L y (h y)

end Cert.LibWrites

end
-- ==== Proof.Kernel.Kit.lean ====
/-
  The launch side of the one pipeline of this program, for a frame written against the library's launch theorem
  for a region followed by host lines.

  @main is: one host line (the labels reshaped to a column), the region, then 88 host lines in six stretches.
  Here: the buffer contents the region is entered with (`V0`: the launch contents after the first line); that @main
  is that prefix, the region, and the six stretches; that the later lines touch only unscoped TensorCore buffers,
  allocate nothing and write no array of the pipeline; that no line at all writes an argument array; each window's
  block at a grid point as a read of its array; the one branch condition of the body (`program_id(1) == 0`) in
  closed form over the 64 grid points; and the staging memrefs the body is called with.
-/
import proofs.«406687_j326417515025_3_alg».proof.Proof.Gen.Kernel.Launch
import proofs.«406687_j326417515025_3_alg».proof.Proof.Gen.Kernel.Skeleton
import proofs.«406687_j326417515025_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The six stretches of host lines after the region, in order. -/
abbrev tailOps : List (List (HloOp τ sig (Elt F))) :=
  [hostOps1, hostOps1_1, hostOps1_2, hostOps1_3, hostOps1_4, hostOps1_5]

/-- Core `c`'s TensorCore buffer contents when the region is entered: the launch contents after the one host line
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the first line, the region, and the later lines: it reduces to the region continued by those. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later line writes an array of the pipeline: each writes only its own result buffer. -/
theorem hostOps1_keeps : (hostOps1 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The argument arrays are written by no line -/

/-- The line before the region does not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_nw1 : (hostOps1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_nw2 : (hostOps1 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_nw3 : (hostOps1 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw1 : (hostOps1_1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw2 : (hostOps1_1 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw3 : (hostOps1_1 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw1 : (hostOps1_2 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw2 : (hostOps1_2 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw3 : (hostOps1_2 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw1 : (hostOps1_3 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw2 : (hostOps1_3 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw3 : (hostOps1_3 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw1 : (hostOps1_4 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw2 : (hostOps1_4 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw3 : (hostOps1_4 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw1 : (hostOps1_5 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw2 : (hostOps1_5 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw3 : (hostOps1_5 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (by
      intro op hop
      simp only [tailOps, List.flatten_cons, List.flatten_nil, List.append_nil, List.mem_append] at hop
      rcases hop with hop | hop | hop | hop | hop | hop
      · exact (List.forall_iff_forall_mem.mp hostOps1_nw1) op hop
      · exact (List.forall_iff_forall_mem.mp hostOps1_1_nw1) op hop
      · exact (List.forall_iff_forall_mem.mp hostOps1_2_nw1) op hop
      · exact (List.forall_iff_forall_mem.mp hostOps1_3_nw1) op hop
      · exact (List.forall_iff_forall_mem.mp hostOps1_4_nw1) op hop
      · exact (List.forall_iff_forall_mem.mp hostOps1_5_nw1) op hop),
    Pipeline.withArrays_of_ne _ c (V0 m c) _ main_arg1 (by exact (by decide : ∀ w, Pipeline.arrRef spec0 w ≠ main_arg1))]
  exact V_main_arg1 m c
/-- No line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (by
      intro op hop
      simp only [tailOps, List.flatten_cons, List.flatten_nil, List.append_nil, List.mem_append] at hop
      rcases hop with hop | hop | hop | hop | hop | hop
      · exact (List.forall_iff_forall_mem.mp hostOps1_nw2) op hop
      · exact (List.forall_iff_forall_mem.mp hostOps1_1_nw2) op hop
      · exact (List.forall_iff_forall_mem.mp hostOps1_2_nw2) op hop
      · exact (List.forall_iff_forall_mem.mp hostOps1_3_nw2) op hop
      · exact (List.forall_iff_forall_mem.mp hostOps1_4_nw2) op hop
      · exact (List.forall_iff_forall_mem.mp hostOps1_5_nw2) op hop),
    Pipeline.withArrays_of_ne _ c (V0 m c) _ main_arg2 (by exact (by decide : ∀ w, Pipeline.arrRef spec0 w ≠ main_arg2))]
  exact V_main_arg2 m c
/-- No line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (by
      intro op hop
      simp only [tailOps, List.flatten_cons, List.flatten_nil, List.append_nil, List.mem_append] at hop
      rcases hop with hop | hop | hop | hop | hop | hop
      · exact (List.forall_iff_forall_mem.mp hostOps1_nw3) op hop
      · exact (List.forall_iff_forall_mem.mp hostOps1_1_nw3) op hop
      · exact (List.forall_iff_forall_mem.mp hostOps1_2_nw3) op hop
      · exact (List.forall_iff_forall_mem.mp hostOps1_3_nw3) op hop
      · exact (List.forall_iff_forall_mem.mp hostOps1_4_nw3) op hop
      · exact (List.forall_iff_forall_mem.mp hostOps1_5_nw3) op hop),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run to the library's frame post (every array of the pipeline at what the proof data computes, every other
    unscoped buffer as the later lines leave it): the four argument arrays end as launched. Argument 0 is window 0's
    array, an input; the others are arrays of no window that no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch condition -/

/-- The condition of the body's one `scf.if` (`program_id(1) == 0`: the column-sum block is reset there), from the
    grid coordinates. -/
abbrev cond0_0 (i : grid0.Coords) : Prop := (Scalar.cmpi .ne (Scalar.extui (Scalar.cmpi .eq (BitVec.ofNat 32 (i 1).val) 0#32)) 0#32) = 1#1
/-- It holds at the first point of each core's 32: decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

abbrev ms0_0 (t : Fin cfg0.N) : Memref sig .tc .vmem S64x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32000 .f32 := win0_4.stage (cfg0.slots t 4)
abbrev hs0_4 (t : Fin cfg0.N) : (ms0_4 t).IsWhole := hstage0_4 ((cfg0.slots t 4).cast nbuf0_4)

end Cert.Kernel.Fr

end
-- ==== Proof.Kernel.RunA.lean ====
/-
  The kernel body at a point where `program_id(1) == 0`: on whole staging memrefs — the logits block and the
  label column at their contents, the three output buffers at anything — it runs to the end leaving the inputs as they
  were and each output buffer with a list of stores written into it.  At such a point the column-sum block is first
  stored whole with zeros, then its row 0 is read back and stored again with the block's column sums added: two pieces.
  The lists are found by running the body; what they read as is stated where they are used.
-/
import proofs.«406687_j326417515025_3_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each output buffer (last first) when the reset branch is taken, with the run. -/
noncomputable def kernelRun0_A (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i)
    (x0 : Vec F S64x32000 .f32) (x1 : Vec F S64x1 .i32) :
    Σ' (L2 : List (View.Piece (Elt F) S64x1 .f32)) (L3 : List (View.Piece (Elt F) S64x1 .f32)), { L4 : List (View.Piece (Elt F) S8x32000 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__softmax_stats_kernel i arg2 harg2 arg3 harg3 arg4 harg4 arg5 harg5 arg6 harg6) K } := by
  refine ⟨?_, ?_, ?_, fun E K => ?run⟩
  case run =>
    simp only [cc0__softmax_stats_kernel_eq_skeleton]; unfold cc0__softmax_stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.Kernel.RunB.lean ====
/-
  The kernel body at a point where `program_id(1) ≠ 0`: the column-sum block is not reset; its row 0 is read back
  (what the point before left there) and stored again with this block's column sums added, the other seven rows are
  left as they were.  So the block's buffer is handed in at known contents and handed back with ONE piece (row 0)
  written over those contents.
-/
import proofs.«406687_j326417515025_3_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each output buffer (last first) when the reset branch is not taken, with the run:
    the column-sum buffer, held at `xo4` before, ends as the pieces written over `xo4`. -/
noncomputable def kernelRun0_B (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i)
    (x0 : Vec F S64x32000 .f32) (x1 : Vec F S64x1 .i32) (xo4 : Vec F S8x32000 .f32) :
    Σ' (L2 : List (View.Piece (Elt F) S64x1 .f32)) (L3 : List (View.Piece (Elt F) S64x1 .f32)), { L4 : List (View.Piece (Elt F) S8x32000 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__softmax_stats_kernel i arg2 harg2 arg3 harg3 arg4 harg4 arg5 harg5 arg6 harg6) K } := by
  refine ⟨?_, ?_, ?_, fun E K => ?run⟩
  case run =>
    simp only [cc0__softmax_stats_kernel_eq_skeleton]; unfold cc0__softmax_stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg2.eq_unread hf0; obtain rfl := harg3.eq_unread hf1; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexact H4

end Cert.Kernel.Fr

end
-- ==== Proof.Kernel.Frame.lean ====
/-
  The frame of the program: every weakly fair execution of @main terminates without a fault and leaves the four
  argument arrays as launched — together with what each array of the pipeline holds at the end, for the value claim.

  What the three output buffers hold after the body at each of the 64 grid points: the log-probability column and the
  top-probability column are stored whole at every point; the column-sum block is reset and its row 0 set at the
  first point of each core's 32, and at the other points only its row 0 is overwritten over what the point before
  left (`acc0`, by recursion on the point: the block is written back only after each core's last point, so its buffer
  is carried from point to point).  From that: the pipeline's proof data, the body's obligation at a generic point
  (a case split on `program_id(1) == 0` in closed form), the run of @main around the region and the frame.
-/
import proofs.«406687_j326417515025_3_alg».proof.Proof.LibWrites
import proofs.«406687_j326417515025_3_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO0_2 : View sig .tc .vmem S64x1 .f32 := (Memref.whole cc0_stg2_0 : Memref sig .tc .vmem S64x1 .f32).view
abbrev VO0_3 : View sig .tc .vmem S64x1 .f32 := (Memref.whole cc0_stg3_0 : Memref sig .tc .vmem S64x1 .f32).view
abbrev VO0_4 : View sig .tc .vmem S8x32000 .f32 := (Memref.whole cc0_stg4_0 : Memref sig .tc .vmem S8x32000 .f32).view

/-! ## What each case leaves in each output buffer -/

theorem cover0_A_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S64x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S64x1.size (by sl_kernel_rfl) y
theorem cover0_A_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S64x1.size (by sl_kernel_rfl) y
/-- At a reset point the column-sum block is stored whole (zeros), then its row 0 again: the pieces cover it. -/
theorem cover0_A_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S8x32000.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S8x32000.size (by sl_kernel_rfl) y
theorem cover0_B_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) (y : S64x1.Idx) :
    ∃ pc ∈ (kernelRun0_B c i arg2 harg2 arg3 harg3 arg4 harg4 arg5 harg5 arg6 harg6 hc0 x0 x1 xo4).1, y ∈ pc.1.set :=
  View.cover_of_tiledL (kernelRun0_B c i arg2 harg2 arg3 harg3 arg4 harg4 arg5 harg5 arg6 harg6 hc0 x0 x1 xo4).1 S64x1.size (by sl_kernel_rfl) y
theorem cover0_B_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) (y : S64x1.Idx) :
    ∃ pc ∈ (kernelRun0_B c i arg2 harg2 arg3 harg3 arg4 harg4 arg5 harg5 arg6 harg6 hc0 x0 x1 xo4).2.1, y ∈ pc.1.set :=
  View.cover_of_tiledL (kernelRun0_B c i arg2 harg2 arg3 harg3 arg4 harg4 arg5 harg5 arg6 harg6 hc0 x0 x1 xo4).2.1 S64x1.size (by sl_kernel_rfl) y

/-- What the reset case leaves in each output buffer: its pieces read back. -/
def out0_A_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S64x1 .f32 :=
  VO0_2.read (Elt F) (VO0_2.writes (Elt F) VO0_2.junk (kernelRun0_A c i arg2 harg2 arg3 harg3 arg4 harg4 arg5 harg5 arg6 harg6 hc0 x0 x1).1)
def out0_A_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S64x1 .f32 :=
  VO0_3.read (Elt F) (VO0_3.writes (Elt F) VO0_3.junk (kernelRun0_A c i arg2 harg2 arg3 harg3 arg4 harg4 arg5 harg5 arg6 harg6 hc0 x0 x1).2.1)
def out0_A_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S8x32000 .f32 :=
  VO0_4.read (Elt F) (VO0_4.writes (Elt F) VO0_4.junk (kernelRun0_A c i arg2 harg2 arg3 harg3 arg4 harg4 arg5 harg5 arg6 harg6 hc0 x0 x1).2.2.1)
/-- What the other case leaves: the two columns' pieces read back; the column-sum block's one piece over what it held. -/
def out0_B_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S64x1 .f32 :=
  VO0_2.read (Elt F) (VO0_2.writes (Elt F) VO0_2.junk (kernelRun0_B c i arg2 harg2 arg3 harg3 arg4 harg4 arg5 harg5 arg6 harg6 hc0 x0 x1 xo4).1)
def out0_B_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S64x1 .f32 :=
  VO0_3.read (Elt F) (VO0_3.writes (Elt F) VO0_3.junk (kernelRun0_B c i arg2 harg2 arg3 harg3 arg4 harg4 arg5 harg5 arg6 harg6 hc0 x0 x1 xo4).2.1)
def out0_B_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S8x32000 .f32 :=
  Cert.LibWrites.over xo4 (kernelRun0_B c i arg2 harg2 arg3 harg3 arg4 harg4 arg5 harg5 arg6 harg6 hc0 x0 x1 xo4).2.2.1

/-! ## The column-sum block, point by point -/

/-- What the column-sum block's buffer holds after the body at position `n`: reset and set at the points ≡ 0 (mod 32),
    otherwise the point's one piece over what position `n - 1` left. -/
def acc0 (c : Dev nD) : (n : ℕ) → n < cfg0.N → Vec F S8x32000 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (acc0 c n (Nat.lt_of_succ_lt hn))

/-- The position before `t` is a position. -/
theorem pred_lt (t : Fin cfg0.N) : t.val - 1 < cfg0.N := Nat.lt_of_le_of_lt (Nat.sub_le _ _) t.isLt

theorem acc0_A (c : Dev nD) (t : Fin cfg0.N) (h0 : t.val % 32 = 0) :
    acc0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) := by
  obtain ⟨n, hn⟩ := t
  cases n with
  | zero => exact rfl
  | succ n => exact (dif_pos h0).trans rfl

theorem acc0_B (c : Dev nD) (t : Fin cfg0.N) (h0 : ¬t.val % 32 = 0) :
    acc0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) := by
  obtain ⟨n, hn⟩ := t
  cases n with
  | zero => exact (by exfalso; (try dsimp only at h0); exact absurd (Nat.zero_mod _) h0)
  | succ n => exact (dif_neg h0).trans rfl

open Classical in
/-- What the log-probability column's buffer holds after the body at point `t`. -/
def o2At (c : Dev nD) (t : Fin cfg0.N) : Vec F S64x1 .f32 :=
  if h0 : t.val % 32 = 0 then out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
  else out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))

open Classical in
/-- What the top-probability column's buffer holds after the body at point `t`. -/
def o3At (c : Dev nD) (t : Fin cfg0.N) : Vec F S64x1 .f32 :=
  if h0 : t.val % 32 = 0 then out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
  else out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))

/-! ## The pipeline's proof data -/

/-- The proof data of the one pipeline on core `c`: the arrays as the region finds them; after the body at point `t`
    each input's buffer at its block, the two columns' at what the point's case stores, the column-sum block's at
    `acc0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => o2At m c t
    | ⟨3, _⟩ => o3At m c t
    | ⟨4, _⟩ => acc0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = o2At m c t := by dsimp only [dats]
theorem after0_3 (c : Dev nD) (t : Fin cfg0.N) : (dats m 0 c).after 3 t = o3At m c t := by dsimp only [dats]
theorem after0_4 (c : Dev nD) (t : Fin cfg0.N) : (dats m 0 c).after 4 t = acc0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point that is not the first of its core's 32 the column-sum block's buffer holds what the point before left:
    the block is written back only at the points ≡ 31 (mod 32). -/
theorem before0_4_B (c : Dev nD) (t : Fin cfg0.N) (h0 : ¬t.val % 32 = 0) (d) :
    (dats m 0 c).before 4 t d = acc0 m c (t.val - 1) (pred_lt t) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' buffers hold their blocks; the closed form says which case the point is in; at
    a point that does not reset, the column-sum block's buffer holds what the point before left; so the case's run
    applies, and what it leaves is the proof data's `after`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [acc0_A m c t h0, show o2At m c t = out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) from dif_pos h0,
      show o3At m c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) from dif_pos h0]
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [acc0_B m c t h0, show o2At m c t = out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) from dif_neg h0,
      show o3At m c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) from dif_neg h0]
    simp only [before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, H4⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _)
    unfold owns; iexists _; isplitr
    swap; · iexact H4
    ipureintro; exact Cert.LibWrites.read_writes_unread (hs0_4 t) _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end and its four argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KernelIdeal.Kit.lean ====
/-
  The launch side of the one pipeline of this program, for a frame written against the library's launch theorem
  for a region followed by host lines.

  @main is: one host line (the labels reshaped to a column), the region, then 88 host lines in six stretches.
  Here: the buffer contents the region is entered with (`V0`: the launch contents after the first line); that @main
  is that prefix, the region, and the six stretches; that the later lines touch only unscoped TensorCore buffers,
  allocate nothing and write no array of the pipeline; that no line at all writes an argument array; each window's
  block at a grid point as a read of its array; the one branch condition of the body (`program_id(1) == 0`) in
  closed form over the 64 grid points; and the staging memrefs the body is called with.
-/
import proofs.«406687_j326417515025_3_alg».proof.Proof.Gen.KernelIdeal.Launch
import proofs.«406687_j326417515025_3_alg».proof.Proof.Gen.KernelIdeal.Skeleton
import proofs.«406687_j326417515025_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The six stretches of host lines after the region, in order. -/
abbrev tailOps : List (List (HloOp τ sig (Elt F))) :=
  [hostOps1, hostOps1_1, hostOps1_2, hostOps1_3, hostOps1_4, hostOps1_5]

/-- Core `c`'s TensorCore buffer contents when the region is entered: the launch contents after the one host line
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the first line, the region, and the later lines: it reduces to the region continued by those. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later line writes an array of the pipeline: each writes only its own result buffer. -/
theorem hostOps1_keeps : (hostOps1 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op =>
    ∀ w : Fin 5, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The argument arrays are written by no line -/

/-- The line before the region does not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The line before the region does not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_nw1 : (hostOps1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_nw2 : (hostOps1 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_nw3 : (hostOps1 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw1 : (hostOps1_1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw2 : (hostOps1_1 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_nw3 : (hostOps1_1 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw1 : (hostOps1_2 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw2 : (hostOps1_2 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_nw3 : (hostOps1_2 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw1 : (hostOps1_3 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw2 : (hostOps1_3 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_nw3 : (hostOps1_3 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw1 : (hostOps1_4 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw2 : (hostOps1_4 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_nw3 : (hostOps1_4 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw1 : (hostOps1_5 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw2 : (hostOps1_5 : List (HloOp τ sig (Elt F))).Forall fun op => Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_nw3 : (hostOps1_5 : List (HloOp τ sig (Elt F))).Forall fun op => Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (by
      intro op hop
      simp only [tailOps, List.flatten_cons, List.flatten_nil, List.append_nil, List.mem_append] at hop
      rcases hop with hop | hop | hop | hop | hop | hop
      · exact (List.forall_iff_forall_mem.mp hostOps1_nw1) op hop
      · exact (List.forall_iff_forall_mem.mp hostOps1_1_nw1) op hop
      · exact (List.forall_iff_forall_mem.mp hostOps1_2_nw1) op hop
      · exact (List.forall_iff_forall_mem.mp hostOps1_3_nw1) op hop
      · exact (List.forall_iff_forall_mem.mp hostOps1_4_nw1) op hop
      · exact (List.forall_iff_forall_mem.mp hostOps1_5_nw1) op hop),
    Pipeline.withArrays_of_ne _ c (V0 m c) _ main_arg1 (by exact (by decide : ∀ w, Pipeline.arrRef spec0 w ≠ main_arg1))]
  exact V_main_arg1 m c
/-- No line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (by
      intro op hop
      simp only [tailOps, List.flatten_cons, List.flatten_nil, List.append_nil, List.mem_append] at hop
      rcases hop with hop | hop | hop | hop | hop | hop
      · exact (List.forall_iff_forall_mem.mp hostOps1_nw2) op hop
      · exact (List.forall_iff_forall_mem.mp hostOps1_1_nw2) op hop
      · exact (List.forall_iff_forall_mem.mp hostOps1_2_nw2) op hop
      · exact (List.forall_iff_forall_mem.mp hostOps1_3_nw2) op hop
      · exact (List.forall_iff_forall_mem.mp hostOps1_4_nw2) op hop
      · exact (List.forall_iff_forall_mem.mp hostOps1_5_nw2) op hop),
    Pipeline.withArrays_of_ne _ c (V0 m c) _ main_arg2 (by exact (by decide : ∀ w, Pipeline.arrRef spec0 w ≠ main_arg2))]
  exact V_main_arg2 m c
/-- No line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (by
      intro op hop
      simp only [tailOps, List.flatten_cons, List.flatten_nil, List.append_nil, List.mem_append] at hop
      rcases hop with hop | hop | hop | hop | hop | hop
      · exact (List.forall_iff_forall_mem.mp hostOps1_nw3) op hop
      · exact (List.forall_iff_forall_mem.mp hostOps1_1_nw3) op hop
      · exact (List.forall_iff_forall_mem.mp hostOps1_2_nw3) op hop
      · exact (List.forall_iff_forall_mem.mp hostOps1_3_nw3) op hop
      · exact (List.forall_iff_forall_mem.mp hostOps1_4_nw3) op hop
      · exact (List.forall_iff_forall_mem.mp hostOps1_5_nw3) op hop),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run to the library's frame post (every array of the pipeline at what the proof data computes, every other
    unscoped buffer as the later lines leave it): the four argument arrays end as launched. Argument 0 is window 0's
    array, an input; the others are arrays of no window that no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch condition -/

/-- The condition of the body's one `scf.if` (`program_id(1) == 0`: the column-sum block is reset there), from the
    grid coordinates. -/
abbrev cond0_0 (i : grid0.Coords) : Prop := (Scalar.cmpi .ne (Scalar.extui (Scalar.cmpi .eq (BitVec.ofNat 32 (i 1).val) 0#32)) 0#32) = 1#1
/-- It holds at the first point of each core's 32: decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

abbrev ms0_0 (t : Fin cfg0.N) : Memref sig .tc .vmem S64x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32000 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KernelIdeal.RunA.lean ====
/-
  The kernel body at a point where `program_id(1) == 0`: on whole staging memrefs — the logits block and the
  label column at their contents, the three output buffers at anything — it runs to the end leaving the inputs as they
  were and each output buffer with a list of stores written into it.  At such a point the column-sum block is first
  stored whole with zeros, then its row 0 is read back and stored again with the block's column sums added: two pieces.
  The lists are found by running the body; what they read as is stated where they are used.
-/
import proofs.«406687_j326417515025_3_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each output buffer (last first) when the reset branch is taken, with the run. -/
noncomputable def kernelRun0_A (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i)
    (x0 : Vec F S64x32000 .f32) (x1 : Vec F S64x1 .i32) :
    Σ' (L2 : List (View.Piece (Elt F) S64x1 .f32)) (L3 : List (View.Piece (Elt F) S64x1 .f32)), { L4 : List (View.Piece (Elt F) S8x32000 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__softmax_stats_kernel i arg2 harg2 arg3 harg3 arg4 harg4 arg5 harg5 arg6 harg6) K } := by
  refine ⟨?_, ?_, ?_, fun E K => ?run⟩
  case run =>
    simp only [cc0__softmax_stats_kernel_eq_skeleton]; unfold cc0__softmax_stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KernelIdeal.RunB.lean ====
/-
  The kernel body at a point where `program_id(1) ≠ 0`: the column-sum block is not reset; its row 0 is read back
  (what the point before left there) and stored again with this block's column sums added, the other seven rows are
  left as they were.  So the block's buffer is handed in at known contents and handed back with ONE piece (row 0)
  written over those contents.
-/
import proofs.«406687_j326417515025_3_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each output buffer (last first) when the reset branch is not taken, with the run:
    the column-sum buffer, held at `xo4` before, ends as the pieces written over `xo4`. -/
noncomputable def kernelRun0_B (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i)
    (x0 : Vec F S64x32000 .f32) (x1 : Vec F S64x1 .i32) (xo4 : Vec F S8x32000 .f32) :
    Σ' (L2 : List (View.Piece (Elt F) S64x1 .f32)) (L3 : List (View.Piece (Elt F) S64x1 .f32)), { L4 : List (View.Piece (Elt F) S8x32000 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__softmax_stats_kernel i arg2 harg2 arg3 harg3 arg4 harg4 arg5 harg5 arg6 harg6) K } := by
  refine ⟨?_, ?_, ?_, fun E K => ?run⟩
  case run =>
    simp only [cc0__softmax_stats_kernel_eq_skeleton]; unfold cc0__softmax_stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg2.eq_unread hf0; obtain rfl := harg3.eq_unread hf1; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexact H4

end Cert.KernelIdeal.Fr

end
-- ==== Proof.KernelIdeal.Frame.lean ====
/-
  The frame of the program: every weakly fair execution of @main terminates without a fault and leaves the four
  argument arrays as launched — together with what each array of the pipeline holds at the end, for the value claim.

  What the three output buffers hold after the body at each of the 64 grid points: the log-probability column and the
  top-probability column are stored whole at every point; the column-sum block is reset and its row 0 set at the
  first point of each core's 32, and at the other points only its row 0 is overwritten over what the point before
  left (`acc0`, by recursion on the point: the block is written back only after each core's last point, so its buffer
  is carried from point to point).  From that: the pipeline's proof data, the body's obligation at a generic point
  (a case split on `program_id(1) == 0` in closed form), the run of @main around the region and the frame.
-/
import proofs.«406687_j326417515025_3_alg».proof.Proof.LibWrites
import proofs.«406687_j326417515025_3_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO0_2 : View sig .tc .vmem S64x1 .f32 := (Memref.whole cc0_stg2_0 : Memref sig .tc .vmem S64x1 .f32).view
abbrev VO0_3 : View sig .tc .vmem S64x1 .f32 := (Memref.whole cc0_stg3_0 : Memref sig .tc .vmem S64x1 .f32).view
abbrev VO0_4 : View sig .tc .vmem S8x32000 .f32 := (Memref.whole cc0_stg4_0 : Memref sig .tc .vmem S8x32000 .f32).view

/-! ## What each case leaves in each output buffer -/

theorem cover0_A_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S64x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S64x1.size (by sl_kernel_rfl) y
theorem cover0_A_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S64x1.size (by sl_kernel_rfl) y
/-- At a reset point the column-sum block is stored whole (zeros), then its row 0 again: the pieces cover it. -/
theorem cover0_A_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (y : S8x32000.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S8x32000.size (by sl_kernel_rfl) y
theorem cover0_B_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) (y : S64x1.Idx) :
    ∃ pc ∈ (kernelRun0_B c i arg2 harg2 arg3 harg3 arg4 harg4 arg5 harg5 arg6 harg6 hc0 x0 x1 xo4).1, y ∈ pc.1.set :=
  View.cover_of_tiledL (kernelRun0_B c i arg2 harg2 arg3 harg3 arg4 harg4 arg5 harg5 arg6 harg6 hc0 x0 x1 xo4).1 S64x1.size (by sl_kernel_rfl) y
theorem cover0_B_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) (y : S64x1.Idx) :
    ∃ pc ∈ (kernelRun0_B c i arg2 harg2 arg3 harg3 arg4 harg4 arg5 harg5 arg6 harg6 hc0 x0 x1 xo4).2.1, y ∈ pc.1.set :=
  View.cover_of_tiledL (kernelRun0_B c i arg2 harg2 arg3 harg3 arg4 harg4 arg5 harg5 arg6 harg6 hc0 x0 x1 xo4).2.1 S64x1.size (by sl_kernel_rfl) y

/-- What the reset case leaves in each output buffer: its pieces read back. -/
def out0_A_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S64x1 .f32 :=
  VO0_2.read (Elt F) (VO0_2.writes (Elt F) VO0_2.junk (kernelRun0_A c i arg2 harg2 arg3 harg3 arg4 harg4 arg5 harg5 arg6 harg6 hc0 x0 x1).1)
def out0_A_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S64x1 .f32 :=
  VO0_3.read (Elt F) (VO0_3.writes (Elt F) VO0_3.junk (kernelRun0_A c i arg2 harg2 arg3 harg3 arg4 harg4 arg5 harg5 arg6 harg6 hc0 x0 x1).2.1)
def out0_A_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) : Vec F S8x32000 .f32 :=
  VO0_4.read (Elt F) (VO0_4.writes (Elt F) VO0_4.junk (kernelRun0_A c i arg2 harg2 arg3 harg3 arg4 harg4 arg5 harg5 arg6 harg6 hc0 x0 x1).2.2.1)
/-- What the other case leaves: the two columns' pieces read back; the column-sum block's one piece over what it held. -/
def out0_B_2 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S64x1 .f32 :=
  VO0_2.read (Elt F) (VO0_2.writes (Elt F) VO0_2.junk (kernelRun0_B c i arg2 harg2 arg3 harg3 arg4 harg4 arg5 harg5 arg6 harg6 hc0 x0 x1 xo4).1)
def out0_B_3 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S64x1 .f32 :=
  VO0_3.read (Elt F) (VO0_3.writes (Elt F) VO0_3.junk (kernelRun0_B c i arg2 harg2 arg3 harg3 arg4 harg4 arg5 harg5 arg6 harg6 hc0 x0 x1 xo4).2.1)
def out0_B_4 (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) : Vec F S8x32000 .f32 :=
  Cert.LibWrites.over xo4 (kernelRun0_B c i arg2 harg2 arg3 harg3 arg4 harg4 arg5 harg5 arg6 harg6 hc0 x0 x1 xo4).2.2.1

/-! ## The column-sum block, point by point -/

/-- What the column-sum block's buffer holds after the body at position `n`: reset and set at the points ≡ 0 (mod 32),
    otherwise the point's one piece over what position `n - 1` left. -/
def acc0 (c : Dev nD) : (n : ℕ) → n < cfg0.N → Vec F S8x32000 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (acc0 c n (Nat.lt_of_succ_lt hn))

/-- The position before `t` is a position. -/
theorem pred_lt (t : Fin cfg0.N) : t.val - 1 < cfg0.N := Nat.lt_of_le_of_lt (Nat.sub_le _ _) t.isLt

theorem acc0_A (c : Dev nD) (t : Fin cfg0.N) (h0 : t.val % 32 = 0) :
    acc0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) := by
  obtain ⟨n, hn⟩ := t
  cases n with
  | zero => exact rfl
  | succ n => exact (dif_pos h0).trans rfl

theorem acc0_B (c : Dev nD) (t : Fin cfg0.N) (h0 : ¬t.val % 32 = 0) :
    acc0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) := by
  obtain ⟨n, hn⟩ := t
  cases n with
  | zero => exact (by exfalso; (try dsimp only at h0); exact absurd (Nat.zero_mod _) h0)
  | succ n => exact (dif_neg h0).trans rfl

open Classical in
/-- What the log-probability column's buffer holds after the body at point `t`. -/
def o2At (c : Dev nD) (t : Fin cfg0.N) : Vec F S64x1 .f32 :=
  if h0 : t.val % 32 = 0 then out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
  else out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))

open Classical in
/-- What the top-probability column's buffer holds after the body at point `t`. -/
def o3At (c : Dev nD) (t : Fin cfg0.N) : Vec F S64x1 .f32 :=
  if h0 : t.val % 32 = 0 then out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
  else out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))

/-! ## The pipeline's proof data -/

/-- The proof data of the one pipeline on core `c`: the arrays as the region finds them; after the body at point `t`
    each input's buffer at its block, the two columns' at what the point's case stores, the column-sum block's at
    `acc0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => o2At m c t
    | ⟨3, _⟩ => o3At m c t
    | ⟨4, _⟩ => acc0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = o2At m c t := by dsimp only [dats]
theorem after0_3 (c : Dev nD) (t : Fin cfg0.N) : (dats m 0 c).after 3 t = o3At m c t := by dsimp only [dats]
theorem after0_4 (c : Dev nD) (t : Fin cfg0.N) : (dats m 0 c).after 4 t = acc0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point that is not the first of its core's 32 the column-sum block's buffer holds what the point before left:
    the block is written back only at the points ≡ 31 (mod 32). -/
theorem before0_4_B (c : Dev nD) (t : Fin cfg0.N) (h0 : ¬t.val % 32 = 0) (d) :
    (dats m 0 c).before 4 t d = acc0 m c (t.val - 1) (pred_lt t) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' buffers hold their blocks; the closed form says which case the point is in; at
    a point that does not reset, the column-sum block's buffer holds what the point before left; so the case's run
    applies, and what it leaves is the proof data's `after`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [acc0_A m c t h0, show o2At m c t = out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) from dif_pos h0,
      show o3At m c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) from dif_pos h0]
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [acc0_B m c t h0, show o2At m c t = out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) from dif_neg h0,
      show o3At m c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t)) from dif_neg h0]
    simp only [before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (acc0 m c (t.val - 1) (pred_lt t))).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, H4⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _)
    unfold owns; iexists _; isplitr
    swap; · iexact H4
    ipureintro; exact Cert.LibWrites.read_writes_unread (hs0_4 t) _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end and its four argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.LibSoftmax.lean ====
/-
  Softmax rows on the extended reals.

  For a row `x : Fin n → EReal` of REAL entries (`n > 0`): its maximum `rowMax x` (the fold of `max` from `⊥`),
  the shifted row `x c - rowMax x ≤ 0`, and the normaliser `sumExp x = ∑ c, exp (x c - rowMax x)`, a real `≥ 1`.
  Two ways of writing the softmax probability agree there:
      exp (s - log S) = exp s * (1 / S)            (`exp_sub_log`),
  the row maximum commutes with the positive scale `1 / S` (`max_exp_sub_log`), and a one-hot masked sum picks
  its entry (`sum_onehot`).  Also the values of the f32 words the programs carry (`-∞`, `1`, `4096`).
-/
import Idealize.ShloMosaic.PureOps.Ideal
import Idealize.ShloMosaic.PureOps.Ideal.Laws
import Mathlib.Data.Finset.Fold
import Mathlib.Data.EReal.Basic
import Mathlib.Data.EReal.Operations
import Mathlib.Data.EReal.Inv
import Mathlib.Analysis.SpecialFunctions.Log.Basic

noncomputable section

namespace Cert.LibSoftmax

open Idealize.ShloMosaic

variable {n : ℕ}

/-- The row's maximum, folded from `⊥` (the form a max-reduction with accumulator `-∞` reads as). -/
def rowMax (x : Fin n → EReal) : EReal := (Finset.univ : Finset (Fin n)).fold max ⊥ x

/-- The row shifted by its maximum. -/
def shifted (x : Fin n → EReal) (c : Fin n) : EReal := x c - rowMax x

/-- The softmax normaliser of the shifted row. -/
def sumExp (x : Fin n → EReal) : EReal := ∑ c, Ideal.exp (shifted x c)

/-- A row of reals. -/
def IsRealRow (x : Fin n → EReal) : Prop := ∀ c, ∃ r : ℝ, x c = (r : EReal)

/-- A finite sum of coerced reals is the coercion of the real sum. -/
theorem coe_sum_real {ι : Type*} (s : Finset ι) (f : ι → ℝ) :
    (∑ c ∈ s, (f c : EReal)) = ((∑ c ∈ s, f c : ℝ) : EReal) := by
  classical
  induction s using Finset.induction_on with
  | empty => simp
  | insert a s ha ih => rw [Finset.sum_insert ha, Finset.sum_insert ha, ih, EReal.coe_add]

/-- Every entry of a row lies below the row's maximum. -/
theorem le_rowMax (x : Fin n → EReal) (c : Fin n) : x c ≤ rowMax x :=
  (Finset.le_fold_max _).2 (Or.inr ⟨c, Finset.mem_univ c, le_rfl⟩)

/-- The maximum of a nonempty row of reals is a real: it is above a real entry, and every entry is below `⊤`. -/
theorem rowMax_real (hn : 0 < n) (x : Fin n → EReal) (hx : IsRealRow x) : ∃ M : ℝ, rowMax x = (M : EReal) := by
  have hbot : rowMax x ≠ ⊥ := by
    obtain ⟨r, hr⟩ := hx ⟨0, hn⟩
    have h : (⊥ : EReal) < rowMax x :=
      (Finset.lt_fold_max _).2 (Or.inr ⟨⟨0, hn⟩, Finset.mem_univ _, by rw [hr]; exact EReal.bot_lt_coe r⟩)
    exact ne_of_gt h
  have htop : rowMax x ≠ ⊤ := by
    have h : rowMax x < (⊤ : EReal) :=
      (Finset.fold_max_lt _).2 ⟨bot_lt_top, fun c _ => by
        obtain ⟨r, hr⟩ := hx c
        rw [hr]; exact EReal.coe_lt_top r⟩
    exact ne_of_lt h
  exact ⟨(rowMax x).toReal, (EReal.coe_toReal htop hbot).symm⟩

/-- An entry of a real row minus the row's maximum is a nonpositive real. -/
theorem shifted_real (hn : 0 < n) (x : Fin n → EReal) (hx : IsRealRow x) (c : Fin n) :
    ∃ s : ℝ, s ≤ 0 ∧ shifted x c = (s : EReal) := by
  obtain ⟨M, hM⟩ := rowMax_real hn x hx
  obtain ⟨r, hr⟩ := hx c
  have hle : (r : EReal) ≤ (M : EReal) := by
    rw [← hr, ← hM]; exact le_rowMax x c
  refine ⟨r - M, sub_nonpos.2 (EReal.coe_le_coe_iff.1 hle), ?_⟩
  rw [shifted, hr, hM, EReal.coe_sub]

/-- The normaliser of a nonempty real row is a positive real: a nonempty sum of positive reals. -/
theorem sumExp_real (hn : 0 < n) (x : Fin n → EReal) (hx : IsRealRow x) :
    ∃ S : ℝ, 0 < S ∧ sumExp x = (S : EReal) := by
  choose s _ hs using shifted_real hn x hx
  refine ⟨∑ c, Real.exp (s c), ?_, ?_⟩
  · haveI : Nonempty (Fin n) := ⟨⟨0, hn⟩⟩
    exact Finset.sum_pos (fun c _ => Real.exp_pos (s c)) Finset.univ_nonempty
  · rw [sumExp, ← coe_sum_real]
    exact Finset.sum_congr rfl fun c _ => by rw [hs c, Ideal.exp_coe]

/-- `exp (s - log S) = exp s * (1 / S)` on a real row. -/
theorem exp_sub_log (hn : 0 < n) (x : Fin n → EReal) (hx : IsRealRow x) (c : Fin n) :
    Ideal.exp (shifted x c - Ideal.log (sumExp x)) = Ideal.exp (shifted x c) * Ideal.div 1 (sumExp x) := by
  obtain ⟨s, _, hs⟩ := shifted_real hn x hx c
  obtain ⟨S, hS, hSe⟩ := sumExp_real hn x hx
  rw [hs, hSe, Ideal.log_coe, if_neg (not_le.2 hS), ← EReal.coe_sub, Ideal.exp_coe, Ideal.exp_coe,
    Ideal.div_coe (ne_of_gt hS), one_mul, ← EReal.coe_mul, Real.exp_sub, Real.exp_log hS, div_eq_mul_one_div]

/-- Right multiplication by a positive real commutes with the fold of `max` from `⊥`. -/
theorem fold_max_mul_coe {ι : Type*} (s : Finset ι) (e : ι → EReal) {k : ℝ} (hk : 0 < k) :
    (s.fold max ⊥ fun c => e c * (k : EReal)) = (s.fold max ⊥ e) * (k : EReal) := by
  classical
  have hk0 : (0 : EReal) ≤ (k : EReal) := EReal.coe_nonneg.2 hk.le
  have hmono : Monotone fun a : EReal => a * (k : EReal) :=
    fun a b hab => mul_le_mul_of_nonneg_right hab hk0
  induction s using Finset.induction_on with
  | empty => simp only [Finset.fold_empty]; exact (EReal.bot_mul_coe_of_pos hk).symm
  | insert a s ha ih =>
    rw [Finset.fold_insert ha, Finset.fold_insert ha, ih]
    exact (hmono.map_max).symm

/-- The maximum of the probabilities is the maximum of the exponentials times the positive scale `1 / S`. -/
theorem max_exp_sub_log (hn : 0 < n) (x : Fin n → EReal) (hx : IsRealRow x) :
    ((Finset.univ : Finset (Fin n)).fold max ⊥ fun c => Ideal.exp (shifted x c - Ideal.log (sumExp x)))
      = ((Finset.univ : Finset (Fin n)).fold max ⊥ fun c => Ideal.exp (shifted x c)) * Ideal.div 1 (sumExp x) := by
  obtain ⟨S, hS, hSe⟩ := sumExp_real hn x hx
  have hdiv : Ideal.div 1 (sumExp x) = ((1 / S : ℝ) : EReal) := by
    rw [hSe, Ideal.div_coe (ne_of_gt hS), one_mul]
  have hterm : (fun c => Ideal.exp (shifted x c - Ideal.log (sumExp x)))
      = fun c => Ideal.exp (shifted x c) * ((1 / S : ℝ) : EReal) := by
    funext c; rw [exp_sub_log hn x hx c, hdiv]
  rw [hterm, hdiv]
  exact fold_max_mul_coe Finset.univ _ (one_div_pos.2 hS)

/-- A one-hot masked sum picks its entry. -/
theorem sum_onehot (s : Fin n → EReal) (t : Fin n) : (∑ c, if c = t then s c else 0) = s t := by
  rw [Finset.sum_ite_eq']; simp

/-- The maximum with `⊥` changes nothing. -/
theorem max_bot_rowMax (x : Fin n → EReal) : max ⊥ (rowMax x) = rowMax x :=
  max_eq_right bot_le

/-! ## The f32 words the programs carry -/

/-- Sign bit set, exponent all ones, zero significand: `-∞`. -/
theorem ofBits_neg_inf : Ideal.ofBits .f32 0xFF800000#32 = (⊥ : EReal) := by
  simp [Ideal.ofBits, Ideal.ieee]

/-- Sign clear, biased exponent `127`, zero significand: `2^23 · 2^(127 - 127 - 23) = 1`. -/
theorem ofBits_one : Ideal.ofBits .f32 0x3F800000#32 = (1 : EReal) := by
  simp [Ideal.ofBits, Ideal.ieee, -EReal.coe_mul]; norm_num

/-- Sign clear, biased exponent `139`, zero significand: `2^23 · 2^(139 - 127 - 23) = 2^12 = 4096`. -/
theorem ofBits_4096 : Ideal.ofBits .f32 0x45800000#32 = ((4096 : ℝ) : EReal) := by
  simp [Ideal.ofBits, Ideal.ieee, -EReal.coe_mul]; norm_num

end Cert.LibSoftmax

end
-- ==== Proof.KernelIdeal.Payload.lean ====
/-
  The kernel body's arithmetic, read at one index over the extended reals.

  The body takes a 64 × 32000 block of logits `x0` and a 64 × 1 column of labels `x1`.  Per row `r` it forms the
  row maximum, the shifted row `s = x - max`, `S = ∑ exp s`, and stores
    * the label's log-probability:  (∑_c [c = label r] · s_c) − log S          (`k0_pay5`),
    * the top probability:          (max_c exp s_c) · (1 / S)                  (`k0_pay6`),
  and adds to row 0 of the running column sums, per column `c`,  ∑_r exp s_{r,c} · (1 / S_r)   (`k0_pay8`);
  `k0_pay7` is the zero block the column sums are reset to.
-/
import proofs.«406687_j326417515025_3_alg».proof.Proof.Gen.KernelIdeal.Skeleton
import proofs.«406687_j326417515025_3_alg».proof.Proof.LibSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.LibSoftmax
open Idealize.ShloMosaic Idealize.ShloMosaic.ValueIdx

/-- Row `r` of a 64 × 32000 block. -/
def row (x : Vec Ideal S64x32000 .f32) (r : Fin 64) : Fin 32000 → EReal := fun c => x (ix2 r c)

/-! ## Small index lemmas: keepdims layouts, the two lane reductions, a select on an equality -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A select on an integer equality test is the `if` on the equality. -/
theorem select_cmpi_eq {α : Type} {w : ℕ} (x y : BitVec w) (a b : α) :
    Scalar.select (IntOp.cmpi .eq x y) a b = if x = y then a else b := by
  by_cases h : x = y
  · subst h; simp [Scalar.select, IntOp.cmpi]
  · have hb : (x == y) = false := beq_eq_false_iff_ne.2 h
    simp [Scalar.select, IntOp.cmpi, hb, h]

/-- The source index over row `r` with lane coordinate `k` inserted is `(r, k)`. -/
theorem lift_row (r : Fin 64) (k : Fin 32000) : reduces_S64x32000_S64.lift (ix1 r) k = ix2 r k :=
  funext fun c => Fin.ext <| match c with | ⟨0, _⟩ => rfl | ⟨1, _⟩ => rfl

/-- The source index over column `c` with row coordinate `k` inserted is `(k, c)`. -/
theorem lift_col (c : Fin 32000) (k : Fin 64) : reduces_S64x32000_S32000.lift (ix1 c) k = ix2 k c :=
  funext fun d => Fin.ext <| match d with | ⟨0, _⟩ => rfl | ⟨1, _⟩ => rfl

/-- A lane maximum from `-∞` at row `r`: the fold of `max` from `⊥` over the row. -/
theorem laneMax_apply (v : FVec Ideal S64x32000 .f32) (r : Fin 64) :
    multiReduction (F := Ideal) .maximumf [1] S64 v 0xFF800000#32 reduces_S64x32000_S64 (.inl rfl) rfl (ix1 r)
      = (Finset.univ : Finset (Fin 32000)).fold max ⊥ fun c => v (ix2 r c) := by
  refine (Ideal.multiReduction_maximumf_single v _ reduces_S64x32000_S64 _ _ (ix1 r)).trans ?_
  show (Finset.univ : Finset (Fin 32000)).fold max (Ideal.ofBits .f32 0xFF800000#32)
      (fun k => v (reduces_S64x32000_S64.lift (ix1 r) k)) = _
  rw [ofBits_neg_inf]
  have e : (fun k : Fin 32000 => v (reduces_S64x32000_S64.lift (ix1 r) k)) = fun c => v (ix2 r c) :=
    funext fun k => congrArg v (lift_row r k)
  exact congrArg (fun f : Fin 32000 → EReal => (Finset.univ : Finset (Fin 32000)).fold max ⊥ f) e

/-- A lane sum at row `r`: the sum over the row. -/
theorem laneSum_apply (v : FVec Ideal S64x32000 .f32) (r : Fin 64) :
    multiReduction (F := Ideal) .add [1] S64 v 0x00000000#32 reduces_S64x32000_S64 (.inl rfl) rfl (ix1 r)
      = ∑ c : Fin 32000, v (ix2 r c) := by
  refine (Ideal.multiReduction_add_single v _ reduces_S64x32000_S64 _ _ (ix1 r)).trans ?_
  show (∑ k : Fin 32000, v (reduces_S64x32000_S64.lift (ix1 r) k)) = _
  exact Finset.sum_congr rfl fun k _ => congrArg v (lift_row r k)

/-- A sum down the rows at column `c`: the sum over the column. -/
theorem colSum_apply (v : FVec Ideal S64x32000 .f32) (c : Fin 32000) :
    multiReduction (F := Ideal) .add [0] S32000 v 0x00000000#32 reduces_S64x32000_S32000 (.inl rfl) rfl (ix1 c)
      = ∑ r : Fin 64, v (ix2 r c) := by
  refine (Ideal.multiReduction_add_single v _ reduces_S64x32000_S32000 _ _ (ix1 c)).trans ?_
  show (∑ k : Fin 64, v (reduces_S64x32000_S32000.lift (ix1 c) k)) = _
  exact Finset.sum_congr rfl fun k _ => congrArg v (lift_col c k)

/-! ## The intermediate values at an index -/

/-- The shifted logits: entry `(r, c)` less row `r`'s maximum. -/
theorem pay1_apply (x0 : Vec Ideal S64x32000 .f32) (r : Fin 64) (c : Fin 32000) :
    k0_pay1 (F := Ideal) x0 (ix2 r c) = shifted (row x0 r) c := by
  unfold k0_pay1
  dsimp only
  refine (subf_apply _ _ _).trans ?_
  rw [broadcastTo_a1_ab_apply, shapeCast_a_a1_apply, laneMax_apply]
  rfl

/-- Their exponentials. -/
theorem pay2_apply (x0 : Vec Ideal S64x32000 .f32) (r : Fin 64) (c : Fin 32000) :
    k0_pay2 (F := Ideal) x0 (ix2 r c) = Ideal.exp (shifted (row x0 r) c) := by
  unfold k0_pay2
  show Ideal.exp (k0_pay1 (F := Ideal) x0 (ix2 r c)) = _
  rw [pay1_apply]

/-- The normaliser of row `r`. -/
theorem pay3_apply (x0 : Vec Ideal S64x32000 .f32) (r : Fin 64) (u : Fin 1) :
    k0_pay3 (F := Ideal) x0 (ix2 r u) = sumExp (row x0 r) := by
  unfold k0_pay3
  dsimp only
  rw [shapeCast_a_a1_apply, laneSum_apply]
  exact Finset.sum_congr rfl fun c _ => pay2_apply x0 r c

/-- Its reciprocal, as the division of `1` by it. -/
theorem pay4_apply (x0 : Vec Ideal S64x32000 .f32) (r : Fin 64) (u : Fin 1) :
    k0_pay4 (F := Ideal) x0 (ix2 r u) = Ideal.div 1 (sumExp (row x0 r)) := by
  unfold k0_pay4
  refine (divf_apply _ _ _).trans ?_
  rw [pay3_apply, broadcast_apply]
  show Ideal.div (Ideal.ofBits .f32 0x3F800000#32) _ = _
  rw [ofBits_one]

/-- The label's log-probability of row `r`: the one-hot masked sum of the shifted row, less `log S`. -/
theorem pay5_apply (x0 : Vec Ideal S64x32000 .f32) (x1 : Vec Ideal S64x1 .i32) (r : Fin 64) :
    k0_pay5 (F := Ideal) x0 x1 (ix2 r (0 : Fin 1))
      = (∑ c : Fin 32000, if BitVec.ofNat 32 c.val = x1 (ix2 r (0 : Fin 1)) then shifted (row x0 r) c else 0)
          - Ideal.log (sumExp (row x0 r)) := by
  unfold k0_pay5
  refine (subf_apply _ _ _).trans ?_
  rw [shapeCast_a_a1_apply, laneSum_apply]
  -- the subtrahend: the logarithm of the normaliser
  have hlog : log (k0_pay3 (F := Ideal) x0) (ix2 r (0 : Fin 1)) = Ideal.log (sumExp (row x0 r)) := by
    show FloatOps.log (k0_pay3 (F := Ideal) x0 (ix2 r (0 : Fin 1))) = _
    rw [Ideal.log_def, pay3_apply]
  rw [hlog]
  -- the minuend, lane by lane: the lane's number against the row's label
  refine congrArg (· - Ideal.log (sumExp (row x0 r))) (Finset.sum_congr rfl fun c _ => ?_)
  refine (select_apply _ _ _ _).trans ?_
  refine (select_cmpi_eq _ _ _ _).trans ?_
  rw [broadcastTo_1b_ab_apply, iota_single_apply, broadcastTo_a1_ab_apply, shapeCast_self, pay1_apply, broadcast_apply]
  show (if BitVec.ofNat 32 c.val = x1 (ix2 r (0 : Fin 1)) then shifted (row x0 r) c else Ideal.ofBits .f32 0x00000000#32) = _
  rw [Ideal.ofBits_zero_f32]

/-- The top probability of row `r`: the maximum of the exponentials times `1 / S`. -/
theorem pay6_apply (x0 : Vec Ideal S64x32000 .f32) (r : Fin 64) :
    k0_pay6 (F := Ideal) x0 (ix2 r (0 : Fin 1))
      = ((Finset.univ : Finset (Fin 32000)).fold max ⊥ fun c => Ideal.exp (shifted (row x0 r) c))
          * Ideal.div 1 (sumExp (row x0 r)) := by
  unfold k0_pay6
  refine (mulf_apply _ _ _).trans ?_
  rw [shapeCast_a_a1_apply, laneMax_apply, pay4_apply]
  have e : (fun c : Fin 32000 => k0_pay2 (F := Ideal) x0 (ix2 r c)) = fun c => Ideal.exp (shifted (row x0 r) c) :=
    funext fun c => pay2_apply x0 r c
  rw [e]

/-- The zero block. -/
theorem pay7_apply (j : S8x32000.Idx) : k0_pay7 (F := Ideal) j = 0 := by
  unfold k0_pay7
  show Ideal.ofBits .f32 0x00000000#32 = 0
  exact Ideal.ofBits_zero_f32

/-- Row 0 of the column sums after a point: what was there plus this block's column sums of the probabilities. -/
theorem pay8_apply (x0 : Vec Ideal S64x32000 .f32) (v32 : Vec Ideal S1x32000 .f32) (c : Fin 32000) :
    k0_pay8 (F := Ideal) x0 v32 (ix2 (0 : Fin 1) c)
      = v32 (ix2 (0 : Fin 1) c) + ∑ r : Fin 64, Ideal.exp (shifted (row x0 r) c) * Ideal.div 1 (sumExp (row x0 r)) := by
  unfold k0_pay8
  refine (addf_apply _ _ _).trans ?_
  rw [shapeCast_self, shapeCast_a_1a_apply, colSum_apply]
  refine congrArg (v32 (ix2 (0 : Fin 1) c) + ·) (Finset.sum_congr rfl fun r _ => ?_)
  refine (mulf_apply _ _ _).trans ?_
  rw [broadcastTo_a1_ab_apply, pay2_apply, pay4_apply]

end Cert.KernelIdeal.Val

end
-- ==== Proof.Spec.lean ====
/-
  What both programs compute from the logits `x` (4096 × 32000) and the labels `a` (4096), before the shared tail.

  Per row `R`, with `s = x_R - max x_R` and `S = ∑_c exp s_c` (the definitions of the softmax lemma file):
    * `ceSpec x a`   (4096 × 1):  the label's log-probability  s_{label R} − log S,
    * `confSpec x`   (4096):      the top probability          (max_c exp s_c) · (1 / S),
    * `csSpec x`     (32000):     the column sums of the probabilities  ∑_R exp s_{R,c} · (1 / S_R).
  The label of row `R` is read as an index below 32000 (`tgtOf`); on labels in range that is the label itself.
-/
import proofs.«406687_j326417515025_3_alg».proof.Proof.LibSoftmax
import Idealize.ShloMosaic.Lib.ValueIdx

noncomputable section

namespace Cert.Spec

open Idealize.ShloMosaic Idealize.ShloMosaic.ValueIdx Cert.LibSoftmax

/-- The logits array, the label array, and the three results, over literal shapes. -/
abbrev SX : Shape := ⟨2, ![4096, 32000]⟩
abbrev SA : Shape := ⟨1, ![4096]⟩
abbrev SCe : Shape := ⟨2, ![4096, 1]⟩
abbrev SCs : Shape := ⟨1, ![32000]⟩
abbrev SConf : Shape := ⟨1, ![4096]⟩

/-- Row `R` of the logits. -/
def rowOf (x : SX.Idx → EReal) (R : Fin 4096) : Fin 32000 → EReal := fun c => x (ix2 R c)

/-- Row `R`'s label as a column index. -/
def tgtOf (a : SA.Idx → BitVec 32) (R : Fin 4096) : Fin 32000 :=
  ⟨(a (ix1 R)).toNat % 32000, Nat.mod_lt _ (by norm_num)⟩

/-- The label's log-probability, row by row. -/
def ceSpec (x : SX.Idx → EReal) (a : SA.Idx → BitVec 32) : SCe.Idx → EReal :=
  fun j => shifted (rowOf x (j 0)) (tgtOf a (j 0)) - Ideal.log (sumExp (rowOf x (j 0)))

/-- The top probability, row by row. -/
def confSpec (x : SX.Idx → EReal) : SConf.Idx → EReal :=
  fun j => ((Finset.univ : Finset (Fin 32000)).fold max ⊥ fun c => Ideal.exp (shifted (rowOf x (j 0)) c))
    * Ideal.div 1 (sumExp (rowOf x (j 0)))

/-- The column sums of the probabilities. -/
def csSpec (x : SX.Idx → EReal) : SCs.Idx → EReal :=
  fun j => ∑ R : Fin 4096, Ideal.exp (shifted (rowOf x R) (j 0)) * Ideal.div 1 (sumExp (rowOf x R))

/-- Every logit is a real number. -/
def RealLogits (x : SX.Idx → EReal) : Prop := ∀ i, ∃ r : ℝ, x i = (r : EReal)

/-- Every label is in `[0, 32000)`, read as a signed 32-bit word. -/
def LabelsInRange (a : SA.Idx → BitVec 32) : Prop := ∀ R : Fin 4096, (a (ix1 R)).toNat < 32000

theorem isRealRow_of (x : SX.Idx → EReal) (hx : RealLogits x) (R : Fin 4096) : IsRealRow (rowOf x R) :=
  fun c => hx (ix2 R c)

theorem tgtOf_val (a : SA.Idx → BitVec 32) (ha : LabelsInRange a) (R : Fin 4096) :
    (tgtOf a R).val = (a (ix1 R)).toNat := Nat.mod_eq_of_lt (ha R)

end Cert.Spec

end
-- ==== Proof.KernelIdeal.Arrays.lean ====
/-
  What the pipeline's three output arrays hold when the region is left, over the extended reals.

  The grid is 2 × 32: point `t` works on rows `64 t … 64 t + 63` of the logits and of the label column.
    * The log-probability column and the top-probability column are written back at every point: row `64 t + r` of
      either is the body's value for row `r` of block `t`; the 64 blocks tile the 4096 rows.
    * The column-sum array is 16 × 32000: core `i` owns rows `8 i … 8 i + 7`, written back once, after the core's last
      point.  Within a core's 32 points the block's row 0 accumulates the blocks' column sums of the probabilities
      (reset at the core's first point); rows 1 to 7 stay zero.

  The order of the argument: the stores each of the body's two cases makes are read back as the body's arithmetic of the
  loaded blocks (at any float instance); the loaded blocks are read off the logits and the reshaped labels as launched;
  so each point's two columns are the specification's entries of its 64 rows, and the column-sum block satisfies a
  reset equation and a step equation; by induction on the point, after the `j`-th point of a core its row 0 holds the
  column sums over the core's first `64 (j + 1)` rows; the blocks written back are blocks of one array each, and they
  cover it.
-/
import proofs.«406687_j326417515025_3_alg».proof.Proof.KernelIdeal.Frame
import proofs.«406687_j326417515025_3_alg».proof.Proof.KernelIdeal.Payload
import proofs.«406687_j326417515025_3_alg».proof.Proof.Spec
import Idealize.ShloMosaic.Lib.Pipeline.Value
import Idealize.ShloMosaic.Lib.Tactic
import Idealize.ShloMosaic.Lib.StableHlo.Run
import Idealize.ShloMosaic.Lib.ValueLayout
import Mathlib.Algebra.BigOperators.Fin

set_option maxRecDepth 16384

noncomputable section

namespace Cert.KernelIdeal.Val

open Cert.KernelIdeal Cert.KernelIdeal.Gen Cert.KernelIdeal.Fr Cert.LibSoftmax
open Idealize.ShloMosaic Idealize.ShloMosaic.TcCoe Idealize.ShloMosaic.ValueIdx Idealize.SL.Sem
open Idealize.ShloMosaic.Tactic

variable (m : (ℓ : Loc nD τ sig) → Buf (Elt Ideal) ℓ)

/-- The logits and the labels as launched, on core `c`. -/
abbrev X (c : Dev nD) : S4096x32000.Idx → EReal := m ((c : Thread nD τ).loc main_arg0)
abbrev Lab (c : Dev nD) : S4096.Idx → BitVec 32 := m ((c : Thread nD τ).loc main_arg1)

namespace Arr

variable {F : FTy → Type} [FloatOps F]

/-! ## The stores each case makes, read back (any float instance) -/

theorem hz2 : (![0, 0] : Fin 2 → Nat) = fun _ => 0 := funext fun a => by fin_cases a <;> rfl

/-- Row 0 of the 8 × 32000 block, as a rectangle of it. -/
abbrev row0 : Rect S8x32000 := Rect.unit ![0, 0] S1x32000.size inb_S8x32000_S1x32000_0_0

/-- Column `col` of the rectangle sits at row 0, column `col` of the block. -/
theorem row0_emb (col : Fin 32000) : row0.emb (ix2 (0 : Fin 1) col) = ix2 (0 : Fin 8) col :=
  funext fun a => Fin.ext (match a with
    | ⟨0, _⟩ => rfl
    | ⟨1, _⟩ => by show 0 + 1 * col.val = col.val; omega)

/-- An index of a row other than 0 is off the rectangle. -/
theorem not_mem_row0 (k : Fin 8) (col : Fin 32000) (hk : k.val ≠ 0) : (ix2 k col : S8x32000.Idx) ∉ row0.set := by
  rw [Rect.mem_set_unit]
  intro h
  have h0 : k.val < 0 + 1 := (h (0 : Fin 2)).2
  omega

/-- An index of row 0 is the rectangle's index of its column. -/
theorem ix2_row0 (k : Fin 8) (col : Fin 32000) (hk : k.val = 0) :
    (ix2 k col : S8x32000.Idx) = row0.emb (ix2 (0 : Fin 1) col) := by
  rw [row0_emb]
  exact congrArg (fun k' : Fin 8 => (ix2 k' col : S8x32000.Idx)) (Fin.ext hk)

/-- The reset case stores the label's log-probability column whole. -/
theorem ce_A (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) :
    out0_A_2 c i arg2 harg2 arg3 harg3 arg4 harg4 arg5 harg5 arg6 harg6 hc0 x0 x1 = k0_pay5 x0 x1 := by
  unfold out0_A_2
  rw [View.read_writes_junk_eq_canon]
  unfold kernelRun0_A
  dsimp only
  sl_unfold_words
  rw [View.canon_unit_zero hz2]
  simp only [View.readAt_eq_ld, harg2.read_unread, harg3.read_unread, View.ld_unit_zero (S := S64x32000) hz2, View.ld_unit_zero (S := S64x1) hz2]

/-- The reset case stores the top-probability column whole. -/
theorem conf_A (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) :
    out0_A_3 c i arg2 harg2 arg3 harg3 arg4 harg4 arg5 harg5 arg6 harg6 hc0 x0 x1 = k0_pay6 x0 := by
  unfold out0_A_3
  rw [View.read_writes_junk_eq_canon]
  unfold kernelRun0_A
  dsimp only
  sl_unfold_words
  rw [View.canon_unit_zero hz2]
  simp only [View.readAt_eq_ld, harg2.read_unread, harg3.read_unread, View.ld_unit_zero (S := S64x32000) hz2, View.ld_unit_zero (S := S64x1) hz2]

/-- The other case stores the same two columns. -/
theorem ce_B (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) :
    out0_B_2 c i arg2 harg2 arg3 harg3 arg4 harg4 arg5 harg5 arg6 harg6 hc0 x0 x1 xo4 = k0_pay5 x0 x1 := by
  unfold out0_B_2
  rw [View.read_writes_junk_eq_canon]
  unfold kernelRun0_B
  dsimp only
  sl_unfold_words
  rw [View.canon_unit_zero hz2]
  simp only [View.readAt_eq_ld, harg2.read_unread, harg3.read_unread, View.ld_unit_zero (S := S64x32000) hz2, View.ld_unit_zero (S := S64x1) hz2]

theorem conf_B (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32) :
    out0_B_3 c i arg2 harg2 arg3 harg3 arg4 harg4 arg5 harg5 arg6 harg6 hc0 x0 x1 xo4 = k0_pay6 x0 := by
  unfold out0_B_3
  rw [View.read_writes_junk_eq_canon]
  unfold kernelRun0_B
  dsimp only
  sl_unfold_words
  rw [View.canon_unit_zero hz2]
  simp only [View.readAt_eq_ld, harg2.read_unread, harg3.read_unread, View.ld_unit_zero (S := S64x32000) hz2, View.ld_unit_zero (S := S64x1) hz2]

/-- The reset case leaves the column-sum block at zero except row 0, which holds the zero row plus the block's column sums:
    the zero block is stored whole, its row 0 is read back and stored again with the sums added. -/
theorem cs_A (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : cond0_0 i) (x0 : Vec F S64x32000 .f32) (x1 : Vec F S64x1 .i32) (k : Fin 8) (col : Fin 32000) :
    out0_A_4 c i arg2 harg2 arg3 harg3 arg4 harg4 arg5 harg5 arg6 harg6 hc0 x0 x1 (ix2 k col)
      = if k.val = 0 then k0_pay8 x0 (View.ld (k0_pay7 (F := F)) row0) (ix2 (0 : Fin 1) col) else k0_pay7 (ix2 k col) := by
  unfold out0_A_4
  rw [View.read_writes_junk_eq_canon]
  unfold kernelRun0_A
  dsimp only
  sl_unfold_words
  simp only [View.readAt_eq_ld, harg2.read_unread, View.ld_unit_zero (S := S64x32000) hz2]
  rw [View.readCov_eq_canon', View.canon_unit_zero hz2]
  by_cases hk : k.val = 0
  · rw [if_pos hk, ix2_row0 k col hk, View.canon_cons_emb]
  · rw [if_neg hk]
    refine (View.canon_cons_of_not_mem _ _ ?_).trans ?_
    · exact not_mem_row0 k col hk
    · rw [View.canon_unit_zero hz2]

/-- The other case overwrites row 0 of the column-sum block by what it held plus the block's column sums, and keeps the
    other rows. -/
theorem cs_B (c : Dev nD) (i : grid0.Coords)
    (arg2 : Memref sig .tc .vmem S64x32000 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .f32) (harg5 : arg5.IsWhole)
    (arg6 : Memref sig .tc .vmem S8x32000 .f32) (harg6 : arg6.IsWhole) (hc0 : ¬cond0_0 i) (x0 : Vec F S64x32000 .f32) (x1 : Vec F S64x1 .i32) (xo4 : Vec F S8x32000 .f32)
    (k : Fin 8) (col : Fin 32000) :
    out0_B_4 c i arg2 harg2 arg3 harg3 arg4 harg4 arg5 harg5 arg6 harg6 hc0 x0 x1 xo4 (ix2 k col)
      = if k.val = 0 then k0_pay8 x0 (View.ld xo4 row0) (ix2 (0 : Fin 1) col) else xo4 (ix2 k col) := by
  unfold out0_B_4
  unfold kernelRun0_B
  dsimp only
  sl_unfold_words
  simp only [View.readAt_eq_ld, harg2.read_unread, harg6.read_unread, View.ld_unit_zero (S := S64x32000) hz2]
  by_cases hk : k.val = 0
  · rw [if_pos hk, ix2_row0 k col hk]
    refine (Cert.LibWrites.over_of_mem _ _ _ ⟨_, List.mem_singleton_self _, ?_⟩).trans ?_
    · exact LoadRect.idx_mem _ _
    · exact View.canon_cons_emb _ _ _ _
  · rw [if_neg hk]
    refine Cert.LibWrites.over_of_not_mem _ _ _ ?_
    rintro ⟨p, hp, hy⟩
    rw [List.mem_singleton] at hp
    subst hp
    exact not_mem_row0 k col hk hy

/-! ## The blocks the body loads, read off the arrays as launched (extended reals) -/

/-- The logits block and the label block of point `t`, over their literal shapes. -/
abbrev xblk (c : Dev nD) (t : Fin cfg0.N) : Vec Ideal S64x32000 .f32 := iblk m c 0 t
abbrev lblk (c : Dev nD) (t : Fin cfg0.N) : Vec Ideal S64x1 .i32 := iblk m c 1 t

/-- The windows' block indices, decided over the 64 points: the row blocks follow the point, the column-sum block the
    core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val / 32 ∧ win0_4.index t (1 : Fin 2) = 0 :=
  (by decide +kernel : ∀ t : Fin grid0.N, _)

theorem t_lt (t : Fin cfg0.N) : t.val < 64 := lt_of_lt_of_eq t.isLt (show cfg0.N = 64 from N_0)

/-- Row `r` of point `t`'s block is row `64 t + r` of the array. -/
theorem row_lt (t : Fin cfg0.N) (r : Fin 64) : 64 * t.val + r.val < 4096 := by
  have := t_lt t; have := r.isLt; omega

/-- The logits block of point `t` holds rows `64 t … 64 t + 63` of the logits. -/
theorem xblk_apply (c : Dev nD) (t : Fin cfg0.N) (r : Fin 64) (col : Fin 32000) :
    xblk m c t (ix2 r col) = X m c (ix2 ⟨64 * t.val + r.val, row_lt t r⟩ col) := by
  obtain ⟨e0, e1, -⟩ := idx_facts t
  show iblk m c 0 t (ix2 r col) = _
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 64 + 1 * r.val = 64 * t.val + r.val; rw [e0]; omega
  | ⟨1, _⟩ => show win0_0.index t (1 : Fin 2) * 32000 + 1 * col.val = col.val; rw [e1]; omega

/-- The label column the region reads is the label vector, reshaped. -/
theorem labcol_eq (c : Dev nD) :
    (V m c main_v0 : S4096x1.Idx → BitVec 32) = shapeCast S4096x1 (Lab m c) shapeCasts_S4096_S4096x1 := by
  show StableHlo.after hostOps0 (fun b => m (c, b)) (Proc.devRef .tc main_v0) = _
  after_results
  rfl

/-- The label block of point `t` holds the labels of rows `64 t … 64 t + 63`. -/
theorem lblk_apply (c : Dev nD) (t : Fin cfg0.N) (r : Fin 64) :
    lblk m c t (ix2 r (0 : Fin 1)) = Lab m c (ix1 ⟨64 * t.val + r.val, row_lt t r⟩) := by
  obtain ⟨-, -, e0, e1, -⟩ := idx_facts t
  show iblk m c 1 t (ix2 r (0 : Fin 1)) = _
  unfold iblk
  rw [View.read_apply]
  show (V m c main_v0 : S4096x1.Idx → BitVec 32) _ = _
  rw [labcol_eq]
  refine shapeCast_apply _ _ _ _ ?_
  rw [Shape.rowMajor_val_two, Shape.rowMajor_val_one]
  show 64 * t.val + r.val = (win0_1.index t (0 : Fin 2) * 64 + 1 * r.val) * 1 + (win0_1.index t (1 : Fin 2) * 1 + 1 * 0)
  rw [e0, e1]; omega

/-! ## What each point leaves, over the extended reals -/

/-- Row `r` of point `t`'s logits block is row `64 t + r` of the logits. -/
theorem row_xblk (c : Dev nD) (t : Fin cfg0.N) (r : Fin 64) :
    row (xblk m c t) r = Cert.Spec.rowOf (X m c) ⟨64 * t.val + r.val, row_lt t r⟩ :=
  funext fun col => xblk_apply m c t r col

/-- The log-probability column's buffer after point `t`, whichever case the point is in. -/
theorem o2At_eq (c : Dev nD) (t : Fin cfg0.N) : o2At m c t = k0_pay5 (xblk m c t) (lblk m c t) := by
  by_cases h0 : t.val % 32 = 0
  · exact (dif_pos h0).trans (ce_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
  · exact (dif_neg h0).trans (ce_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
      (acc0 m c (t.val - 1) (pred_lt t)))

/-- The top-probability column's buffer after point `t`. -/
theorem o3At_eq (c : Dev nD) (t : Fin cfg0.N) : o3At m c t = k0_pay6 (xblk m c t) := by
  by_cases h0 : t.val % 32 = 0
  · exact (dif_pos h0).trans (conf_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
  · exact (dif_neg h0).trans (conf_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
      (acc0 m c (t.val - 1) (pred_lt t)))

/-- A lane number is a label in range exactly when it is the label's column. -/
theorem lane_eq_label_iff (a : S4096.Idx → BitVec 32) (ha : Cert.Spec.LabelsInRange a) (R : Fin 4096) (col : Fin 32000) :
    BitVec.ofNat 32 col.val = a (ix1 R) ↔ col = Cert.Spec.tgtOf a R := by
  have hcol : col.val < 32000 := col.isLt
  have hR : (a (ix1 R)).toNat < 32000 := ha R
  have hT : (Cert.Spec.tgtOf a R).val = (a (ix1 R)).toNat := Cert.Spec.tgtOf_val a ha R
  constructor
  · intro h
    have h' := congrArg BitVec.toNat h
    rw [BitVec.toNat_ofNat, Nat.mod_eq_of_lt (by omega)] at h'
    exact Fin.ext (by rw [hT]; exact h')
  · intro h
    apply BitVec.eq_of_toNat_eq
    rw [BitVec.toNat_ofNat, Nat.mod_eq_of_lt (by omega), h, hT]

/-- Row `r` of the log-probability column after point `t` is the specification's entry of row `64 t + r`. -/
theorem ce_point (c : Dev nD) (hlab : Cert.Spec.LabelsInRange (Lab m c)) (t : Fin cfg0.N) (r : Fin 64) :
    k0_pay5 (F := Ideal) (xblk m c t) (lblk m c t) (ix2 r (0 : Fin 1))
      = Cert.Spec.ceSpec (X m c) (Lab m c) (ix2 ⟨64 * t.val + r.val, row_lt t r⟩ (0 : Fin 1)) := by
  rw [pay5_apply, row_xblk, lblk_apply]
  show _ = shifted (Cert.Spec.rowOf (X m c) ⟨64 * t.val + r.val, row_lt t r⟩) (Cert.Spec.tgtOf (Lab m c) ⟨64 * t.val + r.val, row_lt t r⟩)
      - Ideal.log (sumExp (Cert.Spec.rowOf (X m c) ⟨64 * t.val + r.val, row_lt t r⟩))
  refine congrArg (· - Ideal.log (sumExp (Cert.Spec.rowOf (X m c) ⟨64 * t.val + r.val, row_lt t r⟩))) ?_
  refine Eq.trans ?_ (sum_onehot (shifted (Cert.Spec.rowOf (X m c) ⟨64 * t.val + r.val, row_lt t r⟩))
    (Cert.Spec.tgtOf (Lab m c) ⟨64 * t.val + r.val, row_lt t r⟩))
  exact Finset.sum_congr rfl fun col _ => if_congr (lane_eq_label_iff (Lab m c) hlab _ col) rfl rfl

/-- Row `r` of the top-probability column after point `t` is the specification's entry of row `64 t + r`. -/
theorem conf_point (c : Dev nD) (t : Fin cfg0.N) (r : Fin 64) :
    k0_pay6 (F := Ideal) (xblk m c t) (ix2 r (0 : Fin 1))
      = Cert.Spec.confSpec (X m c) (ix1 ⟨64 * t.val + r.val, row_lt t r⟩) := by
  rw [pay6_apply, row_xblk]
  rfl

/-- The probability of column `col` in row `R` of the logits, rows counted by a natural number (zero past the array). -/
def probN (x : S4096x32000.Idx → EReal) (R : ℕ) (col : Fin 32000) : EReal :=
  if h : R < 4096 then Ideal.exp (shifted (Cert.Spec.rowOf x ⟨R, h⟩) col) * Ideal.div 1 (sumExp (Cert.Spec.rowOf x ⟨R, h⟩)) else 0

theorem probN_of_lt (x : S4096x32000.Idx → EReal) (R : ℕ) (h : R < 4096) (col : Fin 32000) :
    probN x R col = Ideal.exp (shifted (Cert.Spec.rowOf x ⟨R, h⟩) col) * Ideal.div 1 (sumExp (Cert.Spec.rowOf x ⟨R, h⟩)) :=
  dif_pos h

/-- The row-0 store of point `t`: what row 0 held plus the column sums of the probabilities of rows `64 t … 64 t + 63`. -/
theorem cs_point (c : Dev nD) (t : Fin cfg0.N) (v32 : Vec Ideal S1x32000 .f32) (col : Fin 32000) :
    k0_pay8 (F := Ideal) (xblk m c t) v32 (ix2 (0 : Fin 1) col)
      = v32 (ix2 (0 : Fin 1) col) + ∑ r : Fin 64, probN (X m c) (64 * t.val + r.val) col := by
  rw [pay8_apply]
  refine congrArg (v32 (ix2 (0 : Fin 1) col) + ·) (Finset.sum_congr rfl fun r _ => ?_)
  rw [row_xblk, probN_of_lt (X m c) (64 * t.val + r.val) (row_lt t r) col]

/-- After a point that resets, row 0 of the column-sum block holds the point's column sums, the other rows zero. -/
theorem acc_A_apply (c : Dev nD) (t : Fin cfg0.N) (h0 : t.val % 32 = 0) (k : Fin 8) (col : Fin 32000) :
    acc0 m c t.val t.isLt (ix2 k col)
      = if k.val = 0 then ∑ r : Fin 64, probN (X m c) (64 * t.val + r.val) col else 0 := by
  rw [acc0_A m c t h0]
  refine (cs_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) k col).trans ?_
  by_cases hk : k.val = 0
  · rw [if_pos hk, if_pos hk]
    refine (cs_point m c t _ col).trans ?_
    show k0_pay7 (F := Ideal) _ + _ = _
    rw [pay7_apply, zero_add]
  · rw [if_neg hk, if_neg hk, pay7_apply]

/-- After any other point, row 0 holds what it held plus the point's column sums, the other rows what they held. -/
theorem acc_B_apply (c : Dev nD) (t : Fin cfg0.N) (h0 : ¬t.val % 32 = 0) (k : Fin 8) (col : Fin 32000) :
    acc0 m c t.val t.isLt (ix2 k col)
      = if k.val = 0 then acc0 m c (t.val - 1) (pred_lt t) (ix2 (0 : Fin 8) col) + ∑ r : Fin 64, probN (X m c) (64 * t.val + r.val) col
        else acc0 m c (t.val - 1) (pred_lt t) (ix2 k col) := by
  rw [acc0_B m c t h0]
  refine (cs_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
    (acc0 m c (t.val - 1) (pred_lt t)) k col).trans ?_
  by_cases hk : k.val = 0
  · rw [if_pos hk, if_pos hk]
    refine (cs_point m c t _ col).trans ?_
    show acc0 m c (t.val - 1) (pred_lt t) (row0.emb (ix2 (0 : Fin 1) col)) + _ = _
    rw [row0_emb]
  · rw [if_neg hk, if_neg hk]

/-! ## The column-sum block along a core's 32 points -/

theorem acc_reset (c : Dev nD) (n : ℕ) (hn : n < cfg0.N) (h0 : n % 32 = 0) (k : Fin 8) (col : Fin 32000) :
    acc0 m c n hn (ix2 k col) = if k.val = 0 then ∑ r : Fin 64, probN (X m c) (64 * n + r.val) col else 0 :=
  acc_A_apply m c ⟨n, hn⟩ h0 k col

theorem acc_step (c : Dev nD) (n : ℕ) (hn : n + 1 < cfg0.N) (h0 : ¬(n + 1) % 32 = 0) (k : Fin 8) (col : Fin 32000) :
    acc0 m c (n + 1) hn (ix2 k col)
      = if k.val = 0 then acc0 m c n (Nat.lt_of_succ_lt hn) (ix2 (0 : Fin 8) col) + ∑ r : Fin 64, probN (X m c) (64 * (n + 1) + r.val) col
        else acc0 m c n (Nat.lt_of_succ_lt hn) (ix2 k col) :=
  acc_B_apply m c ⟨n + 1, hn⟩ h0 k col

/-- A sum over the 64 rows of a block, as a sum over a range. -/
theorem block_sum_range (g : ℕ → EReal) : (∑ r : Fin 64, g r.val) = ∑ R ∈ Finset.range 64, g R :=
  (Finset.sum_range g).symm

/-- After point `n` — the `(n % 32)`-th of core `n / 32` — row 0 of the column-sum block holds the column sums of the
    probabilities over the core's first `64 (n % 32 + 1)` rows, and the other rows are zero. -/
theorem acc0_eq (c : Dev nD) : ∀ (n : ℕ) (hn : n < cfg0.N) (k : Fin 8) (col : Fin 32000),
    acc0 m c n hn (ix2 k col)
      = if k.val = 0 then ∑ R ∈ Finset.range (64 * (n % 32 + 1)), probN (X m c) (2048 * (n / 32) + R) col else 0 := by
  have reset : ∀ (n : ℕ) (hn : n < cfg0.N) (h0 : n % 32 = 0) (k : Fin 8) (col : Fin 32000),
      acc0 m c n hn (ix2 k col)
        = if k.val = 0 then ∑ R ∈ Finset.range (64 * (n % 32 + 1)), probN (X m c) (2048 * (n / 32) + R) col else 0 := by
    intro n hn h0 k col
    refine (acc_reset m c n hn h0 k col).trans ?_
    have e1 : 64 * (n % 32 + 1) = 64 := by omega
    have e2 : 2048 * (n / 32) = 64 * n := by omega
    rw [e1, e2]
    exact if_congr Iff.rfl (block_sum_range fun R => probN (X m c) (64 * n + R) col) rfl
  intro n
  induction n with
  | zero => exact fun hn k col => reset 0 hn rfl k col
  | succ n ih =>
    intro hn k col
    by_cases h0 : (n + 1) % 32 = 0
    · exact reset (n + 1) hn h0 k col
    · refine (acc_step m c n hn h0 k col).trans ?_
      rw [ih (Nat.lt_of_succ_lt hn) (0 : Fin 8) col, ih (Nat.lt_of_succ_lt hn) k col]
      by_cases hk : k.val = 0
      · rw [if_pos hk, if_pos hk, if_pos (show (0 : Fin 8).val = 0 from rfl)]
        have e1 : 64 * ((n + 1) % 32 + 1) = 64 * (n % 32 + 1) + 64 := by omega
        have e2 : (n + 1) / 32 = n / 32 := by omega
        rw [e1, e2, Finset.sum_range_add]
        refine congrArg (_ + ·) ?_
        refine (block_sum_range fun R => probN (X m c) (64 * (n + 1) + R) col).trans ?_
        refine Finset.sum_congr rfl fun R _ => ?_
        have e3 : 64 * (n + 1) + R = 2048 * (n / 32) + (64 * (n % 32 + 1) + R) := by omega
        rw [e3]
      · rw [if_neg hk, if_neg hk, if_neg hk]

/-! ## From the blocks to the arrays -/

/-- A point from its number. -/
def pt (n : ℕ) (h : n < 64) : Fin cfg0.N := ⟨n, by rw [show cfg0.N = 64 from N_0]; exact h⟩

/-- Where row `r` of point `t`'s block of either column sits in the column. -/
theorem emb2 (t : Fin cfg0.N) (r : Fin 64) :
    (((cfg0.win 2).blk t).view.emb (ix2 r (0 : Fin 1)) : S4096x1.Idx) = ix2 ⟨64 * t.val + r.val, row_lt t r⟩ (0 : Fin 1) := by
  obtain ⟨-, -, -, -, e0, e1, -⟩ := idx_facts t
  funext a
  apply Fin.ext
  match a with
  | ⟨0, _⟩ => show win0_2.index t (0 : Fin 2) * 64 + 1 * r.val = 64 * t.val + r.val; rw [e0]; omega
  | ⟨1, _⟩ => show win0_2.index t (1 : Fin 2) * 1 + 1 * 0 = 0; rw [e1]

theorem emb3 (t : Fin cfg0.N) (r : Fin 64) :
    (((cfg0.win 3).blk t).view.emb (ix2 r (0 : Fin 1)) : S4096x1.Idx) = ix2 ⟨64 * t.val + r.val, row_lt t r⟩ (0 : Fin 1) := by
  obtain ⟨-, -, -, -, -, -, e0, e1, -⟩ := idx_facts t
  funext a
  apply Fin.ext
  match a with
  | ⟨0, _⟩ => show win0_3.index t (0 : Fin 2) * 64 + 1 * r.val = 64 * t.val + r.val; rw [e0]; omega
  | ⟨1, _⟩ => show win0_3.index t (1 : Fin 2) * 1 + 1 * 0 = 0; rw [e1]

theorem crow_lt (t : Fin cfg0.N) (k : Fin 8) : 8 * (t.val / 32) + k.val < 16 := by
  have := t_lt t; have := k.isLt; omega

/-- Where row `k` of point `t`'s column-sum block sits in the column-sum array: among core `t / 32`'s eight rows. -/
theorem emb4 (t : Fin cfg0.N) (k : Fin 8) (col : Fin 32000) :
    (((cfg0.win 4).blk t).view.emb (ix2 k col) : S16x32000.Idx) = ix2 ⟨8 * (t.val / 32) + k.val, crow_lt t k⟩ col := by
  obtain ⟨-, -, -, -, -, -, -, -, e0, e1⟩ := idx_facts t
  funext a
  apply Fin.ext
  match a with
  | ⟨0, _⟩ => show win0_4.index t (0 : Fin 2) * 8 + 1 * k.val = 8 * (t.val / 32) + k.val; rw [e0]; omega
  | ⟨1, _⟩ => show win0_4.index t (1 : Fin 2) * 32000 + 1 * col.val = col.val; rw [e1]; omega

/-- The top-probability column the specification gives, as a column. -/
def confCol (c : Dev nD) : S4096x1.Idx → EReal := fun j => Cert.Spec.confSpec (X m c) (ix1 (j 0))

/-- The column-sum array the kernel leaves: row `8 i` holds the column sums over core `i`'s 2048 rows, the rest zero. -/
def csArr (c : Dev nD) : S16x32000.Idx → EReal := fun j =>
  if (j 0).val % 8 = 0 then ∑ R ∈ Finset.range 2048, probN (X m c) (2048 * ((j 0).val / 8) + R) (j 1) else 0

/-- What point `t` writes back into the log-probability column is its block of the specification's column. -/
theorem flushed2_eq (c : Dev nD) (hlab : Cert.Spec.LabelsInRange (Lab m c)) (t : Fin cfg0.N) :
    (dats m 0 c).flushed 2 t = ((cfg0.win 2).blk t).view.read (Elt Ideal) (Cert.Spec.ceSpec (X m c) (Lab m c)) := by
  show (cfg0.win 2).cut (grid0.coords t) ((dats m 0 c).after 2 t) = _
  rw [after0_2, o2At_eq]
  show (fun j : S64x1.Idx => k0_pay5 (F := Ideal) (xblk m c t) (lblk m c t) j)
    = fun j : S64x1.Idx => Cert.Spec.ceSpec (X m c) (Lab m c) (((cfg0.win 2).blk t).view.emb j)
  funext j
  obtain ⟨r, u, rfl⟩ : ∃ (r : Fin 64) (u : Fin 1), j = ix2 r u := ⟨j 0, j 1, eq_ix2 j⟩
  obtain rfl : u = 0 := Subsingleton.elim _ _
  rw [emb2 t r]
  exact ce_point m c hlab t r

/-- What point `t` writes back into the top-probability column is its block of the specification's column. -/
theorem flushed3_eq (c : Dev nD) (t : Fin cfg0.N) :
    (dats m 0 c).flushed 3 t = ((cfg0.win 3).blk t).view.read (Elt Ideal) (confCol m c) := by
  show (cfg0.win 3).cut (grid0.coords t) ((dats m 0 c).after 3 t) = _
  rw [after0_3, o3At_eq]
  show (fun j : S64x1.Idx => k0_pay6 (F := Ideal) (xblk m c t) j)
    = fun j : S64x1.Idx => confCol m c (((cfg0.win 3).blk t).view.emb j)
  funext j
  obtain ⟨r, u, rfl⟩ : ∃ (r : Fin 64) (u : Fin 1), j = ix2 r u := ⟨j 0, j 1, eq_ix2 j⟩
  obtain rfl : u = 0 := Subsingleton.elim _ _
  rw [emb3 t r]
  exact conf_point m c t r

/-- What a core's last point writes back into the column-sum array is its block of `csArr`. -/
theorem flushed4_eq (c : Dev nD) (t : Fin cfg0.N) (hf : (cfg0.win 4).flush t = true) :
    (dats m 0 c).flushed 4 t = ((cfg0.win 4).blk t).view.read (Elt Ideal) (csArr m c) := by
  have h31 : t.val % 32 = 31 := (flush0_4 t).mp hf
  show (cfg0.win 4).cut (grid0.coords t) ((dats m 0 c).after 4 t) = _
  rw [after0_4]
  show (fun j : S8x32000.Idx => acc0 m c t.val t.isLt j)
    = fun j : S8x32000.Idx => csArr m c (((cfg0.win 4).blk t).view.emb j)
  funext j
  obtain ⟨k, col, rfl⟩ : ∃ (k : Fin 8) (col : Fin 32000), j = ix2 k col := ⟨j 0, j 1, eq_ix2 j⟩
  rw [acc0_eq m c t.val t.isLt k col, emb4 t k col]
  show _ = if (8 * (t.val / 32) + k.val) % 8 = 0 then
      ∑ R ∈ Finset.range 2048, probN (X m c) (2048 * ((8 * (t.val / 32) + k.val) / 8) + R) col else 0
  have hk : k.val < 8 := k.isLt
  have e1 : 64 * (t.val % 32 + 1) = 2048 := by omega
  have e2 : (8 * (t.val / 32) + k.val) / 8 = t.val / 32 := by omega
  have e3 : k.val = 0 ↔ (8 * (t.val / 32) + k.val) % 8 = 0 := by omega
  rw [e1, e2]
  exact if_congr e3 rfl rfl

/-- An index of either column is in point `t`'s block iff each coordinate is in the block's range on its axis. -/
theorem mem_blk2 (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v1_0).slice (win0_2.rect t)).set ↔ _
  rw [View.set_slice_whole, Rect.mem_set_unit]
  exact Iff.rfl

theorem mem_blk3 (t : Fin cfg0.N) (i : S4096x1.Idx) :
    i ∈ ((cfg0.win 3).blk t).view.set ↔ ∀ a : Fin 2, win0_3.index t a * S64x1.size a ≤ (i a).val ∧ (i a).val < win0_3.index t a * S64x1.size a + S64x1.size a := by
  show i ∈ ((View.whole main_v1_1).slice (win0_3.rect t)).set ↔ _
  rw [View.set_slice_whole, Rect.mem_set_unit]
  exact Iff.rfl

theorem mem_blk4 (t : Fin cfg0.N) (i : S16x32000.Idx) :
    i ∈ ((cfg0.win 4).blk t).view.set ↔ ∀ a : Fin 2, win0_4.index t a * S8x32000.size a ≤ (i a).val ∧ (i a).val < win0_4.index t a * S8x32000.size a + S8x32000.size a := by
  show i ∈ ((View.whole main_v1_2).slice (win0_4.rect t)).set ↔ _
  rw [View.set_slice_whole, Rect.mem_set_unit]
  exact Iff.rfl

/-- Row `R` of either column is in the block of point `R / 64`. -/
theorem cover2 (i : S4096x1.Idx) : ∃ t : Fin cfg0.N, (cfg0.win 2).flush t = true ∧ i ∈ ((cfg0.win 2).blk t).view.set := by
  have h0 : (i 0).val < 4096 := (i 0).isLt
  have h1 : (i 1).val < 1 := (i 1).isLt
  refine ⟨pt ((i 0).val / 64) (by omega), flush0_2 _, ?_⟩
  obtain ⟨-, -, -, -, e0, e1, -⟩ := idx_facts (pt ((i 0).val / 64) (by omega))
  have ht : (pt ((i 0).val / 64) (by omega)).val = (i 0).val / 64 := rfl
  rw [mem_blk2]
  intro a
  match a with
  | ⟨0, _⟩ =>
    show win0_2.index _ (0 : Fin 2) * 64 ≤ (i 0).val ∧ (i 0).val < win0_2.index _ (0 : Fin 2) * 64 + 64
    rw [e0, ht]; omega
  | ⟨1, _⟩ =>
    show win0_2.index _ (1 : Fin 2) * 1 ≤ (i 1).val ∧ (i 1).val < win0_2.index _ (1 : Fin 2) * 1 + 1
    rw [e1]; omega

theorem cover3 (i : S4096x1.Idx) : ∃ t : Fin cfg0.N, (cfg0.win 3).flush t = true ∧ i ∈ ((cfg0.win 3).blk t).view.set := by
  have h0 : (i 0).val < 4096 := (i 0).isLt
  have h1 : (i 1).val < 1 := (i 1).isLt
  refine ⟨pt ((i 0).val / 64) (by omega), flush0_3 _, ?_⟩
  obtain ⟨-, -, -, -, -, -, e0, e1, -⟩ := idx_facts (pt ((i 0).val / 64) (by omega))
  have ht : (pt ((i 0).val / 64) (by omega)).val = (i 0).val / 64 := rfl
  rw [mem_blk3]
  intro a
  match a with
  | ⟨0, _⟩ =>
    show win0_3.index _ (0 : Fin 2) * 64 ≤ (i 0).val ∧ (i 0).val < win0_3.index _ (0 : Fin 2) * 64 + 64
    rw [e0, ht]; omega
  | ⟨1, _⟩ =>
    show win0_3.index _ (1 : Fin 2) * 1 ≤ (i 1).val ∧ (i 1).val < win0_3.index _ (1 : Fin 2) * 1 + 1
    rw [e1]; omega

/-- Row `8 i + k` of the column-sum array is in the block core `i` writes back after its last point, `32 i + 31`. -/
theorem cover4 (i : S16x32000.Idx) : ∃ t : Fin cfg0.N, (cfg0.win 4).flush t = true ∧ i ∈ ((cfg0.win 4).blk t).view.set := by
  have h0 : (i 0).val < 16 := (i 0).isLt
  have h1 : (i 1).val < 32000 := (i 1).isLt
  have ht : (pt (32 * ((i 0).val / 8) + 31) (by omega)).val = 32 * ((i 0).val / 8) + 31 := rfl
  refine ⟨pt (32 * ((i 0).val / 8) + 31) (by omega), (flush0_4 _).mpr (by rw [ht]; omega), ?_⟩
  obtain ⟨-, -, -, -, -, -, -, -, e0, e1⟩ := idx_facts (pt (32 * ((i 0).val / 8) + 31) (by omega))
  rw [mem_blk4]
  intro a
  match a with
  | ⟨0, _⟩ =>
    show win0_4.index _ (0 : Fin 2) * 8 ≤ (i 0).val ∧ (i 0).val < win0_4.index _ (0 : Fin 2) * 8 + 8
    rw [e0, ht]; omega
  | ⟨1, _⟩ =>
    show win0_4.index _ (1 : Fin 2) * 32000 ≤ (i 1).val ∧ (i 1).val < win0_4.index _ (1 : Fin 2) * 32000 + 32000
    rw [e1]; omega

end Arr

open Arr

/-! ## The three arrays when the region is left -/

/-- The log-probability column at the end: the label's log-probability of every row (labels in range). -/
theorem ce_final (c : Dev nD) (hlab : Cert.Spec.LabelsInRange (Lab m c)) :
    (dats m 0 c).arrAt 2 cfg0.N = Cert.Spec.ceSpec (X m c) (Lab m c) :=
  (dats m 0 c).arrAt_eq_of_cover 2 (Cert.Spec.ceSpec (X m c) (Lab m c)) (fun t _ => flushed2_eq m c hlab t) cover2

/-- The top-probability column at the end, row by row. -/
theorem conf_final (c : Dev nD) (R : Fin 4096) :
    (dats m 0 c).arrAt 3 cfg0.N (ix2 R (0 : Fin 1)) = Cert.Spec.confSpec (X m c) (ix1 R) :=
  congrFun ((dats m 0 c).arrAt_eq_of_cover 3 (confCol m c) (fun t _ => flushed3_eq m c t) cover3) (ix2 R (0 : Fin 1))

/-- The column-sum array at the end: row 0 of core `i`'s eight rows holds the column sums over the core's 2048 rows of
    the probabilities, the other seven rows are zero. -/
theorem cs_final (c : Dev nD) (i : Fin 2) (k : Fin 8) (col : Fin 32000) :
    (dats m 0 c).arrAt 4 cfg0.N (ix2 (⟨8 * i.val + k.val, by omega⟩ : Fin 16) col)
      = if k.val = 0 then
          ∑ R' : Fin 2048, Ideal.exp (shifted (Cert.Spec.rowOf (X m c) ⟨2048 * i.val + R'.val, by omega⟩) col)
              * Ideal.div 1 (sumExp (Cert.Spec.rowOf (X m c) ⟨2048 * i.val + R'.val, by omega⟩))
        else 0 := by
  refine (congrFun ((dats m 0 c).arrAt_eq_of_cover 4 (csArr m c) (flushed4_eq m c) cover4) (ix2 (⟨8 * i.val + k.val, by omega⟩ : Fin 16) col)).trans ?_
  show (if (8 * i.val + k.val) % 8 = 0 then
      ∑ R ∈ Finset.range 2048, probN (X m c) (2048 * ((8 * i.val + k.val) / 8) + R) col else 0) = _
  have hk : k.val < 8 := k.isLt
  have hi : i.val < 2 := i.isLt
  have e2 : (8 * i.val + k.val) / 8 = i.val := by omega
  have e3 : (8 * i.val + k.val) % 8 = 0 ↔ k.val = 0 := by omega
  rw [e2]
  refine if_congr e3 ?_ rfl
  refine (Finset.sum_range fun R => probN (X m c) (2048 * i.val + R) col).trans ?_
  exact Finset.sum_congr rfl fun R' _ => probN_of_lt (X m c) (2048 * i.val + R'.val) (by have := R'.isLt; omega) col

end Cert.KernelIdeal.Val
end
-- ==== Proof.KernelIdeal.Tail.lean ====
/-
  The host lines the two programs share, as one function.

  After the region the kernel's program first folds the 16 × 32000 partial column sums to a 32000-vector and reshapes the
  4096 × 1 top-probability column to a 4096-vector; from there on it runs the same lines as the reference: the
  cross-entropy mean, the calibration term (mean absolute difference between the averaged probabilities and the
  label histogram), the pairwise term (a roll of the confidences and of the indices, two look-ups of the running
  correctness, sign, absolute value, a guarded division, a hinge, a mean), and the weighted sum of the three.
  'tail' is that common chain as a function of the three arrays it starts from and the three argument arrays it reads;
  'tail_run' says the program's result after its host lines is 'tail' at the three arrays of the pipeline.
  The chain is cut into the stretches the program prints it in, each stretch's outputs named ('TailS'), so that every
  stretch is read over an arbitrary buffer valuation and the stretches are then composed.
-/
import proofs.«406687_j326417515025_3_alg».proof.Proof.KernelIdeal.Frame

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem

variable {F : FTy → Type} [FloatOps F]

set_option quotPrecheck false in
local notation "𝔽[" s "]" => BufTy.Contents (Elt F) ⟨s, .f32⟩
set_option quotPrecheck false in
local notation "𝕀[" s "]" => BufTy.Contents (Elt F) ⟨s, .i32⟩
set_option quotPrecheck false in
local notation "𝔹[" s "]" => BufTy.Contents (Elt F) ⟨s, .i1⟩

/-! ## The kernel-only prefix -/

/-- The 16 × 32000 partial column sums folded to a 32000-vector: rows 0 and 8 (each core's row 0) added. -/
def colsumK (Y16 : (⟨S16x32000, .f32⟩ : BufTy).Contents (Elt F)) : (⟨S32000, .f32⟩ : BufTy).Contents (Elt F) :=
  have v2 : 𝔽[S2x8x32000] := shapeCast _ Y16 shapeCasts_S16x32000_S2x8x32000
  have v3 : 𝔽[S2x1x32000] := extractStridedSlice S2x1x32000 ![0, 0, 0] v2 slices_S2x8x32000_S2x1x32000_0_0_0
  have v4 : 𝔽[S2x32000] := shapeCast _ v3 shapeCasts_S2x1x32000_S2x32000
  have cst : 𝔽[S_] := constant S_ .f32 0x00000000#32
  Host.reduceAdd v4 cst reducesTo_S2x32000_S32000_d0 h_S_

/-- The 4096 × 1 top-probability column as a 4096-vector. -/
def confK {F : FTy → Type} [FloatOps F] (Z41 : (⟨S4096x1, .f32⟩ : BufTy).Contents (Elt F)) :
    (⟨S4096, .f32⟩ : BufTy).Contents (Elt F) :=
  shapeCast _ Z41 shapeCasts_S4096x1_S4096

/-! ## The shared chain, in four pieces -/

/-- The cross-entropy term: minus the mean of the log-probability column. -/
def lossCls (X : (⟨S4096x1, .f32⟩ : BufTy).Contents (Elt F)) : (⟨S_, .f32⟩ : BufTy).Contents (Elt F) :=
  have cst_0 : 𝔽[S_] := constant S_ .f32 0x00000000#32
  have v6 : 𝔽[S_] := Host.reduceAdd X cst_0 reducesTo_S4096x1_S_d0_1 h_S_
  have cst_1 : 𝔽[S_] := constant S_ .f32 0x45800000#32
  have v7 : 𝔽[S_] := Host.divf v6 cst_1
  Host.negf v7

/-- The calibration term: the mean over the 32000 classes of |column sums / 4096 − label histogram / 4096|. -/
def lossCal (Y : (⟨S32000, .f32⟩ : BufTy).Contents (Elt F)) (a1 : (⟨S4096, .i32⟩ : BufTy).Contents (Elt F)) :
    (⟨S_, .f32⟩ : BufTy).Contents (Elt F) :=
  have cst_2 : 𝔽[S_] := constant S_ .f32 0x45800000#32
  have v9 : 𝔽[S32000] := broadcastInDim S32000 ![] bcast_S_S32000 cst_2
  have v10 : 𝔽[S32000] := Host.divf Y v9
  have cst_3 : 𝔽[S_] := constant S_ .f32 0x00000000#32
  have v11 : 𝔽[S32000] := broadcastInDim S32000 ![] bcast_S_S32000 cst_3
  have c : 𝕀[S_] := constantI S_ 32 0#32
  have v12 : 𝕀[S4096] := broadcastInDim S4096 ![] bcast_S_S4096 c
  have v13 : 𝔹[S4096] := cmpi .slt a1 v12
  have c_4 : 𝕀[S_] := constantI S_ 32 32000#32
  have v14 : 𝕀[S4096] := broadcastInDim S4096 ![] bcast_S_S4096 c_4
  have v15 : 𝕀[S4096] := addi a1 v14
  have v16 : 𝕀[S4096] := select v13 v15 a1
  have v17 : 𝕀[S4096x1] := broadcastInDim S4096x1 ![0] bcast_S4096_S4096x1_0 v16
  have cst_5 : 𝔽[S_] := constant S_ .f32 0x3F800000#32
  have v18 : 𝔽[S4096] := broadcastInDim S4096 ![] bcast_S_S4096 cst_5
  have v19 : 𝔽[S32000] := Host.scatterAdd scatter_S32000_S4096x1_S4096_n_0_0_1 v11 v17 v18
  have cst_6 : 𝔽[S_] := constant S_ .f32 0x45800000#32
  have v20 : 𝔽[S32000] := broadcastInDim S32000 ![] bcast_S_S32000 cst_6
  have v21 : 𝔽[S32000] := Host.divf v19 v20
  have v22 : 𝔽[S32000] := subf v10 v21
  have v23 : 𝔽[S32000] := Host.absf v22
  have cst_7 : 𝔽[S_] := constant S_ .f32 0x00000000#32
  have v24 : 𝔽[S_] := Host.reduceAdd v23 cst_7 reducesTo_S32000_S_d0 h_S_
  have cst_8 : 𝔽[S_] := constant S_ .f32 0x46FA0000#32
  Host.divf v24 cst_8

/-- The pairwise term: each sample's confidence 'Z' against its neighbour's (the roll by one place), pushed apart by
    the two samples' correctness difference over its sign, through a hinge; the mean over the 4096 samples. -/
def lossRef (Z : (⟨S4096, .f32⟩ : BufTy).Contents (Elt F)) (a2 : (⟨S4096, .i32⟩ : BufTy).Contents (Elt F))
    (a3 : (⟨S50000, .f32⟩ : BufTy).Contents (Elt F)) : (⟨S_, .f32⟩ : BufTy).Contents (Elt F) :=
  have call0_v0 : 𝔽[S4095] := extractStridedSlice S4095 ![1] Z slices_S4096_S4095_1
  have call0_v1 : 𝔽[S1] := extractStridedSlice S1 ![0] Z slices_S4096_S1_0
  have v27 : 𝔽[S4096] := concatenate S4096 0 [⟨S4095, call0_v0⟩, ⟨S1, call0_v1⟩] concatenates_S4095_S1_S4096_d0
  have call1_v0 : 𝕀[S4095] := extractStridedSlice S4095 ![1] a2 slices_S4096_S4095_1
  have call1_v1 : 𝕀[S1] := extractStridedSlice S1 ![0] a2 slices_S4096_S1_0
  have v28 : 𝕀[S4096] := concatenate S4096 0 [⟨S4095, call1_v0⟩, ⟨S1, call1_v1⟩] concatenates_S4095_S1_S4096_d0
  have c_9 : 𝕀[S_] := constantI S_ 32 0#32
  have v29 : 𝕀[S4096] := broadcastInDim S4096 ![] bcast_S_S4096 c_9
  have v30 : 𝔹[S4096] := cmpi .slt a2 v29
  have c_10 : 𝕀[S_] := constantI S_ 32 50000#32
  have v31 : 𝕀[S4096] := broadcastInDim S4096 ![] bcast_S_S4096 c_10
  have v32 : 𝕀[S4096] := addi a2 v31
  have v33 : 𝕀[S4096] := select v30 v32 a2
  have v34 : 𝕀[S4096x1] := broadcastInDim S4096x1 ![0] bcast_S4096_S4096x1_0 v33
  have v35 : 𝔽[S4096] := Host.gather gather_S50000_S4096x1_S4096_n_0_n_n_0_1_1 a3 v34
  have c_11 : 𝕀[S_] := constantI S_ 32 0#32
  have v36 : 𝕀[S4096] := broadcastInDim S4096 ![] bcast_S_S4096 c_11
  have v37 : 𝔹[S4096] := cmpi .slt v28 v36
  have c_12 : 𝕀[S_] := constantI S_ 32 50000#32
  have v38 : 𝕀[S4096] := broadcastInDim S4096 ![] bcast_S_S4096 c_12
  have v39 : 𝕀[S4096] := addi v28 v38
  have v40 : 𝕀[S4096] := select v37 v39 v28
  have v41 : 𝕀[S4096x1] := broadcastInDim S4096x1 ![0] bcast_S4096_S4096x1_0 v40
  have v42 : 𝔽[S4096] := Host.gather gather_S50000_S4096x1_S4096_n_0_n_n_0_1_1 a3 v41
  have v43 : 𝔽[S4096] := subf v35 v42
  have v44 : 𝔽[S4096] := Host.sign v43
  have v45 : 𝔽[S4096] := subf v35 v42
  have v46 : 𝔽[S4096] := Host.absf v45
  have cst_13 : 𝔽[S_] := constant S_ .f32 0x00000000#32
  have v47 : 𝔽[S4096] := broadcastInDim S4096 ![] bcast_S_S4096 cst_13
  have v48 : 𝔹[S4096] := cmpf .oeq v44 v47
  have cst_14 : 𝔽[S_] := constant S_ .f32 0x3F800000#32
  have v49 : 𝔽[S4096] := broadcastInDim S4096 ![] bcast_S_S4096 cst_14
  have v50 : 𝔽[S4096] := select v48 v49 v44
  have v51 : 𝔽[S4096] := Host.divf v46 v50
  have v52 : 𝔽[S4096] := addf v27 v51
  have v53 : 𝔽[S4096] := Host.negf v44
  have v54 : 𝔽[S4096] := subf Z v52
  have v55 : 𝔽[S4096] := mulf v53 v54
  have cst_15 : 𝔽[S_] := constant S_ .f32 0x00000000#32
  have v56 : 𝔽[S4096] := broadcastInDim S4096 ![] bcast_S_S4096 cst_15
  have v57 : 𝔽[S4096] := maximumf v56 v55
  have cst_16 : 𝔽[S_] := constant S_ .f32 0x00000000#32
  have v58 : 𝔽[S_] := Host.reduceAdd v57 cst_16 reducesTo_S4096_S_d0 h_S_
  have cst_17 : 𝔽[S_] := constant S_ .f32 0x45800000#32
  Host.divf v58 cst_17

/-- The weighted sum of the three terms: 'lc + 1 · lr + 1 · lk'. -/
def combine (lc lr lk : (⟨S_, .f32⟩ : BufTy).Contents (Elt F)) : (⟨S_, .f32⟩ : BufTy).Contents (Elt F) :=
  have cst_18 : 𝔽[S_] := constant S_ .f32 0x3F800000#32
  have v60 : 𝔽[S_] := mulf cst_18 lr
  have v61 : 𝔽[S_] := addf lc v60
  have cst_19 : 𝔽[S_] := constant S_ .f32 0x3F800000#32
  have v62 : 𝔽[S_] := mulf cst_19 lk
  addf v61 v62

/-- The chain of host lines the two programs share, from the log-probability column 'X', the column sums 'Y' and the
    top probabilities 'Z', reading the labels 'a1', the indices 'a2' and the running correctness 'a3'. -/
def tail (X : (⟨S4096x1, .f32⟩ : BufTy).Contents (Elt F)) (Y : (⟨S32000, .f32⟩ : BufTy).Contents (Elt F))
    (Z : (⟨S4096, .f32⟩ : BufTy).Contents (Elt F)) (a1 : (⟨S4096, .i32⟩ : BufTy).Contents (Elt F))
    (a2 : (⟨S4096, .i32⟩ : BufTy).Contents (Elt F)) (a3 : (⟨S50000, .f32⟩ : BufTy).Contents (Elt F)) :
    (⟨S_, .f32⟩ : BufTy).Contents (Elt F) :=
  combine (lossCls X) (lossRef Z a2 a3) (lossCal Y a1)

theorem tail_congr {X X' : (⟨S4096x1, .f32⟩ : BufTy).Contents (Elt F)} {Y Y' : (⟨S32000, .f32⟩ : BufTy).Contents (Elt F)}
    {Z Z' : (⟨S4096, .f32⟩ : BufTy).Contents (Elt F)} {a1 a1' a2 a2' : (⟨S4096, .i32⟩ : BufTy).Contents (Elt F)}
    {a3 a3' : (⟨S50000, .f32⟩ : BufTy).Contents (Elt F)}
    (hX : X = X') (hY : Y = Y') (hZ : Z = Z') (h1 : a1 = a1') (h2 : a2 = a2') (h3 : a3 = a3') :
    tail X Y Z a1 a2 a3 = tail X' Y' Z' a1' a2' a3' := by
  rw [hX, hY, hZ, h1, h2, h3]

/-! ## The pairwise term, stretch by stretch

The program prints the lines of the pairwise term in five stretches (the two rolls are calls, the guarded divisor is
a call); each stretch's outputs are named here, and 'lossRef' is their composition. -/

namespace TailS

/-- The confidences rolled by one place: entries 1 … 4095, then entry 0. -/
def rollF (Z : 𝔽[S4096]) : 𝔽[S4096] :=
  have c0 : 𝔽[S4095] := extractStridedSlice S4095 ![1] Z slices_S4096_S4095_1
  have c1 : 𝔽[S1] := extractStridedSlice S1 ![0] Z slices_S4096_S1_0
  concatenate S4096 0 [⟨S4095, c0⟩, ⟨S1, c1⟩] concatenates_S4095_S1_S4096_d0

/-- The indices rolled by one place. -/
def rollI (a2 : 𝕀[S4096]) : 𝕀[S4096] :=
  have c0 : 𝕀[S4095] := extractStridedSlice S4095 ![1] a2 slices_S4096_S4095_1
  have c1 : 𝕀[S1] := extractStridedSlice S1 ![0] a2 slices_S4096_S1_0
  concatenate S4096 0 [⟨S4095, c0⟩, ⟨S1, c1⟩] concatenates_S4095_S1_S4096_d0

/-- The running correctness looked up at the indices (a negative index counted from the end). -/
def corrA (a2 : 𝕀[S4096]) (a3 : 𝔽[S50000]) : 𝔽[S4096] :=
  have c_9 : 𝕀[S_] := constantI S_ 32 0#32
  have v29 : 𝕀[S4096] := broadcastInDim S4096 ![] bcast_S_S4096 c_9
  have v30 : 𝔹[S4096] := cmpi .slt a2 v29
  have c_10 : 𝕀[S_] := constantI S_ 32 50000#32
  have v31 : 𝕀[S4096] := broadcastInDim S4096 ![] bcast_S_S4096 c_10
  have v32 : 𝕀[S4096] := addi a2 v31
  have v33 : 𝕀[S4096] := select v30 v32 a2
  have v34 : 𝕀[S4096x1] := broadcastInDim S4096x1 ![0] bcast_S4096_S4096x1_0 v33
  Host.gather gather_S50000_S4096x1_S4096_n_0_n_n_0_1_1 a3 v34

/-- The running correctness looked up at the rolled indices. -/
def corrB (v28 : 𝕀[S4096]) (a3 : 𝔽[S50000]) : 𝔽[S4096] :=
  have c_11 : 𝕀[S_] := constantI S_ 32 0#32
  have v36 : 𝕀[S4096] := broadcastInDim S4096 ![] bcast_S_S4096 c_11
  have v37 : 𝔹[S4096] := cmpi .slt v28 v36
  have c_12 : 𝕀[S_] := constantI S_ 32 50000#32
  have v38 : 𝕀[S4096] := broadcastInDim S4096 ![] bcast_S_S4096 c_12
  have v39 : 𝕀[S4096] := addi v28 v38
  have v40 : 𝕀[S4096] := select v37 v39 v28
  have v41 : 𝕀[S4096x1] := broadcastInDim S4096x1 ![0] bcast_S4096_S4096x1_0 v40
  Host.gather gather_S50000_S4096x1_S4096_n_0_n_n_0_1_1 a3 v41

/-- The sign of the correctness difference. -/
def sgn (a2 v28 : 𝕀[S4096]) (a3 : 𝔽[S50000]) : 𝔽[S4096] :=
  have v35 : 𝔽[S4096] := corrA a2 a3
  have v42 : 𝔽[S4096] := corrB v28 a3
  have v43 : 𝔽[S4096] := subf v35 v42
  Host.sign v43

/-- The absolute correctness difference. -/
def absd (a2 v28 : 𝕀[S4096]) (a3 : 𝔽[S50000]) : 𝔽[S4096] :=
  have v35 : 𝔽[S4096] := corrA a2 a3
  have v42 : 𝔽[S4096] := corrB v28 a3
  have v45 : 𝔽[S4096] := subf v35 v42
  Host.absf v45

/-- Where the sign is zero. -/
def isZero (a2 v28 : 𝕀[S4096]) (a3 : 𝔽[S50000]) : 𝔹[S4096] :=
  have v44 : 𝔽[S4096] := sgn a2 v28 a3
  have cst_13 : 𝔽[S_] := constant S_ .f32 0x00000000#32
  have v47 : 𝔽[S4096] := broadcastInDim S4096 ![] bcast_S_S4096 cst_13
  cmpf .oeq v44 v47

/-- The all-ones vector. -/
def ones : 𝔽[S4096] :=
  have cst_14 : 𝔽[S_] := constant S_ .f32 0x3F800000#32
  broadcastInDim S4096 ![] bcast_S_S4096 cst_14

/-- The hinge on the rolled margins and its mean. -/
def hinge (v26 v27 v44 v46 v50 : 𝔽[S4096]) : 𝔽[S_] :=
  have v51 : 𝔽[S4096] := Host.divf v46 v50
  have v52 : 𝔽[S4096] := addf v27 v51
  have v53 : 𝔽[S4096] := Host.negf v44
  have v54 : 𝔽[S4096] := subf v26 v52
  have v55 : 𝔽[S4096] := mulf v53 v54
  have cst_15 : 𝔽[S_] := constant S_ .f32 0x00000000#32
  have v56 : 𝔽[S4096] := broadcastInDim S4096 ![] bcast_S_S4096 cst_15
  have v57 : 𝔽[S4096] := maximumf v56 v55
  have cst_16 : 𝔽[S_] := constant S_ .f32 0x00000000#32
  have v58 : 𝔽[S_] := Host.reduceAdd v57 cst_16 reducesTo_S4096_S_d0 h_S_
  have cst_17 : 𝔽[S_] := constant S_ .f32 0x45800000#32
  Host.divf v58 cst_17

end TailS

open TailS

/-- The pairwise term is its stretches composed. -/
theorem lossRef_eq (Z : (⟨S4096, .f32⟩ : BufTy).Contents (Elt F)) (a2 : (⟨S4096, .i32⟩ : BufTy).Contents (Elt F))
    (a3 : (⟨S50000, .f32⟩ : BufTy).Contents (Elt F)) :
    lossRef Z a2 a3 = hinge Z (rollF Z) (sgn a2 (rollI a2) a3) (absd a2 (rollI a2) a3)
      (select (isZero a2 (rollI a2) a3) ones (sgn a2 (rollI a2) a3)) := rfl

/-! ## Each stretch over an arbitrary valuation

For any contents 'V' of the buffers, what a stretch leaves in the buffers later stretches read: its own results as the
stage functions of what it read from 'V', and every buffer it does not write as 'V' had it. -/

namespace TailS

section Stretches

variable (V : Valuation τ sig (Elt F))

/-! ### The first stretch: the two scalar terms and the reshaped confidences -/

theorem s1_v8 : after (hostOps1 (F := F)) V (Proc.devRef .tc main_v8) = lossCls (V (Proc.devRef .tc main_v1_0)) := by
  simp only [hostOps1]
  after_results_simp
  rfl

theorem s1_v25 : after (hostOps1 (F := F)) V (Proc.devRef .tc main_v25)
    = lossCal (colsumK (V (Proc.devRef .tc main_v1_2))) (V (Proc.devRef .tc main_arg1)) := by
  simp only [hostOps1]
  after_results_simp
  rfl

theorem s1_v26 : after (hostOps1 (F := F)) V (Proc.devRef .tc main_v26) = confK (V (Proc.devRef .tc main_v1_1)) := by
  simp only [hostOps1]
  after_results_simp
  rfl

theorem s1_arg2 : after (hostOps1 (F := F)) V (Proc.devRef .tc main_arg2) = V (Proc.devRef .tc main_arg2) :=
  after_of_forall_not_mem _ _ (List.forall_iff_forall_mem.mp Fr.hostOps1_nw2)
theorem s1_arg3 : after (hostOps1 (F := F)) V (Proc.devRef .tc main_arg3) = V (Proc.devRef .tc main_arg3) :=
  after_of_forall_not_mem _ _ (List.forall_iff_forall_mem.mp Fr.hostOps1_nw3)

/-! ### The roll of the confidences -/

theorem s2_v27 : after (hostOps1_1 (F := F)) V (Proc.devRef .tc main_v27) = rollF (V (Proc.devRef .tc main_v26)) := by
  simp only [hostOps1_1]
  after_results
  (try simp only [TRef.ofBuf, TRef.toBuf, cast_eq])
  rfl

theorem s2_arg2 : after (hostOps1_1 (F := F)) V (Proc.devRef .tc main_arg2) = V (Proc.devRef .tc main_arg2) :=
  after_of_forall_not_mem _ _ (List.forall_iff_forall_mem.mp Fr.hostOps1_1_nw2)
theorem s2_arg3 : after (hostOps1_1 (F := F)) V (Proc.devRef .tc main_arg3) = V (Proc.devRef .tc main_arg3) :=
  after_of_forall_not_mem _ _ (List.forall_iff_forall_mem.mp Fr.hostOps1_1_nw3)
theorem s2_v8 : after (hostOps1_1 (F := F)) V (Proc.devRef .tc main_v8) = V (Proc.devRef .tc main_v8) := by
  simp only [hostOps1_1]; after_results
theorem s2_v25 : after (hostOps1_1 (F := F)) V (Proc.devRef .tc main_v25) = V (Proc.devRef .tc main_v25) := by
  simp only [hostOps1_1]; after_results
theorem s2_v26 : after (hostOps1_1 (F := F)) V (Proc.devRef .tc main_v26) = V (Proc.devRef .tc main_v26) := by
  simp only [hostOps1_1]; after_results

/-! ### The roll of the indices -/

theorem s3_v28 : after (hostOps1_2 (F := F)) V (Proc.devRef .tc main_v28) = rollI (V (Proc.devRef .tc main_arg2)) := by
  simp only [hostOps1_2]
  after_results
  (try simp only [TRef.ofBuf, TRef.toBuf, cast_eq])
  rfl

theorem s3_arg2 : after (hostOps1_2 (F := F)) V (Proc.devRef .tc main_arg2) = V (Proc.devRef .tc main_arg2) :=
  after_of_forall_not_mem _ _ (List.forall_iff_forall_mem.mp Fr.hostOps1_2_nw2)
theorem s3_arg3 : after (hostOps1_2 (F := F)) V (Proc.devRef .tc main_arg3) = V (Proc.devRef .tc main_arg3) :=
  after_of_forall_not_mem _ _ (List.forall_iff_forall_mem.mp Fr.hostOps1_2_nw3)
theorem s3_v8 : after (hostOps1_2 (F := F)) V (Proc.devRef .tc main_v8) = V (Proc.devRef .tc main_v8) := by
  simp only [hostOps1_2]; after_results
theorem s3_v25 : after (hostOps1_2 (F := F)) V (Proc.devRef .tc main_v25) = V (Proc.devRef .tc main_v25) := by
  simp only [hostOps1_2]; after_results
theorem s3_v26 : after (hostOps1_2 (F := F)) V (Proc.devRef .tc main_v26) = V (Proc.devRef .tc main_v26) := by
  simp only [hostOps1_2]; after_results
theorem s3_v27 : after (hostOps1_2 (F := F)) V (Proc.devRef .tc main_v27) = V (Proc.devRef .tc main_v27) := by
  simp only [hostOps1_2]; after_results

/-! ### The look-ups, the sign and the absolute difference -/

theorem s4_v44 : after (hostOps1_3 (F := F)) V (Proc.devRef .tc main_v44)
    = sgn (V (Proc.devRef .tc main_arg2)) (V (Proc.devRef .tc main_v28)) (V (Proc.devRef .tc main_arg3)) := by
  simp only [hostOps1_3]
  after_results_simp
  rfl

theorem s4_v46 : after (hostOps1_3 (F := F)) V (Proc.devRef .tc main_v46)
    = absd (V (Proc.devRef .tc main_arg2)) (V (Proc.devRef .tc main_v28)) (V (Proc.devRef .tc main_arg3)) := by
  simp only [hostOps1_3]
  after_results_simp
  rfl

theorem s4_v48 : after (hostOps1_3 (F := F)) V (Proc.devRef .tc main_v48)
    = isZero (V (Proc.devRef .tc main_arg2)) (V (Proc.devRef .tc main_v28)) (V (Proc.devRef .tc main_arg3)) := by
  simp only [hostOps1_3]
  after_results_simp
  rfl

theorem s4_v49 : after (hostOps1_3 (F := F)) V (Proc.devRef .tc main_v49) = ones := by
  simp only [hostOps1_3]
  after_results_simp
  rfl

theorem s4_v8 : after (hostOps1_3 (F := F)) V (Proc.devRef .tc main_v8) = V (Proc.devRef .tc main_v8) := by
  simp only [hostOps1_3]; after_results_simp
theorem s4_v25 : after (hostOps1_3 (F := F)) V (Proc.devRef .tc main_v25) = V (Proc.devRef .tc main_v25) := by
  simp only [hostOps1_3]; after_results_simp
theorem s4_v26 : after (hostOps1_3 (F := F)) V (Proc.devRef .tc main_v26) = V (Proc.devRef .tc main_v26) := by
  simp only [hostOps1_3]; after_results_simp
theorem s4_v27 : after (hostOps1_3 (F := F)) V (Proc.devRef .tc main_v27) = V (Proc.devRef .tc main_v27) := by
  simp only [hostOps1_3]; after_results_simp

/-! ### The guarded divisor -/

theorem s5_v50 : after (hostOps1_4 (F := F)) V (Proc.devRef .tc main_v50)
    = select (V (Proc.devRef .tc main_v48)) (V (Proc.devRef .tc main_v49)) (V (Proc.devRef .tc main_v44)) := by
  simp only [hostOps1_4]
  after_results
  (try simp only [TRef.ofBuf, TRef.toBuf, cast_eq])
  (try rfl)

theorem s5_v8 : after (hostOps1_4 (F := F)) V (Proc.devRef .tc main_v8) = V (Proc.devRef .tc main_v8) := by
  simp only [hostOps1_4]; after_results
theorem s5_v25 : after (hostOps1_4 (F := F)) V (Proc.devRef .tc main_v25) = V (Proc.devRef .tc main_v25) := by
  simp only [hostOps1_4]; after_results
theorem s5_v26 : after (hostOps1_4 (F := F)) V (Proc.devRef .tc main_v26) = V (Proc.devRef .tc main_v26) := by
  simp only [hostOps1_4]; after_results
theorem s5_v27 : after (hostOps1_4 (F := F)) V (Proc.devRef .tc main_v27) = V (Proc.devRef .tc main_v27) := by
  simp only [hostOps1_4]; after_results
theorem s5_v44 : after (hostOps1_4 (F := F)) V (Proc.devRef .tc main_v44) = V (Proc.devRef .tc main_v44) := by
  simp only [hostOps1_4]; after_results
theorem s5_v46 : after (hostOps1_4 (F := F)) V (Proc.devRef .tc main_v46) = V (Proc.devRef .tc main_v46) := by
  simp only [hostOps1_4]; after_results

/-! ### The last stretch -/

theorem s6_v63 : after (hostOps1_5 (F := F)) V (Proc.devRef .tc main_v63)
    = combine (V (Proc.devRef .tc main_v8))
        (hinge (V (Proc.devRef .tc main_v26)) (V (Proc.devRef .tc main_v27)) (V (Proc.devRef .tc main_v44))
          (V (Proc.devRef .tc main_v46)) (V (Proc.devRef .tc main_v50)))
        (V (Proc.devRef .tc main_v25)) := by
  simp only [hostOps1_5]
  after_results_simp
  rfl

end Stretches

end TailS

/-! ## The stretches composed -/

/-- The six stretches run in order from any contents 'W' leave 'tail' of what 'W' held in the three arrays of the
    pipeline and the three argument arrays in the result buffer. -/
theorem tail_of (W : Valuation τ sig (Elt F)) :
    after ((hostOps1 (F := F)) ++ (hostOps1_1 ++ (hostOps1_2 ++ (hostOps1_3 ++ (hostOps1_4 ++ hostOps1_5))))) W (Proc.devRef .tc main_v63)
      = tail (W (Proc.devRef .tc main_v1_0)) (colsumK (W (Proc.devRef .tc main_v1_2))) (confK (W (Proc.devRef .tc main_v1_1)))
          (W (Proc.devRef .tc main_arg1)) (W (Proc.devRef .tc main_arg2)) (W (Proc.devRef .tc main_arg3)) := by
  rw [StableHlo.after_append, StableHlo.after_append, StableHlo.after_append, StableHlo.after_append, StableHlo.after_append]
  rw [s6_v63]
  rw [s5_v50, s5_v8, s5_v25, s5_v26, s5_v27, s5_v44, s5_v46]
  rw [s4_v44, s4_v46, s4_v48, s4_v49, s4_v8, s4_v25, s4_v26, s4_v27]
  rw [s3_v28, s3_arg2, s3_arg3, s3_v8, s3_v25, s3_v26, s3_v27]
  rw [s2_v27, s2_arg2, s2_arg3, s2_v8, s2_v25, s2_v26]
  rw [s1_v8, s1_v25, s1_v26, s1_arg2, s1_arg3]
  unfold tail
  rw [lossRef_eq]

/-- The program's result after its host lines is the shared chain at the three arrays of the pipeline. -/
theorem tail_run (m : (ℓ : Loc nD τ sig) → Buf (Elt F) ℓ) (c : Dev nD) :
    Pipeline.afterTail₀ cfgs (Fr.dats m) 0 (Fr.V0 m) Fr.tailOps c main_v63
      = tail ((Fr.dats m 0 c).arrAt 2 cfg0.N) (colsumK ((Fr.dats m 0 c).arrAt 4 cfg0.N)) (confK ((Fr.dats m 0 c).arrAt 3 cfg0.N))
          (m ((c : Thread nD τ).loc main_arg1)) (m ((c : Thread nD τ).loc main_arg2)) (m ((c : Thread nD τ).loc main_arg3)) := by
  unfold Pipeline.afterTail₀
  simp only [Fr.tailOps, List.flatten_cons, List.flatten_nil, List.append_nil]
  refine (tail_of _).trans ?_
  exact tail_congr
    (Pipeline.withArrays_arr spec0 launch0.win.arr_inj c _ _ 2)
    (congrArg colsumK (Pipeline.withArrays_arr spec0 launch0.win.arr_inj c _ _ 4))
    (congrArg confK (Pipeline.withArrays_arr spec0 launch0.win.arr_inj c _ _ 3))
    ((Pipeline.withArrays_of_ne _ c (Fr.V0 m c) _ main_arg1 (by exact (by decide : ∀ w, Pipeline.arrRef spec0 w ≠ main_arg1))).trans (Fr.V_main_arg1 m c))
    ((Pipeline.withArrays_of_ne _ c (Fr.V0 m c) _ main_arg2 (by exact (by decide : ∀ w, Pipeline.arrRef spec0 w ≠ main_arg2))).trans (Fr.V_main_arg2 m c))
    ((Pipeline.withArrays_of_ne _ c (Fr.V0 m c) _ main_arg3 (by exact (by decide : ∀ w, Pipeline.arrRef spec0 w ≠ main_arg3))).trans (Fr.V_main_arg3 m c))

end Cert.KernelIdeal.Val

end
-- ==== Proof.KernelIdeal.Glue.lean ====
/-
  The kernel program's two small host steps between the region's result arrays and the shared tail, read at an
  index over the extended reals.

  The 16 × 32000 array of partial column sums is reshaped to 2 × 8 × 32000, row 0 of each core's eight is sliced out,
  and the two rows are added: per column, '0 + (core 0's row) + (core 1's row)', which is the sum over all 4096 rows
  of the probabilities.  The 4096 × 1 column of top probabilities is reshaped to a vector.
-/
import proofs.«406687_j326417515025_3_alg».proof.Proof.KernelIdeal.Arrays
import proofs.«406687_j326417515025_3_alg».proof.Proof.KernelIdeal.Tail
import Idealize.ShloMosaic.Lib.ValueLayout
import Idealize.ShloMosaic.PureOps.Ideal.Laws
import Mathlib.Algebra.BigOperators.Fin

set_option maxRecDepth 16384

noncomputable section

namespace Cert.KernelIdeal.Val

open Cert.KernelIdeal Cert.KernelIdeal.Gen Cert.KernelIdeal.Fr Cert.LibSoftmax
open Idealize.ShloMosaic Idealize.ShloMosaic.TcCoe Idealize.ShloMosaic.ValueIdx Idealize.SL.Sem

namespace Glue

/-! ## The layout steps at an index -/

section Layout
variable {α : Type}

/-- The 16 × 32000 array seen as 2 × 8 × 32000 reads, at (i, k, col), its row 8 i + k. -/
theorem cast_16_2x8_apply (A : S16x32000.Idx → α) (i : Fin 2) (k : Fin 8) (col : Fin 32000) :
    shapeCast S2x8x32000 A shapeCasts_S16x32000_S2x8x32000 (ix3 i k col)
      = A (ix2 (⟨8 * i.val + k.val, by omega⟩ : Fin 16) col) :=
  shapeCast_apply A _ _ _ (by
    rw [Shape.rowMajor_val_two, Shape.rowMajor_val_three]
    show (8 * i.val + k.val) * 32000 + col.val = (i.val * 8 + k.val) * 32000 + col.val
    omega)

/-- Row 0 of each group of eight, sliced out. -/
theorem slice_row0_apply (B : S2x8x32000.Idx → α) (i : Fin 2) (col : Fin 32000) :
    extractStridedSlice S2x1x32000 ![0, 0, 0] B slices_S2x8x32000_S2x1x32000_0_0_0 (ix3 i (0 : Fin 1) col)
      = B (ix3 i (0 : Fin 8) col) :=
  slice3_axis1_apply 0 B _ i (0 : Fin 1) col (0 : Fin 8) rfl

/-- The 2 × 1 × 32000 array seen as 2 × 32000. -/
theorem cast_2x1_2_apply (C : S2x1x32000.Idx → α) (i : Fin 2) (col : Fin 32000) :
    shapeCast S2x32000 C shapeCasts_S2x1x32000_S2x32000 (ix2 i col) = C (ix3 i (0 : Fin 1) col) :=
  shapeCast_apply C _ _ _ (by
    rw [Shape.rowMajor_val_three, Shape.rowMajor_val_two]
    show (i.val * 1 + 0) * 32000 + col.val = i.val * 32000 + col.val
    omega)

end Layout

/-- The source index over column 'col' with the row coordinate 'k' inserted is (k, col). -/
theorem lift2_col (h : S2x32000.Reduces [0] S32000) (col : Fin 32000) (k : Fin 2) : h.lift (ix1 col) k = ix2 k col :=
  funext fun d => Fin.ext <| match d with | ⟨0, _⟩ => rfl | ⟨1, _⟩ => rfl

/-- The host's sum of the two rows from zero, at a column. -/
theorem reduce2_apply (v : S2x32000.Idx → EReal) (col : Fin 32000) :
    Host.reduceAdd (F := Ideal) v (constant S_ .f32 0x00000000#32) reducesTo_S2x32000_S32000_d0 h_S_ (ix1 col)
      = v (ix2 (0 : Fin 2) col) + v (ix2 (1 : Fin 2) col) := by
  simp only [Host.reduceAdd, Ideal.hostReduceAdd_def]
  rw [Ideal.hostReduceAdd_single reducesTo_S2x32000_S32000_d0 (by decide)]
  have h0 : constant (F := Ideal) S_ .f32 0x00000000#32 (Shape.Idx.first h_S_) = (0 : EReal) := Ideal.ofBits_zero_f32
  rw [h0, zero_add]
  exact (Finset.sum_congr rfl fun k _ => congrArg v (lift2_col _ col k)).trans
    (Fin.sum_univ_two fun k : Fin 2 => v (ix2 k col))

/-- The folded column sums at a column: rows 0 and 8 of the 16 × 32000 array, added. -/
theorem colsumK_apply (A : S16x32000.Idx → EReal) (col : Fin 32000) :
    colsumK (F := Ideal) A (ix1 col)
      = A (ix2 (⟨8 * (0 : Fin 2).val + (0 : Fin 8).val, by omega⟩ : Fin 16) col)
        + A (ix2 (⟨8 * (1 : Fin 2).val + (0 : Fin 8).val, by omega⟩ : Fin 16) col) := by
  unfold colsumK
  dsimp only
  rw [reduce2_apply, cast_2x1_2_apply, cast_2x1_2_apply, slice_row0_apply, slice_row0_apply,
    cast_16_2x8_apply, cast_16_2x8_apply]

/-- The probability of column 'col' in row 'R' of the logits. -/
def prob (x : S4096x32000.Idx → EReal) (col : Fin 32000) (R : Fin 4096) : EReal :=
  Ideal.exp (shifted (Cert.Spec.rowOf x R) col) * Ideal.div 1 (sumExp (Cert.Spec.rowOf x R))

/-- A sum over the 4096 rows is the sum over the first core's 2048 rows plus the sum over the second's. -/
theorem sum_4096 (g : Fin 4096 → EReal) :
    (∑ R : Fin 4096, g R)
      = (∑ R' : Fin 2048, g ⟨2048 * (0 : Fin 2).val + R'.val, by omega⟩)
        + ∑ R' : Fin 2048, g ⟨2048 * (1 : Fin 2).val + R'.val, by omega⟩ := by
  refine (Fin.sum_univ_add (a := 2048) (b := 2048) g).trans (congrArg₂ (fun a b : EReal => a + b) ?_ ?_)
  · refine Finset.sum_congr rfl fun R' _ => congrArg g (Fin.ext ?_)
    show R'.val = 2048 * 0 + R'.val
    omega
  · refine Finset.sum_congr rfl fun R' _ => congrArg g (Fin.ext ?_)
    show 2048 + R'.val = 2048 * 1 + R'.val
    omega

end Glue

variable (m : (ℓ : Loc nD τ sig) → Buf (Elt Ideal) ℓ)

/-- The column sums the tail receives are the specification's. -/
theorem colsumK_final (c : Dev nD) :
    colsumK (F := Ideal) ((dats m 0 c).arrAt 4 cfg0.N) = Cert.Spec.csSpec (X m c) := by
  funext j
  obtain ⟨col, rfl⟩ : ∃ col : Fin 32000, j = ix1 col := ⟨j 0, eq_ix1 j⟩
  have h0 : ((dats m 0 c).arrAt 4 cfg0.N : S16x32000.Idx → EReal) (ix2 (⟨8 * (0 : Fin 2).val + (0 : Fin 8).val, by omega⟩ : Fin 16) col)
      = ∑ R' : Fin 2048, Glue.prob (X m c) col ⟨2048 * (0 : Fin 2).val + R'.val, by omega⟩ :=
    (cs_final m c (0 : Fin 2) (0 : Fin 8) col).trans (if_pos rfl)
  have h1 : ((dats m 0 c).arrAt 4 cfg0.N : S16x32000.Idx → EReal) (ix2 (⟨8 * (1 : Fin 2).val + (0 : Fin 8).val, by omega⟩ : Fin 16) col)
      = ∑ R' : Fin 2048, Glue.prob (X m c) col ⟨2048 * (1 : Fin 2).val + R'.val, by omega⟩ :=
    (cs_final m c (1 : Fin 2) (0 : Fin 8) col).trans (if_pos rfl)
  refine (Glue.colsumK_apply ((dats m 0 c).arrAt 4 cfg0.N) col).trans ?_
  refine (congrArg₂ (fun a b : EReal => a + b) h0 h1).trans ?_
  exact (Glue.sum_4096 (Glue.prob (X m c) col)).symm

/-- The top probabilities the tail receives are the specification's. -/
theorem confK_final (c : Dev nD) :
    confK (F := Ideal) ((dats m 0 c).arrAt 3 cfg0.N) = Cert.Spec.confSpec (X m c) := by
  funext j
  obtain ⟨R, rfl⟩ : ∃ R : Fin 4096, j = ix1 R := ⟨j 0, eq_ix1 j⟩
  unfold confK
  refine (shapeCast_apply _ _ (ix1 R) (ix2 R (0 : Fin 1)) ?_).trans (conf_final m c R)
  rw [Shape.rowMajor_val_two, Shape.rowMajor_val_one]
  show R.val * 1 + 0 = R.val
  omega

end Cert.KernelIdeal.Val

end
-- ==== Proof.RefSegments.lean ====
/-
  The reference's run, read over three stretches of its 125 operations.

  The operation list is cut where the shared tail takes its inputs:
    first stretch  = operations 0 … 37    log_softmax (`main_v0`, 4096 × 32000) and take_along_axis: the label's
                                          log-probability `main_v2` (4096 × 1);
    second stretch = operations 38 … 72   the mean of `main_v2`, negated: `main_v5` (38 … 42); the probabilities
                                          `main_v6 = exp main_v0` and their column sums `main_v7` (43 … 45); the
                                          calibration loss `main_v24` (46 … 70); the rows' top probability `main_v25`
                                          (71 … 72);
    third stretch  = operations 73 … 124  the ranking loss `main_v58` and the final sum `main_v62`.
  Each buffer is written once, so the final contents of each stretch's outputs are functions of the contents its inputs
  had when the stretch began; composing the three gives the result as the tail's functions of `main_v2`, `main_v7`,
  `main_v25` and the arguments, and those three as the staged values of the read module.
-/
import proofs.«406687_j326417515025_3_alg».proof.Proof.RefRead
import Idealize.ShloMosaic.Lib.StableHlo.Run
import Idealize.ShloMosaic.Lib.Pipeline.Frame

set_option maxRecDepth 16384

noncomputable section

namespace Cert.ReferenceIdeal.RefVal

open Cert.ReferenceIdeal Cert.ReferenceIdeal.Gen
open Idealize.ShloMosaic Idealize.ShloMosaic.TcCoe Idealize.SL.Sem Idealize.ShloMosaic.StableHlo

variable {F : FTy → Type} [FloatOps F]

/-- The device's buffer contents after all of @main's operations, from the launch contents. -/
abbrev Wf (m : (ℓ : Loc nD τ sig) → Buf (Elt F) ℓ) (c : Dev nD) : Valuation τ sig (Elt F) :=
  StableHlo.after (Cert.ReferenceIdeal.ValueP.ops (F := F)) (fun b => m (c, b))

/-- The mean of the label log-probabilities, negated (operations 38 … 42 as a function of `main_v2`). -/
def lossClsR (X : (⟨S4096x1, .f32⟩ : BufTy).Contents (Elt F)) : (⟨S_, .f32⟩ : BufTy).Contents (Elt F) :=
  have cst : (⟨S_, .f32⟩ : BufTy).Contents (Elt F) := constant S_ .f32 0x00000000#32
  have v3 : (⟨S_, .f32⟩ : BufTy).Contents (Elt F) := Host.reduceAdd X cst reducesTo_S4096x1_S_d0_1 h_S_
  have cst_0 : (⟨S_, .f32⟩ : BufTy).Contents (Elt F) := constant S_ .f32 0x45800000#32
  have v4 : (⟨S_, .f32⟩ : BufTy).Contents (Elt F) := Host.divf v3 cst_0
  have v5 : (⟨S_, .f32⟩ : BufTy).Contents (Elt F) := Host.negf v4
  v5

/-- The calibration loss (operations 46 … 70 as a function of `main_v7` and the labels). -/
def lossCalR (Y : (⟨S32000, .f32⟩ : BufTy).Contents (Elt F)) (a1 : (⟨S4096, .i32⟩ : BufTy).Contents (Elt F)) :
    (⟨S_, .f32⟩ : BufTy).Contents (Elt F) :=
  have cst_2 : (⟨S_, .f32⟩ : BufTy).Contents (Elt F) := constant S_ .f32 0x45800000#32
  have v8 : (⟨S32000, .f32⟩ : BufTy).Contents (Elt F) := broadcastInDim S32000 ![] bcast_S_S32000 cst_2
  have v9 : (⟨S32000, .f32⟩ : BufTy).Contents (Elt F) := Host.divf Y v8
  have cst_3 : (⟨S_, .f32⟩ : BufTy).Contents (Elt F) := constant S_ .f32 0x00000000#32
  have v10 : (⟨S32000, .f32⟩ : BufTy).Contents (Elt F) := broadcastInDim S32000 ![] bcast_S_S32000 cst_3
  have c_ : (⟨S_, .i32⟩ : BufTy).Contents (Elt F) := constantI S_ 32 0#32
  have v11 : (⟨S4096, .i32⟩ : BufTy).Contents (Elt F) := broadcastInDim S4096 ![] bcast_S_S4096 c_
  have v12 : (⟨S4096, .i1⟩ : BufTy).Contents (Elt F) := cmpi .slt a1 v11
  have c_4 : (⟨S_, .i32⟩ : BufTy).Contents (Elt F) := constantI S_ 32 32000#32
  have v13 : (⟨S4096, .i32⟩ : BufTy).Contents (Elt F) := broadcastInDim S4096 ![] bcast_S_S4096 c_4
  have v14 : (⟨S4096, .i32⟩ : BufTy).Contents (Elt F) := addi a1 v13
  have v15 : (⟨S4096, .i32⟩ : BufTy).Contents (Elt F) := select v12 v14 a1
  have v16 : (⟨S4096x1, .i32⟩ : BufTy).Contents (Elt F) := broadcastInDim S4096x1 ![0] bcast_S4096_S4096x1_0 v15
  have cst_5 : (⟨S_, .f32⟩ : BufTy).Contents (Elt F) := constant S_ .f32 0x3F800000#32
  have v17 : (⟨S4096, .f32⟩ : BufTy).Contents (Elt F) := broadcastInDim S4096 ![] bcast_S_S4096 cst_5
  have v18 : (⟨S32000, .f32⟩ : BufTy).Contents (Elt F) := Host.scatterAdd scatter_S32000_S4096x1_S4096_n_0_0_1 v10 v16 v17
  have cst_6 : (⟨S_, .f32⟩ : BufTy).Contents (Elt F) := constant S_ .f32 0x45800000#32
  have v19 : (⟨S32000, .f32⟩ : BufTy).Contents (Elt F) := broadcastInDim S32000 ![] bcast_S_S32000 cst_6
  have v20 : (⟨S32000, .f32⟩ : BufTy).Contents (Elt F) := Host.divf v18 v19
  have v21 : (⟨S32000, .f32⟩ : BufTy).Contents (Elt F) := subf v9 v20
  have v22 : (⟨S32000, .f32⟩ : BufTy).Contents (Elt F) := Host.absf v21
  have cst_7 : (⟨S_, .f32⟩ : BufTy).Contents (Elt F) := constant S_ .f32 0x00000000#32
  have v23 : (⟨S_, .f32⟩ : BufTy).Contents (Elt F) := Host.reduceAdd v22 cst_7 reducesTo_S32000_S_d0 h_S_
  have cst_8 : (⟨S_, .f32⟩ : BufTy).Contents (Elt F) := constant S_ .f32 0x46FA0000#32
  have v24 : (⟨S_, .f32⟩ : BufTy).Contents (Elt F) := Host.divf v23 cst_8
  v24

/-- The ranking loss (operations 73 … 118 as a function of `main_v25`, the sample indices and the history table). -/
def lossRefR (Z : (⟨S4096, .f32⟩ : BufTy).Contents (Elt F)) (a2 : (⟨S4096, .i32⟩ : BufTy).Contents (Elt F))
    (a3 : (⟨S50000, .f32⟩ : BufTy).Contents (Elt F)) : (⟨S_, .f32⟩ : BufTy).Contents (Elt F) :=
  have call2_v0 : (⟨S4095, .f32⟩ : BufTy).Contents (Elt F) := extractStridedSlice S4095 ![1] Z slices_S4096_S4095_1
  have call2_v1 : (⟨S1, .f32⟩ : BufTy).Contents (Elt F) := extractStridedSlice S1 ![0] Z slices_S4096_S1_0
  have v26 : (⟨S4096, .f32⟩ : BufTy).Contents (Elt F) := concatenate S4096 0 [⟨S4095, call2_v0⟩, ⟨S1, call2_v1⟩] concatenates_S4095_S1_S4096_d0
  have call3_v0 : (⟨S4095, .i32⟩ : BufTy).Contents (Elt F) := extractStridedSlice S4095 ![1] a2 slices_S4096_S4095_1
  have call3_v1 : (⟨S1, .i32⟩ : BufTy).Contents (Elt F) := extractStridedSlice S1 ![0] a2 slices_S4096_S1_0
  have v27 : (⟨S4096, .i32⟩ : BufTy).Contents (Elt F) := concatenate S4096 0 [⟨S4095, call3_v0⟩, ⟨S1, call3_v1⟩] concatenates_S4095_S1_S4096_d0
  have c_10 : (⟨S_, .i32⟩ : BufTy).Contents (Elt F) := constantI S_ 32 0#32
  have v28 : (⟨S4096, .i32⟩ : BufTy).Contents (Elt F) := broadcastInDim S4096 ![] bcast_S_S4096 c_10
  have v29 : (⟨S4096, .i1⟩ : BufTy).Contents (Elt F) := cmpi .slt a2 v28
  have c_11 : (⟨S_, .i32⟩ : BufTy).Contents (Elt F) := constantI S_ 32 50000#32
  have v30 : (⟨S4096, .i32⟩ : BufTy).Contents (Elt F) := broadcastInDim S4096 ![] bcast_S_S4096 c_11
  have v31 : (⟨S4096, .i32⟩ : BufTy).Contents (Elt F) := addi a2 v30
  have v32 : (⟨S4096, .i32⟩ : BufTy).Contents (Elt F) := select v29 v31 a2
  have v33 : (⟨S4096x1, .i32⟩ : BufTy).Contents (Elt F) := broadcastInDim S4096x1 ![0] bcast_S4096_S4096x1_0 v32
  have v34 : (⟨S4096, .f32⟩ : BufTy).Contents (Elt F) := Host.gather gather_S50000_S4096x1_S4096_n_0_n_n_0_1_1 a3 v33
  have c_12 : (⟨S_, .i32⟩ : BufTy).Contents (Elt F) := constantI S_ 32 0#32
  have v35 : (⟨S4096, .i32⟩ : BufTy).Contents (Elt F) := broadcastInDim S4096 ![] bcast_S_S4096 c_12
  have v36 : (⟨S4096, .i1⟩ : BufTy).Contents (Elt F) := cmpi .slt v27 v35
  have c_13 : (⟨S_, .i32⟩ : BufTy).Contents (Elt F) := constantI S_ 32 50000#32
  have v37 : (⟨S4096, .i32⟩ : BufTy).Contents (Elt F) := broadcastInDim S4096 ![] bcast_S_S4096 c_13
  have v38 : (⟨S4096, .i32⟩ : BufTy).Contents (Elt F) := addi v27 v37
  have v39 : (⟨S4096, .i32⟩ : BufTy).Contents (Elt F) := select v36 v38 v27
  have v40 : (⟨S4096x1, .i32⟩ : BufTy).Contents (Elt F) := broadcastInDim S4096x1 ![0] bcast_S4096_S4096x1_0 v39
  have v41 : (⟨S4096, .f32⟩ : BufTy).Contents (Elt F) := Host.gather gather_S50000_S4096x1_S4096_n_0_n_n_0_1_1 a3 v40
  have v42 : (⟨S4096, .f32⟩ : BufTy).Contents (Elt F) := subf v34 v41
  have v43 : (⟨S4096, .f32⟩ : BufTy).Contents (Elt F) := Host.sign v42
  have v44 : (⟨S4096, .f32⟩ : BufTy).Contents (Elt F) := subf v34 v41
  have v45 : (⟨S4096, .f32⟩ : BufTy).Contents (Elt F) := Host.absf v44
  have cst_14 : (⟨S_, .f32⟩ : BufTy).Contents (Elt F) := constant S_ .f32 0x00000000#32
  have v46 : (⟨S4096, .f32⟩ : BufTy).Contents (Elt F) := broadcastInDim S4096 ![] bcast_S_S4096 cst_14
  have v47 : (⟨S4096, .i1⟩ : BufTy).Contents (Elt F) := cmpf .oeq v43 v46
  have cst_15 : (⟨S_, .f32⟩ : BufTy).Contents (Elt F) := constant S_ .f32 0x3F800000#32
  have v48 : (⟨S4096, .f32⟩ : BufTy).Contents (Elt F) := broadcastInDim S4096 ![] bcast_S_S4096 cst_15
  have v49 : (⟨S4096, .f32⟩ : BufTy).Contents (Elt F) := select v47 v48 v43
  have v50 : (⟨S4096, .f32⟩ : BufTy).Contents (Elt F) := Host.divf v45 v49
  have v51 : (⟨S4096, .f32⟩ : BufTy).Contents (Elt F) := addf v26 v50
  have v52 : (⟨S4096, .f32⟩ : BufTy).Contents (Elt F) := Host.negf v43
  have v53 : (⟨S4096, .f32⟩ : BufTy).Contents (Elt F) := subf Z v51
  have v54 : (⟨S4096, .f32⟩ : BufTy).Contents (Elt F) := mulf v52 v53
  have cst_16 : (⟨S_, .f32⟩ : BufTy).Contents (Elt F) := constant S_ .f32 0x00000000#32
  have v55 : (⟨S4096, .f32⟩ : BufTy).Contents (Elt F) := broadcastInDim S4096 ![] bcast_S_S4096 cst_16
  have v56 : (⟨S4096, .f32⟩ : BufTy).Contents (Elt F) := maximumf v55 v54
  have cst_17 : (⟨S_, .f32⟩ : BufTy).Contents (Elt F) := constant S_ .f32 0x00000000#32
  have v57 : (⟨S_, .f32⟩ : BufTy).Contents (Elt F) := Host.reduceAdd v56 cst_17 reducesTo_S4096_S_d0 h_S_
  have cst_18 : (⟨S_, .f32⟩ : BufTy).Contents (Elt F) := constant S_ .f32 0x45800000#32
  have v58 : (⟨S_, .f32⟩ : BufTy).Contents (Elt F) := Host.divf v57 cst_18
  v58

/-- The three losses summed with unit weights (operations 119 … 124). -/
def combineR (lc lr lk : (⟨S_, .f32⟩ : BufTy).Contents (Elt F)) : (⟨S_, .f32⟩ : BufTy).Contents (Elt F) :=
  have cst_19 : (⟨S_, .f32⟩ : BufTy).Contents (Elt F) := constant S_ .f32 0x3F800000#32
  have v59 : (⟨S_, .f32⟩ : BufTy).Contents (Elt F) := mulf cst_19 lr
  have v60 : (⟨S_, .f32⟩ : BufTy).Contents (Elt F) := addf lc v59
  have cst_20 : (⟨S_, .f32⟩ : BufTy).Contents (Elt F) := constant S_ .f32 0x3F800000#32
  have v61 : (⟨S_, .f32⟩ : BufTy).Contents (Elt F) := mulf cst_20 lk
  have v62 : (⟨S_, .f32⟩ : BufTy).Contents (Elt F) := addf v60 v61
  v62

/-! ## The run -/

/-- No operation allocates: each determines what it writes. -/
theorem ops_fresh : ∀ op ∈ (Cert.ReferenceIdeal.ValueP.ops (F := F)), op.fresh = ∅ :=
  List.forall_iff_forall_mem.mp (by simp only [List.Forall]; repeat' constructor)

/-- A reference other than the 121 the operations write is written by none of them. -/
local macro "not_written" : tactic =>
  `(tactic| (refine List.forall_iff_forall_mem.mp ?_
             simp only [List.Forall, TRef.nullary, TRef.unary, TRef.binary, TRef.ternary, TRef.reshape, TRef.of,
               StableHlo.nullary_writes, StableHlo.unary_writes, StableHlo.binary_writes, StableHlo.ternary_writes,
               StableHlo.reshape_writes, Finset.mem_singleton]
             repeat' apply And.intro
             all_goals exact StableHlo.devRef_ne_of_ne (by decide)))

theorem arg0_kept (V : Valuation τ sig (Elt F)) :
    StableHlo.after (Cert.ReferenceIdeal.ValueP.ops (F := F)) V (Proc.devRef .tc main_arg0) = V (Proc.devRef .tc main_arg0) :=
  StableHlo.after_of_forall_not_mem _ _ (by not_written)
theorem arg1_kept (V : Valuation τ sig (Elt F)) :
    StableHlo.after (Cert.ReferenceIdeal.ValueP.ops (F := F)) V (Proc.devRef .tc main_arg1) = V (Proc.devRef .tc main_arg1) :=
  StableHlo.after_of_forall_not_mem _ _ (by not_written)
theorem arg2_kept (V : Valuation τ sig (Elt F)) :
    StableHlo.after (Cert.ReferenceIdeal.ValueP.ops (F := F)) V (Proc.devRef .tc main_arg2) = V (Proc.devRef .tc main_arg2) :=
  StableHlo.after_of_forall_not_mem _ _ (by not_written)
theorem arg3_kept (V : Valuation τ sig (Elt F)) :
    StableHlo.after (Cert.ReferenceIdeal.ValueP.ops (F := F)) V (Proc.devRef .tc main_arg3) = V (Proc.devRef .tc main_arg3) :=
  StableHlo.after_of_forall_not_mem _ _ (by not_written)

/-- Every weakly fair execution of the reference terminates without a fault with its result buffer at the final
    contents `Wf` and its four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = Wf m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v62,
      (h c main_arg0).trans (arg0_kept _),
      (h c main_arg1).trans (arg1_kept _),
      (h c main_arg2).trans (arg2_kept _),
      (h c main_arg3).trans (arg3_kept _)⟩)
    (run_seq Cert.ReferenceIdeal.ValueP.scopedRefs_eq Cert.ReferenceIdeal.ValueP.scopedSems_eq defs main (fun _ => Cert.ReferenceIdeal.ValueP.ops) Cert.ReferenceIdeal.ValueP.main_eq
      (fun _ => Cert.ReferenceIdeal.ValueP.ops_sub) m ρ (fun _ => ops_fresh))

/-! ## Typed references' transports -/

/-- Contents moved to a typed reference's buffer and back are the contents. -/
theorem ofBuf_toBuf {T : BufTy} (x : TRef sig T) (v : T.Contents (Elt F)) : x.ofBuf (x.toBuf v) = v := by
  obtain ⟨r, rfl, _, _⟩ := x
  rfl

/-! ## The operation list in three stretches -/

/-- Operations 0 … 37: log_softmax and take_along_axis. -/
abbrev segA : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf,
    unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x32000, .f32⟩) main_v0) (TRef.of (T := ⟨S4096x1x1, .i32⟩) main_call1_v5) (TRef.of (T := ⟨S4096x1, .f32⟩) main_call1_v13) (fun x i => Host.gather gather_S4096x32000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- Operations 38 … 72: the mean of the label log-probabilities, the probabilities with their column sums, the calibration
    loss, the rows' top probability. -/
abbrev segM : List (HloOp τ sig (Elt F)) :=
  [ nullary main_cst (constant S_ .f32 0x00000000#32),
    binary main_v2 main_cst main_v3 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_0 (constant S_ .f32 0x45800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    unary main_v0 main_v6 (Host.exp : (⟨S4096x32000, .f32⟩ : BufTy).Contents (Elt F) → (⟨S4096x32000, .f32⟩ : BufTy).Contents (Elt F)),
    nullary main_cst_1 (constant S_ .f32 0x00000000#32),
    binary main_v6 main_cst_1 main_v7 ((fun x v => Host.reduceAdd x v reducesTo_S4096x32000_S32000_d0 h_S_) : (⟨S4096x32000, .f32⟩ : BufTy).Contents (Elt F) → (⟨S_, .f32⟩ : BufTy).Contents (Elt F) → (⟨S32000, .f32⟩ : BufTy).Contents (Elt F)),
    nullary main_cst_2 (constant S_ .f32 0x45800000#32),
    unary main_cst_2 main_v8 (broadcastInDim S32000 ![] bcast_S_S32000 : (⟨S_, .f32⟩ : BufTy).Contents (Elt F) → (⟨S32000, .f32⟩ : BufTy).Contents (Elt F)),
    binary main_v7 main_v8 main_v9 (Host.divf : (⟨S32000, .f32⟩ : BufTy).Contents (Elt F) → (⟨S32000, .f32⟩ : BufTy).Contents (Elt F) → (⟨S32000, .f32⟩ : BufTy).Contents (Elt F)),
    nullary main_cst_3 (constant S_ .f32 0x00000000#32),
    unary main_cst_3 main_v10 (broadcastInDim S32000 ![] bcast_S_S32000 : (⟨S_, .f32⟩ : BufTy).Contents (Elt F) → (⟨S32000, .f32⟩ : BufTy).Contents (Elt F)),
    nullary main_c (constantI S_ 32 0#32),
    unary main_c main_v11 (broadcastInDim S4096 ![] bcast_S_S4096 : (⟨S_, .i32⟩ : BufTy).Contents (Elt F) → (⟨S4096, .i32⟩ : BufTy).Contents (Elt F)),
    binary main_arg1 main_v11 main_v12 (cmpi .slt : (⟨S4096, .i32⟩ : BufTy).Contents (Elt F) → (⟨S4096, .i32⟩ : BufTy).Contents (Elt F) → (⟨S4096, .i1⟩ : BufTy).Contents (Elt F)),
    nullary main_c_4 (constantI S_ 32 32000#32),
    unary main_c_4 main_v13 (broadcastInDim S4096 ![] bcast_S_S4096 : (⟨S_, .i32⟩ : BufTy).Contents (Elt F) → (⟨S4096, .i32⟩ : BufTy).Contents (Elt F)),
    binary main_arg1 main_v13 main_v14 (addi : (⟨S4096, .i32⟩ : BufTy).Contents (Elt F) → (⟨S4096, .i32⟩ : BufTy).Contents (Elt F) → (⟨S4096, .i32⟩ : BufTy).Contents (Elt F)),
    ternary main_v12 main_v14 main_arg1 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v15 main_v16 (broadcastInDim S4096x1 ![0] bcast_S4096_S4096x1_0 : (⟨S4096, .i32⟩ : BufTy).Contents (Elt F) → (⟨S4096x1, .i32⟩ : BufTy).Contents (Elt F)),
    nullary main_cst_5 (constant S_ .f32 0x3F800000#32),
    unary main_cst_5 main_v17 (broadcastInDim S4096 ![] bcast_S_S4096 : (⟨S_, .f32⟩ : BufTy).Contents (Elt F) → (⟨S4096, .f32⟩ : BufTy).Contents (Elt F)),
    ternary main_v10 main_v16 main_v17 main_v18 ((fun x i u => Host.scatterAdd scatter_S32000_S4096x1_S4096_n_0_0_1 x i u) : (⟨S32000, .f32⟩ : BufTy).Contents (Elt F) → (⟨S4096x1, .i32⟩ : BufTy).Contents (Elt F) → (⟨S4096, .f32⟩ : BufTy).Contents (Elt F) → (⟨S32000, .f32⟩ : BufTy).Contents (Elt F)),
    nullary main_cst_6 (constant S_ .f32 0x45800000#32),
    unary main_cst_6 main_v19 (broadcastInDim S32000 ![] bcast_S_S32000 : (⟨S_, .f32⟩ : BufTy).Contents (Elt F) → (⟨S32000, .f32⟩ : BufTy).Contents (Elt F)),
    binary main_v18 main_v19 main_v20 (Host.divf : (⟨S32000, .f32⟩ : BufTy).Contents (Elt F) → (⟨S32000, .f32⟩ : BufTy).Contents (Elt F) → (⟨S32000, .f32⟩ : BufTy).Contents (Elt F)),
    binary main_v9 main_v20 main_v21 (subf : (⟨S32000, .f32⟩ : BufTy).Contents (Elt F) → (⟨S32000, .f32⟩ : BufTy).Contents (Elt F) → (⟨S32000, .f32⟩ : BufTy).Contents (Elt F)),
    unary main_v21 main_v22 (Host.absf : (⟨S32000, .f32⟩ : BufTy).Contents (Elt F) → (⟨S32000, .f32⟩ : BufTy).Contents (Elt F)),
    nullary main_cst_7 (constant S_ .f32 0x00000000#32),
    binary main_v22 main_cst_7 main_v23 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    nullary main_cst_8 (constant S_ .f32 0x46FA0000#32),
    binary main_v23 main_cst_8 main_v24 (Host.divf : (⟨S_, .f32⟩ : BufTy).Contents (Elt F) → (⟨S_, .f32⟩ : BufTy).Contents (Elt F) → (⟨S_, .f32⟩ : BufTy).Contents (Elt F)),
    nullary main_cst_9 (constant S_ .f32 0xFF800000#32),
    binary main_v6 main_cst_9 main_v25 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)) ]

/-- Operations 73 … 124: the ranking loss and the final sum. -/
abbrev segG : List (HloOp τ sig (Elt F)) :=
  [ TRef.unary (TRef.of (T := ⟨S4096, .f32⟩) main_v25) (TRef.of (T := ⟨S4095, .f32⟩) main_call2_v0) (extractStridedSlice S4095 ![1] · slices_S4096_S4095_1),
    TRef.unary (TRef.of (T := ⟨S4096, .f32⟩) main_v25) (TRef.of (T := ⟨S1, .f32⟩) main_call2_v1) (extractStridedSlice S1 ![0] · slices_S4096_S1_0),
    TRef.binary (TRef.of (T := ⟨S4095, .f32⟩) main_call2_v0) (TRef.of (T := ⟨S1, .f32⟩) main_call2_v1) (TRef.of (T := ⟨S4096, .f32⟩) main_v26) (fun a b => concatenate S4096 0 [⟨S4095, a⟩, ⟨S1, b⟩] concatenates_S4095_S1_S4096_d0),
    TRef.unary (TRef.of (T := ⟨S4096, .i32⟩) main_arg2) (TRef.of (T := ⟨S4095, .i32⟩) main_call3_v0) (extractStridedSlice S4095 ![1] · slices_S4096_S4095_1),
    TRef.unary (TRef.of (T := ⟨S4096, .i32⟩) main_arg2) (TRef.of (T := ⟨S1, .i32⟩) main_call3_v1) (extractStridedSlice S1 ![0] · slices_S4096_S1_0),
    TRef.binary (TRef.of (T := ⟨S4095, .i32⟩) main_call3_v0) (TRef.of (T := ⟨S1, .i32⟩) main_call3_v1) (TRef.of (T := ⟨S4096, .i32⟩) main_v27) (fun a b => concatenate S4096 0 [⟨S4095, a⟩, ⟨S1, b⟩] concatenates_S4095_S1_S4096_d0),
    nullary main_c_10 (constantI S_ 32 0#32),
    unary main_c_10 main_v28 (broadcastInDim S4096 ![] bcast_S_S4096 : (⟨S_, .i32⟩ : BufTy).Contents (Elt F) → (⟨S4096, .i32⟩ : BufTy).Contents (Elt F)),
    binary main_arg2 main_v28 main_v29 (cmpi .slt : (⟨S4096, .i32⟩ : BufTy).Contents (Elt F) → (⟨S4096, .i32⟩ : BufTy).Contents (Elt F) → (⟨S4096, .i1⟩ : BufTy).Contents (Elt F)),
    nullary main_c_11 (constantI S_ 32 50000#32),
    unary main_c_11 main_v30 (broadcastInDim S4096 ![] bcast_S_S4096 : (⟨S_, .i32⟩ : BufTy).Contents (Elt F) → (⟨S4096, .i32⟩ : BufTy).Contents (Elt F)),
    binary main_arg2 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_arg2 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v32 main_v33 (broadcastInDim S4096x1 ![0] bcast_S4096_S4096x1_0 : (⟨S4096, .i32⟩ : BufTy).Contents (Elt F) → (⟨S4096x1, .i32⟩ : BufTy).Contents (Elt F)),
    binary main_arg3 main_v33 main_v34 ((fun x i => Host.gather gather_S50000_S4096x1_S4096_n_0_n_n_0_1_1 x i) : (⟨S50000, .f32⟩ : BufTy).Contents (Elt F) → (⟨S4096x1, .i32⟩ : BufTy).Contents (Elt F) → (⟨S4096, .f32⟩ : BufTy).Contents (Elt F)),
    nullary main_c_12 (constantI S_ 32 0#32),
    unary main_c_12 main_v35 (broadcastInDim S4096 ![] bcast_S_S4096 : (⟨S_, .i32⟩ : BufTy).Contents (Elt F) → (⟨S4096, .i32⟩ : BufTy).Contents (Elt F)),
    binary main_v27 main_v35 main_v36 (cmpi .slt : (⟨S4096, .i32⟩ : BufTy).Contents (Elt F) → (⟨S4096, .i32⟩ : BufTy).Contents (Elt F) → (⟨S4096, .i1⟩ : BufTy).Contents (Elt F)),
    nullary main_c_13 (constantI S_ 32 50000#32),
    unary main_c_13 main_v37 (broadcastInDim S4096 ![] bcast_S_S4096 : (⟨S_, .i32⟩ : BufTy).Contents (Elt F) → (⟨S4096, .i32⟩ : BufTy).Contents (Elt F)),
    binary main_v27 main_v37 main_v38 (addi : (⟨S4096, .i32⟩ : BufTy).Contents (Elt F) → (⟨S4096, .i32⟩ : BufTy).Contents (Elt F) → (⟨S4096, .i32⟩ : BufTy).Contents (Elt F)),
    ternary main_v36 main_v38 main_v27 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v39 main_v40 (broadcastInDim S4096x1 ![0] bcast_S4096_S4096x1_0 : (⟨S4096, .i32⟩ : BufTy).Contents (Elt F) → (⟨S4096x1, .i32⟩ : BufTy).Contents (Elt F)),
    binary main_arg3 main_v40 main_v41 ((fun x i => Host.gather gather_S50000_S4096x1_S4096_n_0_n_n_0_1_1 x i) : (⟨S50000, .f32⟩ : BufTy).Contents (Elt F) → (⟨S4096x1, .i32⟩ : BufTy).Contents (Elt F) → (⟨S4096, .f32⟩ : BufTy).Contents (Elt F)),
    binary main_v34 main_v41 main_v42 (subf : (⟨S4096, .f32⟩ : BufTy).Contents (Elt F) → (⟨S4096, .f32⟩ : BufTy).Contents (Elt F) → (⟨S4096, .f32⟩ : BufTy).Contents (Elt F)),
    unary main_v42 main_v43 (Host.sign : (⟨S4096, .f32⟩ : BufTy).Contents (Elt F) → (⟨S4096, .f32⟩ : BufTy).Contents (Elt F)),
    binary main_v34 main_v41 main_v44 (subf : (⟨S4096, .f32⟩ : BufTy).Contents (Elt F) → (⟨S4096, .f32⟩ : BufTy).Contents (Elt F) → (⟨S4096, .f32⟩ : BufTy).Contents (Elt F)),
    unary main_v44 main_v45 (Host.absf : (⟨S4096, .f32⟩ : BufTy).Contents (Elt F) → (⟨S4096, .f32⟩ : BufTy).Contents (Elt F)),
    nullary main_cst_14 (constant S_ .f32 0x00000000#32),
    unary main_cst_14 main_v46 (broadcastInDim S4096 ![] bcast_S_S4096 : (⟨S_, .f32⟩ : BufTy).Contents (Elt F) → (⟨S4096, .f32⟩ : BufTy).Contents (Elt F)),
    binary main_v43 main_v46 main_v47 (cmpf .oeq : (⟨S4096, .f32⟩ : BufTy).Contents (Elt F) → (⟨S4096, .f32⟩ : BufTy).Contents (Elt F) → (⟨S4096, .i1⟩ : BufTy).Contents (Elt F)),
    nullary main_cst_15 (constant S_ .f32 0x3F800000#32),
    unary main_cst_15 main_v48 (broadcastInDim S4096 ![] bcast_S_S4096 : (⟨S_, .f32⟩ : BufTy).Contents (Elt F) → (⟨S4096, .f32⟩ : BufTy).Contents (Elt F)),
    TRef.ternary (TRef.of (T := ⟨S4096, .i1⟩) main_v47) (TRef.of (T := ⟨S4096, .f32⟩) main_v48) (TRef.of (T := ⟨S4096, .f32⟩) main_v43) (TRef.of (T := ⟨S4096, .f32⟩) main_v49) select,
    binary main_v45 main_v49 main_v50 (Host.divf : (⟨S4096, .f32⟩ : BufTy).Contents (Elt F) → (⟨S4096, .f32⟩ : BufTy).Contents (Elt F) → (⟨S4096, .f32⟩ : BufTy).Contents (Elt F)),
    binary main_v26 main_v50 main_v51 (addf : (⟨S4096, .f32⟩ : BufTy).Contents (Elt F) → (⟨S4096, .f32⟩ : BufTy).Contents (Elt F) → (⟨S4096, .f32⟩ : BufTy).Contents (Elt F)),
    unary main_v43 main_v52 (Host.negf : (⟨S4096, .f32⟩ : BufTy).Contents (Elt F) → (⟨S4096, .f32⟩ : BufTy).Contents (Elt F)),
    binary main_v25 main_v51 main_v53 (subf : (⟨S4096, .f32⟩ : BufTy).Contents (Elt F) → (⟨S4096, .f32⟩ : BufTy).Contents (Elt F) → (⟨S4096, .f32⟩ : BufTy).Contents (Elt F)),
    binary main_v52 main_v53 main_v54 (mulf : (⟨S4096, .f32⟩ : BufTy).Contents (Elt F) → (⟨S4096, .f32⟩ : BufTy).Contents (Elt F) → (⟨S4096, .f32⟩ : BufTy).Contents (Elt F)),
    nullary main_cst_16 (constant S_ .f32 0x00000000#32),
    unary main_cst_16 main_v55 (broadcastInDim S4096 ![] bcast_S_S4096 : (⟨S_, .f32⟩ : BufTy).Contents (Elt F) → (⟨S4096, .f32⟩ : BufTy).Contents (Elt F)),
    binary main_v55 main_v54 main_v56 (maximumf : (⟨S4096, .f32⟩ : BufTy).Contents (Elt F) → (⟨S4096, .f32⟩ : BufTy).Contents (Elt F) → (⟨S4096, .f32⟩ : BufTy).Contents (Elt F)),
    nullary main_cst_17 (constant S_ .f32 0x00000000#32),
    binary main_v56 main_cst_17 main_v57 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_18 (constant S_ .f32 0x45800000#32),
    binary main_v57 main_cst_18 main_v58 (Host.divf : (⟨S_, .f32⟩ : BufTy).Contents (Elt F) → (⟨S_, .f32⟩ : BufTy).Contents (Elt F) → (⟨S_, .f32⟩ : BufTy).Contents (Elt F)),
    nullary main_cst_19 (constant S_ .f32 0x3F800000#32),
    binary main_cst_19 main_v58 main_v59 (mulf : (⟨S_, .f32⟩ : BufTy).Contents (Elt F) → (⟨S_, .f32⟩ : BufTy).Contents (Elt F) → (⟨S_, .f32⟩ : BufTy).Contents (Elt F)),
    binary main_v5 main_v59 main_v60 (addf : (⟨S_, .f32⟩ : BufTy).Contents (Elt F) → (⟨S_, .f32⟩ : BufTy).Contents (Elt F) → (⟨S_, .f32⟩ : BufTy).Contents (Elt F)),
    nullary main_cst_20 (constant S_ .f32 0x3F800000#32),
    binary main_cst_20 main_v24 main_v61 (mulf : (⟨S_, .f32⟩ : BufTy).Contents (Elt F) → (⟨S_, .f32⟩ : BufTy).Contents (Elt F) → (⟨S_, .f32⟩ : BufTy).Contents (Elt F)),
    binary main_v60 main_v61 main_v62 (addf : (⟨S_, .f32⟩ : BufTy).Contents (Elt F) → (⟨S_, .f32⟩ : BufTy).Contents (Elt F) → (⟨S_, .f32⟩ : BufTy).Contents (Elt F)) ]

set_option maxRecDepth 65536 in
/-- The 125 operations are the three stretches in a row. -/
theorem ops_cut : Cert.ReferenceIdeal.ValueP.ops (F := F) = segA ++ (segM ++ segG) := rfl

/-! ## What each stretch leaves, from any contents -/

/-- The first stretch leaves the label's log-probability column and the log-probabilities at the staged values. -/
theorem segA_v2 (W : Valuation τ sig (Elt F)) :
    StableHlo.after segA W (Proc.devRef .tc main_v2)
      = Cert.ReferenceIdeal.ReadP.val_main_v2 (F := F) (W (Proc.devRef .tc main_arg0)) (W (Proc.devRef .tc main_arg1)) := by
  after_results_simp <;> (try simp only [ofBuf_toBuf]) <;> rfl

theorem segA_v0 (W : Valuation τ sig (Elt F)) :
    StableHlo.after segA W (Proc.devRef .tc main_v0)
      = Cert.ReferenceIdeal.ReadP.val_main_v0 (F := F) (W (Proc.devRef .tc main_arg0)) := by
  after_results_simp <;> (try simp only [ofBuf_toBuf]) <;> rfl

theorem segA_arg1 (W : Valuation τ sig (Elt F)) :
    StableHlo.after segA W (Proc.devRef .tc main_arg1) = W (Proc.devRef .tc main_arg1) :=
  StableHlo.after_of_forall_not_mem _ _ (by not_written)
theorem segA_arg2 (W : Valuation τ sig (Elt F)) :
    StableHlo.after segA W (Proc.devRef .tc main_arg2) = W (Proc.devRef .tc main_arg2) :=
  StableHlo.after_of_forall_not_mem _ _ (by not_written)
theorem segA_arg3 (W : Valuation τ sig (Elt F)) :
    StableHlo.after segA W (Proc.devRef .tc main_arg3) = W (Proc.devRef .tc main_arg3) :=
  StableHlo.after_of_forall_not_mem _ _ (by not_written)

/-- The second stretch leaves the three inputs of the last: the negated mean of `main_v2`, the calibration loss of the
    column sums of `exp main_v0` and the labels, and the row maxima of `exp main_v0`. -/
theorem segM_v5 (W : Valuation τ sig (Elt F)) :
    StableHlo.after segM W (Proc.devRef .tc main_v5) = lossClsR (W (Proc.devRef .tc main_v2)) := by
  after_results_simp <;> (try simp only [ofBuf_toBuf]) <;> rfl

theorem segM_v24 (W : Valuation τ sig (Elt F)) :
    StableHlo.after segM W (Proc.devRef .tc main_v24)
      = lossCalR (Host.reduceAdd (Host.exp (W (Proc.devRef .tc main_v0))) (constant S_ .f32 0x00000000#32) reducesTo_S4096x32000_S32000_d0 h_S_)
          (W (Proc.devRef .tc main_arg1)) := by
  after_results_simp <;> (try simp only [ofBuf_toBuf]) <;> rfl

theorem segM_v25 (W : Valuation τ sig (Elt F)) :
    StableHlo.after segM W (Proc.devRef .tc main_v25)
      = Host.reduce FloatOps.maximumf (Host.exp (W (Proc.devRef .tc main_v0))) (constant S_ .f32 0xFF800000#32) reducesTo_S4096x32000_S4096_d1 h_S_ := by
  after_results_simp <;> (try simp only [ofBuf_toBuf]) <;> rfl

theorem segM_arg2 (W : Valuation τ sig (Elt F)) :
    StableHlo.after segM W (Proc.devRef .tc main_arg2) = W (Proc.devRef .tc main_arg2) :=
  StableHlo.after_of_forall_not_mem _ _ (by not_written)
theorem segM_arg3 (W : Valuation τ sig (Elt F)) :
    StableHlo.after segM W (Proc.devRef .tc main_arg3) = W (Proc.devRef .tc main_arg3) :=
  StableHlo.after_of_forall_not_mem _ _ (by not_written)

/-- The last stretch leaves the three losses combined. -/
theorem segG_v62 (W : Valuation τ sig (Elt F)) :
    StableHlo.after segG W (Proc.devRef .tc main_v62)
      = combineR (W (Proc.devRef .tc main_v5))
          (lossRefR (W (Proc.devRef .tc main_v25)) (W (Proc.devRef .tc main_arg2)) (W (Proc.devRef .tc main_arg3)))
          (W (Proc.devRef .tc main_v24)) := by
  after_results_simp <;> (try simp only [TRef.ofBuf, TRef.toBuf, cast_eq]) <;> rfl

/-- The column sums and the row maxima of the probabilities, as the read module stages them. -/
theorem v7_stage (x0 : (⟨S4096x32000, .f32⟩ : BufTy).Contents (Elt F)) :
    Host.reduceAdd (Host.exp (Cert.ReferenceIdeal.ReadP.val_main_v0 (F := F) x0)) (constant S_ .f32 0x00000000#32) reducesTo_S4096x32000_S32000_d0 h_S_
      = Cert.ReferenceIdeal.ReadP.val_main_v7 (F := F) x0 := rfl
theorem v25_stage (x0 : (⟨S4096x32000, .f32⟩ : BufTy).Contents (Elt F)) :
    Host.reduce FloatOps.maximumf (Host.exp (Cert.ReferenceIdeal.ReadP.val_main_v0 (F := F) x0)) (constant S_ .f32 0xFF800000#32) reducesTo_S4096x32000_S4096_d1 h_S_
      = Cert.ReferenceIdeal.ReadP.val_main_v25 (F := F) x0 := rfl

/-! ## The result -/

/-- The result as the tail's functions of the three staged values and the arguments. -/
theorem final_v62 (m : (ℓ : Loc nD τ sig) → Buf (Elt F) ℓ) (c : Dev nD) :
    Wf m c (Proc.devRef .tc main_v62)
      = combineR
          (lossClsR (Cert.ReferenceIdeal.ReadP.val_main_v2 (F := F) (m ((c.tc : Thread nD τ).loc main_arg0)) (m ((c.tc : Thread nD τ).loc main_arg1))))
          (lossRefR (Cert.ReferenceIdeal.ReadP.val_main_v25 (F := F) (m ((c.tc : Thread nD τ).loc main_arg0)))
            (m ((c.tc : Thread nD τ).loc main_arg2)) (m ((c.tc : Thread nD τ).loc main_arg3)))
          (lossCalR (Cert.ReferenceIdeal.ReadP.val_main_v7 (F := F) (m ((c.tc : Thread nD τ).loc main_arg0)))
            (m ((c.tc : Thread nD τ).loc main_arg1))) := by
  show StableHlo.after (Cert.ReferenceIdeal.ValueP.ops (F := F)) (fun b => m (c, b)) (Proc.devRef .tc main_v62) = _
  rw [ops_cut, StableHlo.after_append, StableHlo.after_append, segG_v62, segM_v5, segM_v24, segM_v25, segM_arg2, segM_arg3,
    segA_v2, segA_v0, segA_arg1, segA_arg2, segA_arg3, v7_stage, v25_stage]

end Cert.ReferenceIdeal.RefVal

end
-- ==== Proof.RefValues.lean ====
/-
  The reference's three intermediate arrays, index by index over the extended reals.

  `log_softmax` shifts each row by its maximum `M` (taken against `-∞`), and subtracts `log ∑ exp (x - M)`;
  the reference then reads the label's entry (`take_along_axis`: a gather guarded by a range test, which passes on
  labels in `[0, 32000)`), exponentiates to the probabilities `exp (s - log S)`, sums them down the columns and
  takes each row's maximum.  On real logits `exp (s - log S) = exp s · (1 / S)`, and the maximum commutes with the
  positive factor, so the three arrays are the specification's.
-/
import proofs.«406687_j326417515025_3_alg».proof.Proof.RefRead
import proofs.«406687_j326417515025_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.ReferenceIdeal.RefVal

open Cert.ReferenceIdeal Cert.ReferenceIdeal.Gen Cert.ReferenceIdeal.ReadP Cert.LibSoftmax
open Idealize.ShloMosaic Idealize.ShloMosaic.ValueIdx

/-! ## The host's row reductions at an index -/

/-- The source index over row `R` with lane coordinate `k` inserted is `(R, k)`. -/
theorem lift_d1 (h : S4096x32000.Reduces [1] S4096) (R : Fin 4096) (k : Fin 32000) : h.lift (ix1 R) k = ix2 R k :=
  funext fun c => Fin.ext <| match c with | ⟨0, _⟩ => rfl | ⟨1, _⟩ => rfl

/-- A maximum-reduce along the lanes, at row `R`: the fold of `max` from the initial value over the row. -/
theorem hostRowMax_apply (y : FVec Ideal S4096x32000 .f32) (init : FVec Ideal S_ .f32)
    (h' : S4096x32000.ReducesTo [1] S4096) (hu : 0 < S_.numel) (R : Fin 4096) :
    Host.reduce (FloatOps.maximumf (F := Ideal) (φ := .f32)) y init h' hu (ix1 R)
      = (Finset.univ : Finset (Fin 32000)).fold max (init (Shape.Idx.first hu)) fun c => y (ix2 R c) := by
  have h : S4096x32000.Reduces [1] S4096 := by decide
  rw [Host.reduce_eq_fold_single FloatOps.maximumf y init h' h hu]
  have hf : (y ∘ h.lift (ix1 R)) = fun c : Fin 32000 => y (ix2 R c) := funext fun k => congrArg y (lift_d1 h R k)
  exact congrArg (fun f => Finset.fold max (init (Shape.Idx.first hu)) f (Finset.univ : Finset (Fin 32000))) hf

/-- The `-∞` the maxima start from. -/
theorem cst_neg_inf : val_main_call0_cst (F := Ideal) (Shape.Idx.first h_S_) = ⊥ := ofBits_neg_inf

/-! ## `log_softmax`, stage by stage -/

/-- The row maximum. -/
theorem call0_v0_apply (x0 : (⟨S4096x32000, .f32⟩ : BufTy).Contents (Elt Ideal)) (R : Fin 4096) :
    val_main_call0_v0 (F := Ideal) x0 (ix1 R) = rowMax (Cert.Spec.rowOf x0 R) := by
  unfold val_main_call0_v0
  refine (hostRowMax_apply _ _ _ _ R).trans ?_
  rw [cst_neg_inf]
  unfold rowMax Cert.Spec.rowOf
  rfl

/-- The operand indices of the column forms: `(R, u) ↦ R`, `(R, c) ↦ (R, 0)`, and the two sums' `(R, k)`, `(k, c)`. -/
theorem idx_call0_v3_eq (R : Fin 4096) (u : Fin 1) : idx_main_call0_v3 (ix2 R u) = ix1 R :=
  funext fun a => match a with | ⟨0, _⟩ => rfl
theorem idx_call0_v4_eq (R : Fin 4096) (c : Fin 32000) : idx_main_call0_v4 (ix2 R c) = ix2 R (0 : Fin 1) :=
  funext fun a => match a with | ⟨0, _⟩ => rfl | ⟨1, _⟩ => rfl
theorem idx_call0_v7_eq (R : Fin 4096) (k : Fin 32000) : idx_main_call0_v7 (ix1 R) k = ix2 R k :=
  funext fun a => match a with | ⟨0, _⟩ => rfl | ⟨1, _⟩ => rfl
theorem idx_call0_v8_eq (R : Fin 4096) (u : Fin 1) : idx_main_call0_v8 (ix2 R u) = ix1 R :=
  funext fun a => match a with | ⟨0, _⟩ => rfl
theorem idx_call0_v10_eq (R : Fin 4096) (c : Fin 32000) : idx_main_call0_v10 (ix2 R c) = ix2 R (0 : Fin 1) :=
  funext fun a => match a with | ⟨0, _⟩ => rfl | ⟨1, _⟩ => rfl
theorem idx_v7_eq (c : Fin 32000) (k : Fin 4096) : idx_main_v7 (ix1 c) k = ix2 k c :=
  funext fun a => match a with | ⟨0, _⟩ => rfl | ⟨1, _⟩ => rfl

/-- Its maximum with `-∞` is itself. -/
theorem call0_v2_apply (x0 : (⟨S4096x32000, .f32⟩ : BufTy).Contents (Elt Ideal)) (R : Fin 4096) :
    val_main_call0_v2 (F := Ideal) x0 (ix1 R) = rowMax (Cert.Spec.rowOf x0 R) := by
  have h1 : val_main_call0_v1 (F := Ideal) (ix1 R) = ⊥ := (val_main_call0_v1_apply _).trans ofBits_neg_inf
  rw [val_main_call0_v2_apply, call0_v0_apply, h1]
  exact max_bot_rowMax _

/-- The shifted logits. -/
theorem call0_v5_apply (x0 : (⟨S4096x32000, .f32⟩ : BufTy).Contents (Elt Ideal)) (R : Fin 4096) (c : Fin 32000) :
    val_main_call0_v5 (F := Ideal) x0 (ix2 R c) = shifted (Cert.Spec.rowOf x0 R) c := by
  rw [val_main_call0_v5_apply, val_main_call0_v4_apply, idx_call0_v4_eq, val_main_call0_v3_apply, idx_call0_v3_eq,
    call0_v2_apply]
  unfold shifted
  rfl

/-- Their exponentials. -/
theorem call0_v6_apply (x0 : (⟨S4096x32000, .f32⟩ : BufTy).Contents (Elt Ideal)) (R : Fin 4096) (c : Fin 32000) :
    val_main_call0_v6 (F := Ideal) x0 (ix2 R c) = Ideal.exp (shifted (Cert.Spec.rowOf x0 R) c) := by
  rw [val_main_call0_v6_apply, Ideal.hostUnary_exp_def, call0_v5_apply]

/-- The normaliser of row `R`. -/
theorem call0_v7_eq (x0 : (⟨S4096x32000, .f32⟩ : BufTy).Contents (Elt Ideal)) (R : Fin 4096) :
    val_main_call0_v7 (F := Ideal) x0 (ix1 R) = sumExp (Cert.Spec.rowOf x0 R) := by
  have h0 : val_main_call0_cst_1 (F := Ideal) (Shape.Idx.first h_S_) = 0 := Ideal.ofBits_zero_f32
  rw [val_main_call0_v7_apply, h0, zero_add]
  unfold sumExp
  refine Finset.sum_congr rfl fun k _ => ?_
  rw [idx_call0_v7_eq, call0_v6_apply]

/-- The log-probabilities: the shifted logit less the logarithm of the row's normaliser. -/
theorem v0_apply (x0 : (⟨S4096x32000, .f32⟩ : BufTy).Contents (Elt Ideal)) (R : Fin 4096) (c : Fin 32000) :
    val_main_v0 (F := Ideal) x0 (ix2 R c)
      = shifted (Cert.Spec.rowOf x0 R) c - Ideal.log (sumExp (Cert.Spec.rowOf x0 R)) := by
  rw [val_main_v0_apply, call0_v5_apply, val_main_call0_v10_apply, idx_call0_v10_eq, val_main_call0_v9_apply,
    Ideal.hostUnary_log_def, val_main_call0_v8_apply, idx_call0_v8_eq, call0_v7_eq]
  rfl

/-- The probabilities, as the exponential of the log-probability. -/
theorem v6_apply (x0 : (⟨S4096x32000, .f32⟩ : BufTy).Contents (Elt Ideal)) (R : Fin 4096) (c : Fin 32000) :
    val_main_v6 (F := Ideal) x0 (ix2 R c)
      = Ideal.exp (shifted (Cert.Spec.rowOf x0 R) c - Ideal.log (sumExp (Cert.Spec.rowOf x0 R))) := by
  rw [val_main_v6_apply, Ideal.hostUnary_exp_def, v0_apply]

/-! ## `take_along_axis`: the label's entry -/

open Idealize.ShloMosaic.StableHlo.Predicate in
/-- A label in range, read signed, is not negative. -/
theorem slt_zero_of_lt {a : BitVec 32} (ha : a.toNat < 32000) : IntOp.cmpi .slt a 0#32 = 0#1 :=
  eq_zero_of_ne_one fun h => by
    have := (slt_iff_toNat (a := a) (b := 0#32) (by omega) (by decide)).1 h
    simp at this

open Idealize.ShloMosaic.StableHlo.Predicate in
/-- A label in range passes the range test `0 ≤ a ≤ 31999`. -/
theorem range_test_of_lt {a : BitVec 32} (ha : a.toNat < 32000) :
    IntOp.andi (IntOp.cmpi .sge a 0#32) (IntOp.cmpi .sle a 31999#32) = 1#1 := by
  have h1 : IntOp.cmpi .sge a 0#32 = 1#1 := (sge_iff_toNat (a := a) (b := 0#32) (by omega) (by decide)).2 (by simp)
  have h2 : IntOp.cmpi .sle a 31999#32 = 1#1 :=
    (sle_iff_toNat (a := a) (b := 31999#32) (by omega) (by decide)).2 (by
      show a.toNat ≤ 31999
      omega)
  rw [h1, h2]; rfl

/-- A fold of `and` from `1` over words that are all `1` is `1`. -/
theorem fold_andi_one {ι : Type} [DecidableEq ι] (S : Finset ι) (x : ι → BitVec 1) (hx : ∀ i ∈ S, x i = 1#1) :
    S.fold IntOp.andi 1#1 x = 1#1 := by
  induction S using Finset.induction_on with
  | empty => rfl
  | insert a S ha ih =>
    rw [Finset.fold_insert ha, hx a (Finset.mem_insert_self _ _), ih fun i hi => hx i (Finset.mem_insert_of_mem hi)]
    rfl

/-- An and-reduce from `1` of an array of `1`s is `1` everywhere. -/
theorem hostReduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  refine (Host.reduce_eq_fold IntOp.andi x init h hu j).trans ?_
  rw [hinit]
  exact fold_andi_one _ x fun i _ => hx i

/-- Operand indices of the label chain. -/
theorem idx_v1_eq (R : Fin 4096) (u : Fin 1) : idx_main_v1 (ix2 R u) = ix1 R :=
  funext fun a => match a with | ⟨0, _⟩ => rfl
theorem idx_call1_v5_eq (R : Fin 4096) (u v : Fin 1) : idx_main_call1_v5 (ix3 R u v) = ix2 R (0 : Fin 1) :=
  funext fun a => match a with
    | ⟨0, _⟩ => Fin.ext (by
        have hu : u.val = 0 := by omega
        have hv : v.val = 0 := by omega
        show ((R.val * 1 + u.val) * 1 + v.val) / 1 = R.val
        rw [hu, hv]; simp)
    | ⟨1, _⟩ => rfl

/-- The label as the programs' index word: a label in range is not shifted by `32000`. -/
theorem call1_v5_apply (x1 : (⟨S4096, .i32⟩ : BufTy).Contents (Elt Ideal)) (hlab : Cert.Spec.LabelsInRange x1)
    (R : Fin 4096) (u v : Fin 1) : val_main_call1_v5 (F := Ideal) x1 (ix3 R u v) = x1 (ix1 R) := by
  have h1 : val_main_v1 (F := Ideal) x1 (ix2 R (0 : Fin 1)) = x1 (ix1 R) := by
    rw [val_main_v1_apply, idx_v1_eq]
  have h0 : val_main_call1_v0 (F := Ideal) (ix2 R (0 : Fin 1)) = 0#32 := val_main_call1_v0_apply _
  rw [val_main_call1_v5_apply, idx_call1_v5_eq, val_main_call1_v4_apply, val_main_call1_v1_apply, h1, h0,
    slt_zero_of_lt (hlab R)]
  exact select_zero _ _

/-- The range test passes on every row. -/
theorem call1_v12_apply (x1 : (⟨S4096, .i32⟩ : BufTy).Contents (Elt Ideal)) (hlab : Cert.Spec.LabelsInRange x1)
    (j : S4096x1.Idx) : val_main_call1_v12 (F := Ideal) x1 j = 1#1 := by
  unfold val_main_call1_v12
  refine hostReduce_andi_one _ _ _ _ j rfl fun i => ?_
  obtain ⟨R, u, v, rfl⟩ : ∃ (R : Fin 4096) (u v : Fin 1), i = ix3 R u v := ⟨i 0, i 1, i 2, eq_ix3 i⟩
  have h6 : val_main_call1_v6 (F := Ideal) (ix3 R u v) = 0#32 := val_main_call1_v6_apply _
  have h9 : val_main_call1_v9 (F := Ideal) (ix3 R u v) = 31999#32 :=
    (val_main_call1_v9_apply _).trans (val_main_call1_v8_apply _)
  rw [val_main_call1_v11_apply, val_main_call1_v7_apply, val_main_call1_v10_apply, call1_v5_apply x1 hlab, h6, h9]
  exact range_test_of_lt (hlab R)

/-! ### The gather -/

/-- On the operand's row axis the gather reads the result's own row (the batching axis); -/
theorem gather_axis0 (idx : IVec S4096x1x1 32) (R : Fin 4096) (u : Fin 1) :
    (gather_S4096x32000_S4096x1x1_S4096x1_n_1_0_0_1_2_11.operandIdx (ix2 R u) idx (0 : Fin 2)).val = R.val := by
  have hs : gather_S4096x32000_S4096x1x1_S4096x1_n_1_0_0_1_2_11.start (ix2 R u) idx (0 : Fin 2) = 0 := by
    unfold GatherDims.start
    exact dif_neg (by decide)
  have ho : gather_S4096x32000_S4096x1x1_S4096x1_n_1_0_0_1_2_11.offCoord (ix2 R u) (0 : Fin 2) = 0 :=
    GatherDims.offCoord_eq_zero _ _ _ (by decide)
  have hb : gather_S4096x32000_S4096x1x1_S4096x1_n_1_0_0_1_2_11.batchCoord (ix2 R u) (0 : Fin 2) = R.val := by
    unfold GatherDims.batchCoord
    rw [dif_pos (show (0 : Fin 2) ∈ gather_S4096x32000_S4096x1x1_S4096x1_n_1_0_0_1_2_11.operandBatchingDims by decide)]
    rfl
  show gather_S4096x32000_S4096x1x1_S4096x1_n_1_0_0_1_2_11.start (ix2 R u) idx (0 : Fin 2)
      + gather_S4096x32000_S4096x1x1_S4096x1_n_1_0_0_1_2_11.batchCoord (ix2 R u) (0 : Fin 2)
      + gather_S4096x32000_S4096x1x1_S4096x1_n_1_0_0_1_2_11.offCoord (ix2 R u) (0 : Fin 2) = R.val
  rw [hs, ho, hb, Nat.zero_add, Nat.add_zero]

/-- on the lane axis, the start index of that row, read signed and clamped into `[0, 31999]`. -/
theorem gather_axis1 (idx : IVec S4096x1x1 32) (R : Fin 4096) (u : Fin 1) :
    (gather_S4096x32000_S4096x1x1_S4096x1_n_1_0_0_1_2_11.operandIdx (ix2 R u) idx (1 : Fin 2)).val
      = min (idx (ix3 R u (0 : Fin 1))).toInt.toNat 31999 := by
  show gather_S4096x32000_S4096x1x1_S4096x1_n_1_0_0_1_2_11.start (ix2 R u) idx (1 : Fin 2)
      + gather_S4096x32000_S4096x1x1_S4096x1_n_1_0_0_1_2_11.batchCoord (ix2 R u) (1 : Fin 2)
      + gather_S4096x32000_S4096x1x1_S4096x1_n_1_0_0_1_2_11.offCoord (ix2 R u) (1 : Fin 2) = _
  rw [GatherDims.batchCoord_eq_zero _ _ _ (by decide), GatherDims.offCoord_eq_zero _ _ _ (by decide)]
  unfold GatherDims.start
  rw [dif_pos (show (1 : Fin 2) ∈ gather_S4096x32000_S4096x1x1_S4096x1_n_1_0_0_1_2_11.startIndexMap by decide)]
  have hsi : gather_S4096x32000_S4096x1x1_S4096x1_n_1_0_0_1_2_11.siIdx (ix2 R u)
      ⟨List.idxOf (1 : Fin 2) gather_S4096x32000_S4096x1x1_S4096x1_n_1_0_0_1_2_11.startIndexMap,
        List.idxOf_lt_length_iff.2 (by decide)⟩ = ix3 R u (0 : Fin 1) := by
    funext b; refine Fin.ext ?_
    match b with
    | ⟨0, _⟩ => rfl
    | ⟨1, _⟩ => rfl
    | ⟨2, _⟩ => rfl
  rw [hsi]
  rfl

/-- The gather of `take_along_axis` at row `R`: the operand's row `R` at that row's start index, read signed and clamped. -/
theorem gather_apply (y : FVec Ideal S4096x32000 .f32) (idx : IVec S4096x1x1 32) (R : Fin 4096) (u : Fin 1) :
    Host.gather gather_S4096x32000_S4096x1x1_S4096x1_n_1_0_0_1_2_11 y idx (ix2 R u)
      = y (ix2 R (⟨min (idx (ix3 R u (0 : Fin 1))).toInt.toNat 31999, by omega⟩ : Fin 32000)) := by
  unfold Host.gather
  refine congrArg y (funext fun a => Fin.ext ?_)
  match a with
  | ⟨0, _⟩ => exact gather_axis0 idx R u
  | ⟨1, _⟩ => exact gather_axis1 idx R u

open Idealize.ShloMosaic.StableHlo.Predicate in
/-- The label's log-probability, row by row (real logits, labels in range). -/
theorem v2_eq (x0 : (⟨S4096x32000, .f32⟩ : BufTy).Contents (Elt Ideal)) (x1 : (⟨S4096, .i32⟩ : BufTy).Contents (Elt Ideal))
    (hx : Cert.Spec.RealLogits x0) (hlab : Cert.Spec.LabelsInRange x1) :
    val_main_v2 (F := Ideal) x0 x1 = Cert.Spec.ceSpec x0 x1 := by
  funext j
  obtain ⟨R, u, rfl⟩ : ∃ (R : Fin 4096) (u : Fin 1), j = ix2 R u := ⟨j 0, j 1, eq_ix2 j⟩
  rw [val_main_v2_apply, call1_v12_apply x1 hlab, select_one]
  unfold val_main_call1_v13
  rw [gather_apply]
  -- the clamped start index of row `R` is the label itself
  have ha : (x1 (ix1 R)).toNat < 32000 := hlab R
  have hidx : (⟨min (val_main_call1_v5 (F := Ideal) x1 (ix3 R u (0 : Fin 1))).toInt.toNat 31999, by omega⟩ : Fin 32000)
      = Cert.Spec.tgtOf x1 R := Fin.ext (by
    show min (val_main_call1_v5 (F := Ideal) x1 (ix3 R u (0 : Fin 1))).toInt.toNat 31999 = (Cert.Spec.tgtOf x1 R).val
    rw [call1_v5_apply x1 hlab, Cert.Spec.tgtOf_val x1 hlab R, toInt_eq_toNat_of_lt (by omega), Int.toNat_natCast]
    omega)
  refine (congrArg (fun k : Fin 32000 => val_main_v0 (F := Ideal) x0 (ix2 R k)) hidx).trans ?_
  rw [v0_apply]
  rfl

/-- The column sums of the probabilities (real logits). -/
theorem v7_eq (x0 : (⟨S4096x32000, .f32⟩ : BufTy).Contents (Elt Ideal)) (hx : Cert.Spec.RealLogits x0) :
    val_main_v7 (F := Ideal) x0 = Cert.Spec.csSpec x0 := by
  funext j
  obtain ⟨c, rfl⟩ : ∃ c : Fin 32000, j = ix1 c := ⟨j 0, eq_ix1 j⟩
  have h0 : val_main_cst_1 (F := Ideal) (Shape.Idx.first h_S_) = 0 := Ideal.ofBits_zero_f32
  rw [val_main_v7_apply, h0, zero_add]
  unfold Cert.Spec.csSpec
  refine Finset.sum_congr rfl fun R _ => ?_
  rw [idx_v7_eq, v6_apply]
  exact exp_sub_log (by norm_num) _ (Cert.Spec.isRealRow_of x0 hx R) c

/-- Each row's top probability (real logits). -/
theorem v25_eq (x0 : (⟨S4096x32000, .f32⟩ : BufTy).Contents (Elt Ideal)) (hx : Cert.Spec.RealLogits x0) :
    val_main_v25 (F := Ideal) x0 = Cert.Spec.confSpec x0 := by
  funext j
  obtain ⟨R, rfl⟩ : ∃ R : Fin 4096, j = ix1 R := ⟨j 0, eq_ix1 j⟩
  have hb : val_main_cst_9 (F := Ideal) (Shape.Idx.first h_S_) = ⊥ := ofBits_neg_inf
  unfold val_main_v25
  refine (hostRowMax_apply _ _ _ _ R).trans ?_
  rw [hb]
  have e : (fun c : Fin 32000 => val_main_v6 (F := Ideal) x0 (ix2 R c))
      = fun c => Ideal.exp (shifted (Cert.Spec.rowOf x0 R) c - Ideal.log (sumExp (Cert.Spec.rowOf x0 R))) :=
    funext fun c => v6_apply x0 R c
  refine (congrArg (fun f => Finset.fold max ⊥ f (Finset.univ : Finset (Fin 32000))) e).trans ?_
  exact max_exp_sub_log (by norm_num) _ (Cert.Spec.isRealRow_of x0 hx R)

end Cert.ReferenceIdeal.RefVal

end
-- ==== Proof.RefGlue.lean ====
/-
  The reference's copies of the four pieces of the shared host chain are the kernel program's.

  Both programs print the same lines over the same literal shapes; the two copies differ only in the names of the
  shape abbreviations and of the shape facts (which are proofs), so each piece unfolds to the same term.
-/
import proofs.«406687_j326417515025_3_alg».proof.Proof.RefSegments
import proofs.«406687_j326417515025_3_alg».proof.Proof.KernelIdeal.Tail

set_option maxRecDepth 16384

noncomputable section

namespace Cert.ReferenceIdeal.RefVal

open Cert.ReferenceIdeal Cert.ReferenceIdeal.Gen
open Idealize.ShloMosaic

variable {F : FTy → Type} [FloatOps F]

theorem lossClsR_eq (X : (⟨S4096x1, .f32⟩ : BufTy).Contents (Elt F)) :
    lossClsR X = Cert.KernelIdeal.Val.lossCls X := rfl

theorem lossCalR_eq (Y : (⟨S32000, .f32⟩ : BufTy).Contents (Elt F)) (a1 : (⟨S4096, .i32⟩ : BufTy).Contents (Elt F)) :
    lossCalR Y a1 = Cert.KernelIdeal.Val.lossCal Y a1 := rfl

theorem lossRefR_eq (Z : (⟨S4096, .f32⟩ : BufTy).Contents (Elt F)) (a2 : (⟨S4096, .i32⟩ : BufTy).Contents (Elt F))
    (a3 : (⟨S50000, .f32⟩ : BufTy).Contents (Elt F)) :
    lossRefR Z a2 a3 = Cert.KernelIdeal.Val.lossRef Z a2 a3 := rfl

theorem combineR_eq (lc lr lk : (⟨S_, .f32⟩ : BufTy).Contents (Elt F)) :
    combineR lc lr lk = Cert.KernelIdeal.Val.combine lc lr lk := rfl

/-- The reference's chain is the shared chain. -/
theorem tailR_eq (X : (⟨Cert.ReferenceIdeal.S4096x1, .f32⟩ : BufTy).Contents (Elt F))
    (Y : (⟨Cert.ReferenceIdeal.S32000, .f32⟩ : BufTy).Contents (Elt F))
    (Z : (⟨Cert.ReferenceIdeal.S4096, .f32⟩ : BufTy).Contents (Elt F))
    (a1 a2 : (⟨Cert.ReferenceIdeal.S4096, .i32⟩ : BufTy).Contents (Elt F))
    (a3 : (⟨Cert.ReferenceIdeal.S50000, .f32⟩ : BufTy).Contents (Elt F)) :
    combineR (lossClsR X) (lossRefR Z a2 a3) (lossCalR Y a1) = Cert.KernelIdeal.Val.tail X Y Z a1 a2 a3 := by
  rw [lossClsR_eq, lossRefR_eq, lossCalR_eq, combineR_eq]
  rfl

end Cert.ReferenceIdeal.RefVal

end
-- ==== Proof.PreFacts.lean ====
/-
  What the precondition says of the inputs: every logit is a real number, and every label lies in `[0, 32000)`.

  The printed predicate is a conjunction of three `all`-reductions: `|logits| < +∞`, `|correctness| < +∞`, and
  `0 ≤ label ∧ label < 32000` (signed).  An extended real whose absolute value is below `+∞` is neither infinity;
  a 32-bit word that is nonnegative as a signed number and below 32000 has that value as an unsigned one.
-/
import proofs.«406687_j326417515025_3_alg».proof.Pre_finite_inputs
import proofs.«406687_j326417515025_3_alg».proof.Proof.Gen.Pre_finite_inputs
import proofs.«406687_j326417515025_3_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.PreFacts

open Idealize.ShloMosaic Idealize.ShloMosaic.ValueIdx Cert.Pre_finite_inputs

instance : Subsingleton (Cert.Pre_finite_inputs.S_.Idx) := ⟨fun a b => funext fun d => d.elim0⟩

/-- An extended real with `|x| < +∞` is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | top => exfalso; simp [Ideal.cmp] at h
  | coe r => exact ⟨r, rfl⟩

/-- A signed word in `[0, 32000)` has its value as an unsigned one. -/
theorem toNat_lt_of_signed (a : BitVec 32) (h0 : (0#32 : BitVec 32).toInt ≤ a.toInt) (h1 : a.toInt < (32000#32 : BitVec 32).toInt) :
    a.toNat < 32000 := by
  have e0 : (0#32 : BitVec 32).toInt = 0 := by decide
  have e1 : (32000#32 : BitVec 32).toInt = 32000 := by decide
  rw [e0] at h0; rw [e1] at h1
  rw [BitVec.toInt_eq_toNat_cond] at h0 h1
  split at h0 <;> omega

/-- The precondition, decoded. -/
theorem decode (x0 : FVec Ideal S4096x32000 .f32) (x1 : IVec S4096 32) (x2 : IVec S4096 32) (x3 : FVec Ideal S50000 .f32)
    (h : Cert.Pre_finite_inputs.fn (F := Ideal) x0 x1 x2 x3 = fun _ => 1#1) :
    Cert.Spec.RealLogits x0 ∧ Cert.Spec.LabelsInRange x1 := by
  have h0 := congrFun h ix0
  dsimp only [Cert.Pre_finite_inputs.fn] at h0
  obtain ⟨hA, hL⟩ := IntOp.andi_eq_one.mp (show IntOp.andi _ _ = 1#1 from h0)
  obtain ⟨hX, -⟩ := IntOp.andi_eq_one.mp (show IntOp.andi _ _ = 1#1 from hA)
  refine ⟨fun i => ?_, fun R => ?_⟩
  · have hi := Host.reduce_andi_all _ _ _ _ ix0 hX i
    exact real_of_abs_lt_top (x0 i) hi
  · have hi := Host.reduce_andi_all _ _ _ _ ix0 hL (ix1 R)
    obtain ⟨hge, hlt⟩ := IntOp.andi_eq_one.mp (show IntOp.andi _ _ = 1#1 from hi)
    exact toNat_lt_of_signed (x1 (ix1 R)) (IntOp.cmpi_sge.mp hge) (IntOp.cmpi_slt.mp hlt)

end Cert.PreFacts

end
-- ==== Proof.lean ====
/-
  The proof of `Cert.Claim`: a fused softmax kernel — per row the label's log-probability and the top probability,
  per column the sum of the probabilities, accumulated block by block on a 2 × 32 grid — followed by a host tail
  (cross-entropy, a calibration loss over the column means against the label histogram, a margin ranking loss over
  the top probabilities), against the same losses computed by jnp from `log_softmax`.

  Over the extended reals, on real logits and labels in `[0, 32000)`, both programs feed ONE tail with the same
  three arrays:
    * the label's log-probability `s_label − log S` (the kernel picks it by a one-hot masked sum, the reference by a gather),
    * the top probability `(max exp s) · (1 / S)` (the reference takes `max exp (s − log S)`; the factor `1 / S` is positive),
    * the column sums of `exp s · (1 / S)` (the kernel adds 64-row blocks into two per-core partial rows, then the two rows;
      the reference sums `exp (s − log S)` over all 4096 rows; `exp (s − log S) = exp s · (1 / S)` on reals with `S > 0`).
  The frames: each program runs to the end without a fault and leaves its four arguments as launched; the kernel's
  idealization rewrote nothing, so `preserves` is `True`.
-/
import proofs.«406687_j326417515025_3_alg».proof.Defs
import proofs.«406687_j326417515025_3_alg».proof.Proof.Gen.Kernel
import proofs.«406687_j326417515025_3_alg».proof.Proof.Gen.KernelIdeal
import proofs.«406687_j326417515025_3_alg».proof.Proof.Gen.ReferenceIdeal
import proofs.«406687_j326417515025_3_alg».proof.Proof.Gen.Pre_finite_inputs
import proofs.«406687_j326417515025_3_alg».proof.Proof.Kernel.Frame
import proofs.«406687_j326417515025_3_alg».proof.Proof.KernelIdeal.Frame
import proofs.«406687_j326417515025_3_alg».proof.Proof.KernelIdeal.Arrays
import proofs.«406687_j326417515025_3_alg».proof.Proof.KernelIdeal.Tail
import proofs.«406687_j326417515025_3_alg».proof.Proof.KernelIdeal.Glue
import proofs.«406687_j326417515025_3_alg».proof.Proof.RefSegments
import proofs.«406687_j326417515025_3_alg».proof.Proof.RefValues
import proofs.«406687_j326417515025_3_alg».proof.Proof.RefGlue
import proofs.«406687_j326417515025_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Fr.frame m ρ
theorem frame_ki : Cert.frame_KernelIdeal := fun m ρ _ => Cert.KernelIdeal.Fr.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RefVal.run (F := Ideal) m ρ)

theorem preserves : Cert.preserves_Kernel_KernelIdeal := trivial

/-! ## The value both programs end with -/

section Value

open Cert.KernelIdeal Cert.KernelIdeal.Val

variable (m : (ℓ : Loc Cert.KernelIdeal.nD Cert.KernelIdeal.τ Cert.KernelIdeal.sig) → Buf (Elt Ideal) ℓ)

/-- The scalar both programs return: the shared tail of the specification's three arrays and the arguments. -/
def result (c : Dev Cert.KernelIdeal.nD) :
    Buf (Elt Ideal) ((c.tc : Thread Cert.KernelIdeal.nD Cert.KernelIdeal.τ).loc Cert.KernelIdeal.main_v63) :=
  tail (F := Ideal) (Cert.Spec.ceSpec (X m c) (Lab m c)) (Cert.Spec.csSpec (X m c)) (Cert.Spec.confSpec (X m c))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- What the precondition gives: real logits, labels in range. -/
theorem pre_facts (hpre : Cert.Pre_KernelIdeal m) (c : Dev Cert.KernelIdeal.nD) :
    Cert.Spec.RealLogits (X m c) ∧ Cert.Spec.LabelsInRange (Lab m c) :=
  Cert.PreFacts.decode _ _ _ _ (hpre c)

/-- The kernel program's run: the result buffer ends at `result`, the arguments as launched. -/
theorem kernel_run (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v63) = result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun _ h c => ⟨?_, ?_⟩) (Cert.KernelIdeal.Fr.run_main (F := Ideal) m ρ)
  · refine ((h c).2 Cert.KernelIdeal.main_v63 (Pipeline.mem_restRefs_of Cert.KernelIdeal.main_v63 (by decide) (by decide))).trans ?_
    refine (tail_run (F := Ideal) m c).trans ?_
    rw [ce_final m c (pre_facts m hpre c).2, colsumK_final m c, confK_final m c]
    rfl
  · exact ⟨((h c).1 0).trans (((Cert.KernelIdeal.Fr.dats m 0 c).arrAt_in 0 rfl _).trans ((Cert.KernelIdeal.Fr.A_eq m c 0).trans (Cert.KernelIdeal.Fr.V_main_arg0 m c))),
      ((h c).2 Cert.KernelIdeal.main_arg1 (Pipeline.mem_restRefs_of Cert.KernelIdeal.main_arg1 (by decide) (by decide))).trans (Cert.KernelIdeal.Fr.W_main_arg1 m (Cert.KernelIdeal.Fr.dats m) c),
      ((h c).2 Cert.KernelIdeal.main_arg2 (Pipeline.mem_restRefs_of Cert.KernelIdeal.main_arg2 (by decide) (by decide))).trans (Cert.KernelIdeal.Fr.W_main_arg2 m (Cert.KernelIdeal.Fr.dats m) c),
      ((h c).2 Cert.KernelIdeal.main_arg3 (Pipeline.mem_restRefs_of Cert.KernelIdeal.main_arg3 (by decide) (by decide))).trans (Cert.KernelIdeal.Fr.W_main_arg3 m (Cert.KernelIdeal.Fr.dats m) c)⟩

end Value

/-! ## The claims -/

/-- From memories agreeing on the arguments both programs end with `result`: the kernel by its frame run read
    through the tail, the reference by its run over segments, its three staged arrays being the specification's. -/
theorem algebraic : Cert.algebraic_KernelIdeal_ReferenceIdeal := by
  intro m ρ m' ρ' hpre hagree
  refine ⟨result m, kernel_run m ρ hpre, ?_⟩
  refine (θ_run Cert.ReferenceIdeal.defs _ _).mono (fun _ h c => ⟨(h c).1.trans ?_, (h c).2⟩)
    (Cert.ReferenceIdeal.RefVal.run (F := Ideal) m' ρ')
  obtain ⟨hx, hlab⟩ := pre_facts m hpre c
  rw [Cert.ReferenceIdeal.RefVal.final_v62 (F := Ideal) m' c, (hagree c).1, (hagree c).2.1, (hagree c).2.2.1, (hagree c).2.2.2,
    Cert.ReferenceIdeal.RefVal.v2_eq _ _ hx hlab, Cert.ReferenceIdeal.RefVal.v7_eq _ hx, Cert.ReferenceIdeal.RefVal.v25_eq _ hx,
    Cert.ReferenceIdeal.RefVal.tailR_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
